-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  IdealRules.truncf_extf.Statement Cert.KernelIdeal.S4096x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S262144 : Shape := ⟨1, ![262144]⟩
abbrev S3x256 : Shape := ⟨2, ![3, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  bcast_S_S262144 : S_.BroadcastsInDim S262144 (![] : Fin 0 → Fin S262144.rank)
  reducesTo_S262144_S_d0 : S262144.ReducesTo [0] S_

variable [Facts]

def fn_part5 {F : FTy → Type} [FloatOps F] (main_arg2 : IVec S262144 32) (main_v83 : IVec S_ 1) (main_v84 : FVec F S3 .f32) (main_cst_32 : FVec F S_ .f32) : IVec S_ 1 :=
  let main_v85 : FVec F S3 .f32 := broadcastInDim S3 ![] bcast_S_S3 main_cst_32
  let main_v86 : IVec S3 1 := cmpf .olt main_v84 main_v85
  let main_c_33 : IVec S_ 1 := constantI S_ 1 1#1
  let main_v87 : IVec S_ 1 := (fun x v => Host.reduce IntOp.andi x v reducesTo_S3_S_d0 h_S_) main_v86 main_c_33
  let main_v88 : IVec S_ 1 := andi main_v83 main_v87
  let main_c_34 : IVec S_ 32 := constantI S_ 32 0#32
  let main_v89 : IVec S262144 32 := broadcastInDim S262144 ![] bcast_S_S262144 main_c_34
  let main_v90 : IVec S262144 1 := cmpi .sge main_arg2 main_v89
  let main_c_35 : IVec S_ 32 := constantI S_ 32 64#32
  let main_v91 : IVec S262144 32 := broadcastInDim S262144 ![] bcast_S_S262144 main_c_35
  let main_v92 : IVec S262144 1 := cmpi .slt main_arg2 main_v91
  let main_v93 : IVec S262144 1 := andi main_v90 main_v92
  let main_c_36 : IVec S_ 1 := constantI S_ 1 1#1
  let main_v94 : IVec S_ 1 := (fun x v => Host.reduce IntOp.andi x v reducesTo_S262144_S_d0 h_S_) main_v93 main_c_36
  let main_v95 : IVec S_ 1 := andi main_v88 main_v94
  main_v95

def fn_part4 {F : FTy → Type} [FloatOps F] (main_arg2 : IVec S262144 32) (main_arg16 : FVec F S256x256 .f32) (main_arg17 : FVec F S256 .f32) (main_arg18 : FVec F S256x3 .f32) (main_arg19 : FVec F S3 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x3 .f32 := Host.absf main_arg18
  let main_cst_30 : FVec F S_ .f32 := constant S_ .f32 0x7F800000#32
  let main_v80 : FVec F S256x3 .f32 := broadcastInDim S256x3 ![] bcast_S_S256x3 main_cst_30
  let main_v81 : IVec S256x3 1 := cmpf .olt main_v79 main_v80
  let main_c_31 : IVec S_ 1 := constantI S_ 1 1#1
  let main_v82 : IVec S_ 1 := (fun x v => Host.reduce IntOp.andi x v reducesTo_S256x3_S_d0_1 h_S_) main_v81 main_c_31
  let main_v83 : IVec S_ 1 := andi main_v78 main_v82
  let main_v84 : FVec F S3 .f32 := Host.absf main_arg19
  let main_cst_32 : FVec F S_ .f32 := constant S_ .f32 0x7F800000#32
  fn_part5 (F := F) main_arg2 main_v83 main_v84 main_cst_32

def fn_part3 {F : FTy → Type} [FloatOps F] (main_arg2 : IVec S262144 32) (main_arg13 : FVec F S256 .f32) (main_arg14 : FVec F S256x256 .f32) (main_arg15 : FVec F S256 .f32) (main_arg16 : FVec F S256x256 .f32) (main_arg17 : FVec F S256 .f32) (main_arg18 : FVec F S256x3 .f32) (main_arg19 : FVec F S3 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg16 main_arg17 main_arg18 main_arg19 main_v63 main_v67

def fn_part2 {F : FTy → Type} [FloatOps F] (main_arg2 : IVec S262144 32) (main_arg9 : FVec F S256 .f32) (main_arg10 : FVec F S3x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x3 .f32) (main_arg19 : FVec F S3 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg2 main_arg13 main_arg14 main_arg15 main_arg16 main_arg17 main_arg18 main_arg19 main_v48 main_v49 main_v50

def fn_part1 {F : FTy → Type} [FloatOps F] (main_arg2 : IVec S262144 32) (main_arg6 : FVec F S256x256 .f32) (main_arg7 : FVec F S256 .f32) (main_arg8 : FVec F S256x256 .f32) (main_arg9 : FVec F S256 .f32) (main_arg10 : FVec F S3x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x3 .f32) (main_arg19 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_v33

def fn {F : FTy → Type} [FloatOps F] (main_arg0 : FVec F S262144x3 .f32) (main_arg1 : FVec F S262144x3 .f32) (main_arg2 : IVec S262144 32) (main_arg3 : IVec S262144 32) (main_arg4 : FVec F S3x256 .f32) (main_arg5 : FVec F S256 .f32) (main_arg6 : FVec F S256x256 .f32) (main_arg7 : FVec F S256 .f32) (main_arg8 : FVec F S256x256 .f32) (main_arg9 : FVec F S256 .f32) (main_arg10 : FVec F S3x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x3 .f32) (main_arg19 : FVec F S3 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S3x256 .f32 := Host.absf main_arg4
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_v13 main_v16
-- ==== Kernel.lean ====
abbrev S262144x3 : Shape := ⟨2, ![262144, 3]⟩
abbrev S262144 : Shape := ⟨1, ![262144]⟩
abbrev S3x256 : Shape := ⟨2, ![3, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S262144x1 : Shape := ⟨2, ![262144, 1]⟩
abbrev S3x1 : Shape := ⟨2, ![3, 1]⟩
abbrev S2x64x256 : Shape := ⟨3, ![2, 64, 256]⟩
abbrev S2x1x64 : Shape := ⟨3, ![2, 1, 64]⟩
abbrev S4096x3 : Shape := ⟨2, ![4096, 3]⟩
abbrev S4096x1 : Shape := ⟨2, ![4096, 1]⟩
abbrev S1x64x256 : Shape := ⟨3, ![1, 64, 256]⟩
abbrev S1x1x64 : Shape := ⟨3, ![1, 1, 64]⟩
abbrev S64x256 : Shape := ⟨2, ![64, 256]⟩
abbrev S1x64 : Shape := ⟨2, ![1, 64]⟩
abbrev S1x256 : Shape := ⟨2, ![1, 256]⟩
abbrev S4096x256 : Shape := ⟨2, ![4096, 256]⟩
abbrev S4096x64 : Shape := ⟨2, ![4096, 64]⟩
abbrev S64 : Shape := ⟨1, ![64]⟩
abbrev S_ : Shape := ⟨0, ![]⟩
abbrev S64x1 : Shape := ⟨2, ![64, 1]⟩
abbrev S3x262144 : Shape := ⟨2, ![3, 262144]⟩
abbrev S3x4096 : Shape := ⟨2, ![3, 4096]⟩

abbrev nBuf : Space → Nat
  | .hbm => 44
  | .vmem => 33
  | .smem => 0
  | _ => 0

abbrev bufTy : (tb : Table) → Fin (tcTables nBuf tb) → BufTy
  | .hbm, ⟨0, _⟩ => ⟨S262144x3, .f32⟩
  | .hbm, ⟨1, _⟩ => ⟨S262144x3, .f32⟩
  | .hbm, ⟨2, _⟩ => ⟨S262144, .i32⟩
  | .hbm, ⟨3, _⟩ => ⟨S262144, .i32⟩
  | .hbm, ⟨4, _⟩ => ⟨S3x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S3x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x3, .f32⟩
  | .hbm, ⟨19, _⟩ => ⟨S3, .f32⟩
  | .hbm, ⟨20, _⟩ => ⟨S262144x1, .i32⟩
  | .hbm, ⟨21, _⟩ => ⟨S262144x1, .i32⟩
  | .hbm, ⟨22, _⟩ => ⟨S256x256, .bf16⟩
  | .hbm, ⟨23, _⟩ => ⟨S256x256, .bf16⟩
  | .hbm, ⟨24, _⟩ => ⟨S256x256, .bf16⟩
  | .hbm, ⟨25, _⟩ => ⟨S256x256, .bf16⟩
  | .hbm, ⟨26, _⟩ => ⟨S256x256, .bf16⟩
  | .hbm, ⟨27, _⟩ => ⟨S256x3, .bf16⟩
  | .hbm, ⟨28, _⟩ => ⟨S3x1, .f32⟩
  | .hbm, ⟨29, _⟩ => ⟨S2x64x256, .f32⟩
  | .hbm, ⟨30, _⟩ => ⟨S2x1x64, .f32⟩
  | .hbm, ⟨31, _⟩ => ⟨S_, .f32⟩
  | .hbm, ⟨32, _⟩ => ⟨S64x256, .f32⟩
  | .hbm, ⟨33, _⟩ => ⟨S_, .f32⟩
  | .hbm, ⟨34, _⟩ => ⟨S1x64, .f32⟩
  | .hbm, ⟨35, _⟩ => ⟨S64x1, .f32⟩
  | .hbm, ⟨36, _⟩ => ⟨S_, .f32⟩
  | .hbm, ⟨37, _⟩ => ⟨S64x1, .f32⟩
  | .hbm, ⟨38, _⟩ => ⟨S64x1, .f32⟩
  | .hbm, ⟨39, _⟩ => ⟨S64x256, .f32⟩
  | .hbm, ⟨40, _⟩ => ⟨S64x256, .f32⟩
  | .hbm, ⟨41, _⟩ => ⟨S64x256, .bf16⟩
  | .hbm, ⟨42, _⟩ => ⟨S3x262144, .f32⟩
  | .hbm, ⟨43, _⟩ => ⟨S262144x3, .f32⟩
  | .local _ .vmem, ⟨0, _⟩ => ⟨S4096x3, .f32⟩
  | .local _ .vmem, ⟨1, _⟩ => ⟨S4096x3, .f32⟩
  | .local _ .vmem, ⟨2, _⟩ => ⟨S4096x1, .i32⟩
  | .local _ .vmem, ⟨3, _⟩ => ⟨S4096x1, .i32⟩
  | .local _ .vmem, ⟨4, _⟩ => ⟨S3x256, .f32⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S1x64x256, .f32⟩
  | .local _ .vmem, ⟨11, _⟩ => ⟨S1x64x256, .f32⟩
  | .local _ .vmem, ⟨12, _⟩ => ⟨S1x1x64, .f32⟩
  | .local _ .vmem, ⟨13, _⟩ => ⟨S1x1x64, .f32⟩
  | .local _ .vmem, ⟨14, _⟩ => ⟨S64x256, .f32⟩
  | .local _ .vmem, ⟨15, _⟩ => ⟨S1x64, .f32⟩
  | .local _ .vmem, ⟨16, _⟩ => ⟨S4096x3, .f32⟩
  | .local _ .vmem, ⟨17, _⟩ => ⟨S4096x3, .f32⟩
  | .local _ .vmem, ⟨18, _⟩ => ⟨S4096x1, .i32⟩
  | .local _ .vmem, ⟨19, _⟩ => ⟨S4096x1, .i32⟩
  | .local _ .vmem, ⟨20, _⟩ => ⟨S3x256, .f32⟩
  | .local _ .vmem, ⟨21, _⟩ => ⟨S256, .f32⟩
  | .local _ .vmem, ⟨22, _⟩ => ⟨S256x256, .bf16⟩
  | .local _ .vmem, ⟨23, _⟩ => ⟨S256, .f32⟩
  | .local _ .vmem, ⟨24, _⟩ => ⟨S256x256, .bf16⟩
  | .local _ .vmem, ⟨25, _⟩ => ⟨S256, .f32⟩
  | .local _ .vmem, ⟨26, _⟩ => ⟨S64x256, .bf16⟩
  | .local _ .vmem, ⟨27, _⟩ => ⟨S256x256, .bf16⟩
  | .local _ .vmem, ⟨28, _⟩ => ⟨S256, .f32⟩
  | .local _ .vmem, ⟨29, _⟩ => ⟨S256x3, .bf16⟩
  | .local _ .vmem, ⟨30, _⟩ => ⟨S3x1, .f32⟩
  | .local _ .vmem, ⟨31, _⟩ => ⟨S3x4096, .f32⟩
  | .local _ .vmem, ⟨32, _⟩ => ⟨S3x4096, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_cst : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg13_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem13_1 : DmaSem sig := 30

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v69 : BitVec 1 := Scalar.cmpi .eq arg1 c31_i32
  let v70 : BitVec 32 := Scalar.extui v69
  let c0_i32_26 : BitVec 32 := 0#32
  let v71 : BitVec 1 := Scalar.cmpi .ne v70 c0_i32_26
  v71

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x3 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S3x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S3x4096 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  shapeCasts_S262144_S262144x1 : S262144.ShapeCasts S262144x1
  bitsLt_bf16_f32 : FTy.bits .bf16 < FTy.bits .f32
  shapeCasts_S3_S3x1 : S3.ShapeCasts S3x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S4096x3_S4096x3_0_0 : ∀ a, (![0, 0] : Fin 2 → Nat) a + S4096x3.size a ≤ S4096x3.size a
  h_S4096x3 : 0 < S4096x3.numel
  inb_S3x256_S3x256_0_0 : ∀ a, (![0, 0] : Fin 2 → Nat) a + S3x256.size a ≤ S3x256.size a
  h_S3x256 : 0 < S3x256.numel
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S4096x3_o0_0_S4096x1 : S4096x3.Slices ![0, 0] S4096x1
  slices_S3x256_o0_0_S1x256 : S3x256.Slices ![0, 0] S1x256
  broadcasts_S4096x1_S4096x256 : S4096x1.Broadcasts S4096x256
  broadcasts_S1x256_S4096x256 : S1x256.Broadcasts S4096x256
  slices_S4096x3_o0_1_S4096x1 : S4096x3.Slices ![0, 1] S4096x1
  slices_S3x256_o1_0_S1x256 : S3x256.Slices ![1, 0] S1x256
  slices_S4096x3_o0_2_S4096x1 : S4096x3.Slices ![0, 2] S4096x1
  slices_S3x256_o2_0_S1x256 : S3x256.Slices ![2, 0] S1x256
  shapeCasts_S256_S1x256 : S256.ShapeCasts S1x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x64_d1_w32 : S4096x64.Iotas .tc 32 [1]
  broadcasts_S4096x1_S4096x64 : S4096x1.Broadcasts S4096x64
  natLt_1_32 : 1 < 32
  reduces_S4096x64_S64 : S4096x64.Reduces [0] S64
  shapeCasts_S64_S1x64 : S64.ShapeCasts S1x64
  shapeCasts_S64x256_S1x64x256 : S64x256.ShapeCasts S1x64x256
  inb_S1x64x256_S1x64x256_0_0_0 : ∀ a, (![0, 0, 0] : Fin 3 → Nat) a + S1x64x256.size a ≤ S1x64x256.size a
  h_S1x64x256 : 0 < S1x64x256.numel
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  reducesTo_S2x64x256_S64x256_d0 : S2x64x256.ReducesTo [0] S64x256
  h_S_ : 0 < S_.numel
  reducesTo_S2x1x64_S1x64_d0 : S2x1x64.ReducesTo [0] S1x64
  shapeCasts_S1x64_S64x1 : S1x64.ShapeCasts S64x1
  bcast_S_S64x1 : S_.BroadcastsInDim S64x1 (![] : Fin 0 → Fin S64x1.rank)
  bcast_S64x1_S64x256_0_1 : S64x1.BroadcastsInDim S64x256 (![0, 1] : Fin 2 → Fin S64x256.rank)
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x4096 : S3x1.Broadcasts S3x4096
  inb_S3x4096_S3x4096_0_0 : ∀ a, (![0, 0] : Fin 2 → Nat) a + S3x4096.size a ≤ S3x4096.size a
  h_S3x4096 : 0 < S3x4096.numel
  transposes_S3x262144_S262144x3_1_0 : S3x262144.Transposes [1, 0] S262144x3
  dot_S4096x256_S256x256_S4096x256_1_0_0_1_n_n_wf : DotDims.WF S4096x256 S256x256 S4096x256 [1] [0] [0] [1] [] []
  dot_S4096x64_S4096x256_S64x256_0_0_1_1_n_n_wf : DotDims.WF S4096x64 S4096x256 S64x256 [0] [0] [1] [1] [] []
  dot_S4096x64_S64x256_S4096x256_1_0_0_1_n_n_wf : DotDims.WF S4096x64 S64x256 S4096x256 [1] [0] [0] [1] [] []
  dot_S256x3_S4096x256_S3x4096_0_1_1_0_n_n_wf : DotDims.WF S256x3 S4096x256 S3x4096 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S262144x3.size a
  hwx0_0 : ∀ i : grid0.Coords, EltTy.bits .f32 = 32 ∨ (Rect.block (s := S262144x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x256.size a
  hwx0_2 : ∀ i : grid0.Coords, EltTy.bits .f32 = 32 ∨ (Rect.block (s := S3x256) S3x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x256.size a ≤ S2x64x256.size a
  hwx0_8 : ∀ i : grid0.Coords, EltTy.bits .f32 = 32 ∨ (Rect.block (s := S2x64x256) S1x64x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x64.size a ≤ S2x1x64.size a
  hwx0_9 : ∀ i : grid0.Coords, EltTy.bits .f32 = 32 ∨ (Rect.block (s := S2x1x64) S1x1x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x3.size a ≤ S262144x3.size a
  hwx1_0 : ∀ i : grid1.Coords, EltTy.bits .f32 = 32 ∨ (Rect.block (s := S262144x3) S4096x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S262144x1.size a
  hwx1_1 : ∀ i : grid1.Coords, EltTy.bits .i32 = 32 ∨ (Rect.block (s := S262144x1) S4096x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x256.size a ≤ S3x256.size a
  hwx1_2 : ∀ i : grid1.Coords, EltTy.bits .f32 = 32 ∨ (Rect.block (s := S3x256) S3x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .bf16 = 32 ∨ (Rect.block (s := S256x256) S256x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x256.size a ≤ S64x256.size a
  hwx1_8 : ∀ i : grid1.Coords, EltTy.bits .bf16 = 32 ∨ (Rect.block (s := S64x256) S64x256.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x256.size a ≤ S256x256.size a
  hwx1_9 : ∀ i : grid1.Coords, EltTy.bits .bf16 = 32 ∨ (Rect.block (s := S256x256) S256x256.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256.size a ≤ S256.size a
  hwx1_10 : ∀ i : grid1.Coords, EltTy.bits .f32 = 32 ∨ (Rect.block (s := S256) S256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x3.size a ≤ S256x3.size a
  hwx1_11 : ∀ i : grid1.Coords, EltTy.bits .bf16 = 32 ∨ (Rect.block (s := S256x3) S256x3.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S3x1.size a ≤ S3x1.size a
  hwx1_12 : ∀ i : grid1.Coords, EltTy.bits .f32 = 32 ∨ (Rect.block (s := S3x1) S3x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S3x4096.size a ≤ S3x262144.size a
  hwx1_13 : ∀ i : grid1.Coords, EltTy.bits .f32 = 32 ∨ (Rect.block (s := S3x262144) S3x4096.size (cc1_transform_13 i) (hinb1_13 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x64_S4096x256_S64x256_0_0_1_1_n_n : DotDims S4096x64 S4096x256 S64x256 where
  lhsContracting := [0]
  rhsContracting := [0]
  lhsNonContracting := [1]
  rhsNonContracting := [1]
  lhsBatch := []
  rhsBatch := []
  wf := dot_S4096x64_S4096x256_S64x256_0_0_1_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S256x3_S4096x256_S3x4096_0_1_1_0_n_n : DotDims S256x3 S4096x256 S3x4096 where
  lhsContracting := [0]
  rhsContracting := [1]
  lhsNonContracting := [1]
  rhsNonContracting := [0]
  lhsBatch := []
  rhsBatch := []
  wf := dot_S256x3_S4096x256_S3x4096_0_1_1_0_n_n_wf

abbrev win0_0 : Pipeline.Window sig grid0 :=
  Pipeline.Window.ofSpec (Memref.whole main_arg1) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S3x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S1x64x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S1x1x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_arg0) S4096x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S3x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S64x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v6) S256x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg17) S256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v7) S256x3.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v8) S3x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v18) S3x4096.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S262144x3 : Shape := ⟨2, ![262144, 3]⟩
abbrev S262144 : Shape := ⟨1, ![262144]⟩
abbrev S3x256 : Shape := ⟨2, ![3, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S262144x256 : Shape := ⟨2, ![262144, 256]⟩
abbrev S1x256 : Shape := ⟨2, ![1, 256]⟩
abbrev S_ : Shape := ⟨0, ![]⟩
abbrev S64x256 : Shape := ⟨2, ![64, 256]⟩
abbrev S262144x1 : Shape := ⟨2, ![262144, 1]⟩
abbrev S64x1 : Shape := ⟨2, ![64, 1]⟩
abbrev S1x3 : Shape := ⟨2, ![1, 3]⟩

abbrev nBuf : Space → Nat
  | .hbm => 92
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S262144x3, .f32⟩
  | .hbm, ⟨2, _⟩ => ⟨S262144, .i32⟩
  | .hbm, ⟨3, _⟩ => ⟨S262144, .i32⟩
  | .hbm, ⟨4, _⟩ => ⟨S3x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S3x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x3, .f32⟩
  | .hbm, ⟨19, _⟩ => ⟨S3, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S1x256, .f32⟩
  | .hbm, ⟨29, _⟩ => ⟨S262144x256, .f32⟩
  | .hbm, ⟨30, _⟩ => ⟨S262144x256, .f32⟩
  | .hbm, ⟨31, _⟩ => ⟨S_, .f32⟩
  | .hbm, ⟨32, _⟩ => ⟨S262144x256, .f32⟩
  | .hbm, ⟨33, _⟩ => ⟨S262144x256, .f32⟩
  | .hbm, ⟨34, _⟩ => ⟨S262144x256, .f32⟩
  | .hbm, ⟨35, _⟩ => ⟨S1x256, .f32⟩
  | .hbm, ⟨36, _⟩ => ⟨S262144x256, .f32⟩
  | .hbm, ⟨37, _⟩ => ⟨S262144x256, .f32⟩
  | .hbm, ⟨38, _⟩ => ⟨S262144x256, .f32⟩
  | .hbm, ⟨39, _⟩ => ⟨S1x256, .f32⟩
  | .hbm, ⟨40, _⟩ => ⟨S262144x256, .f32⟩
  | .hbm, ⟨41, _⟩ => ⟨S262144x256, .f32⟩
  | .hbm, ⟨42, _⟩ => ⟨S_, .f32⟩
  | .hbm, ⟨43, _⟩ => ⟨S262144x256, .f32⟩
  | .hbm, ⟨44, _⟩ => ⟨S262144x256, .f32⟩
  | .hbm, ⟨45, _⟩ => ⟨S262144x256, .f32⟩
  | .hbm, ⟨46, _⟩ => ⟨S1x256, .f32⟩
  | .hbm, ⟨47, _⟩ => ⟨S262144x256, .f32⟩
  | .hbm, ⟨48, _⟩ => ⟨S262144x256, .f32⟩
  | .hbm, ⟨49, _⟩ => ⟨S_, .f32⟩
  | .hbm, ⟨50, _⟩ => ⟨S262144x256, .f32⟩
  | .hbm, ⟨51, _⟩ => ⟨S262144x256, .f32⟩
  | .hbm, ⟨52, _⟩ => ⟨S262144x256, .f32⟩
  | .hbm, ⟨53, _⟩ => ⟨S1x256, .f32⟩
  | .hbm, ⟨54, _⟩ => ⟨S262144x256, .f32⟩
  | .hbm, ⟨55, _⟩ => ⟨S262144x256, .f32⟩
  | .hbm, ⟨56, _⟩ => ⟨S_, .f32⟩
  | .hbm, ⟨57, _⟩ => ⟨S64x256, .f32⟩
  | .hbm, ⟨58, _⟩ => ⟨S262144x1, .i32⟩
  | .hbm, ⟨59, _⟩ => ⟨S64x256, .f32⟩
  | .hbm, ⟨60, _⟩ => ⟨S_, .f32⟩
  | .hbm, ⟨61, _⟩ => ⟨S262144x1, .f32⟩
  | .hbm, ⟨62, _⟩ => ⟨S_, .f32⟩
  | .hbm, ⟨63, _⟩ => ⟨S64x1, .f32⟩
  | .hbm, ⟨64, _⟩ => ⟨S262144x1, .i32⟩
  | .hbm, ⟨65, _⟩ => ⟨S64x1, .f32⟩
  | .hbm, ⟨66, _⟩ => ⟨S_, .f32⟩
  | .hbm, ⟨67, _⟩ => ⟨S64x1, .f32⟩
  | .hbm, ⟨68, _⟩ => ⟨S64x1, .f32⟩
  | .hbm, ⟨69, _⟩ => ⟨S64x256, .f32⟩
  | .hbm, ⟨70, _⟩ => ⟨S64x256, .f32⟩
  | .hbm, ⟨71, _⟩ => ⟨S_, .i32⟩
  | .hbm, ⟨72, _⟩ => ⟨S262144, .i32⟩
  | .hbm, ⟨73, _⟩ => ⟨S262144, .i1⟩
  | .hbm, ⟨74, _⟩ => ⟨S_, .i32⟩
  | .hbm, ⟨75, _⟩ => ⟨S262144, .i32⟩
  | .hbm, ⟨76, _⟩ => ⟨S262144, .i32⟩
  | .hbm, ⟨77, _⟩ => ⟨S262144, .i32⟩
  | .hbm, ⟨78, _⟩ => ⟨S262144x1, .i32⟩
  | .hbm, ⟨79, _⟩ => ⟨S262144x256, .f32⟩
  | .hbm, ⟨80, _⟩ => ⟨S262144x256, .f32⟩
  | .hbm, ⟨81, _⟩ => ⟨S262144x256, .f32⟩
  | .hbm, ⟨82, _⟩ => ⟨S1x256, .f32⟩
  | .hbm, ⟨83, _⟩ => ⟨S262144x256, .f32⟩
  | .hbm, ⟨84, _⟩ => ⟨S262144x256, .f32⟩
  | .hbm, ⟨85, _⟩ => ⟨S_, .f32⟩
  | .hbm, ⟨86, _⟩ => ⟨S262144x256, .f32⟩
  | .hbm, ⟨87, _⟩ => ⟨S262144x256, .f32⟩
  | .hbm, ⟨88, _⟩ => ⟨S262144x3, .f32⟩
  | .hbm, ⟨89, _⟩ => ⟨S1x3, .f32⟩
  | .hbm, ⟨90, _⟩ => ⟨S262144x3, .f32⟩
  | .hbm, ⟨91, _⟩ => ⟨S262144x3, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call3_cst : Ref sig .tc := ⟨.hbm, 49, rfl⟩
abbrev main_call3_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_0 : Ref sig .tc := ⟨.hbm, 60, rfl⟩
abbrev main_v31 : Ref sig .tc := ⟨.hbm, 61, rfl⟩
abbrev main_cst_1 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_2 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c : Ref sig .tc := ⟨.hbm, 71, rfl⟩
abbrev main_v39 : Ref sig .tc := ⟨.hbm, 72, rfl⟩
abbrev main_v40 : Ref sig .tc := ⟨.hbm, 73, rfl⟩
abbrev main_c_3 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call4_cst : Ref sig .tc := ⟨.hbm, 85, rfl⟩
abbrev main_call4_v0 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S_S64x256 : S_.BroadcastsInDim S64x256 (![] : Fin 0 → Fin S64x256.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S_S262144 : S_.BroadcastsInDim S262144 (![] : Fin 0 → Fin S262144.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  dot_S262144x3_S3x256_S262144x256_1_0_0_1_n_n_wf : DotDims.WF S262144x3 S3x256 S262144x256 [1] [0] [0] [1] [] []
  dot_S262144x256_S256x256_S262144x256_1_0_0_1_n_n_wf : DotDims.WF S262144x256 S256x256 S262144x256 [1] [0] [0] [1] [] []
  scatter_S64x256_S262144x1_S262144x256_1_0_0_1_wf : ScatterDims.WF S64x256 S262144x1 S262144x256 [1] [0] [0] 1
  scatter_S64x1_S262144x1_S262144x1_1_0_0_1_wf : ScatterDims.WF S64x1 S262144x1 S262144x1 [1] [0] [0] 1
  gather_S64x256_S262144x1_S262144x256_1_0_n_n_0_1_1256_wf : GatherDims.WF S64x256 S262144x1 S262144x256 [1] [0] [] [0] [] 1 ![1, 256]
  dot_S262144x256_S256x3_S262144x3_1_0_0_1_n_n_wf : DotDims.WF S262144x256 S256x3 S262144x3 [1] [0] [0] [1] [] []

variable [Facts₀]

def dot_S262144x3_S3x256_S262144x256_1_0_0_1_n_n : DotDims S262144x3 S3x256 S262144x256 where
  lhsContracting := [1]
  rhsContracting := [0]
  lhsNonContracting := [0]
  rhsNonContracting := [1]
  lhsBatch := []
  rhsBatch := []
  wf := dot_S262144x3_S3x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def scatter_S64x256_S262144x1_S262144x256_1_0_0_1 : ScatterDims S64x256 S262144x1 S262144x256 where
  updateWindowDims := [1]
  insertedWindowDims := [0]
  scatterDimsToOperandDims := [0]
  indexVectorDim := 1
  wf := scatter_S64x256_S262144x1_S262144x256_1_0_0_1_wf
def scatter_S64x1_S262144x1_S262144x1_1_0_0_1 : ScatterDims S64x1 S262144x1 S262144x1 where
  updateWindowDims := [1]
  insertedWindowDims := [0]
  scatterDimsToOperandDims := [0]
  indexVectorDim := 1
  wf := scatter_S64x1_S262144x1_S262144x1_1_0_0_1_wf
def gather_S64x256_S262144x1_S262144x256_1_0_n_n_0_1_1256 : GatherDims S64x256 S262144x1 S262144x256 where
  offsetDims := [1]
  collapsedSliceDims := [0]
  operandBatchingDims := []
  startIndicesBatchingDims := []
  startIndexMap := [0]
  indexVectorDim := 1
  sliceSizes := ![1, 256]
  wf := gather_S64x256_S262144x1_S262144x256_1_0_n_n_0_1_1256_wf
def dot_S262144x256_S256x3_S262144x3_1_0_0_1_n_n : DotDims S262144x256 S256x3 S262144x3 where
  lhsContracting := [1]
  rhsContracting := [0]
  lhsNonContracting := [0]
  rhsNonContracting := [1]
  lhsBatch := []
  rhsBatch := []
  wf := dot_S262144x256_S256x3_S262144x3_1_0_0_1_n_n_wf

class Facts : Prop extends Facts₀ where

variable [Facts]
-- ==== Proof.KI.TrunkData.lean ====
/-
  Region 0 (the trunk reduction) of the idealized kernel: its proof data. Each core walks 32 row tiles; at a tile the
  body forms the trunk network's output on the tile's 4096 rows, adds its one-hot-weighted column sums into a
  64 x 256 accumulator and the one-hot's column counts into a 1 x 64 accumulator, both reset at the core's first tile
  and copied into the two output blocks at its last. What the two accumulators hold after each grid point is the
  recursion `accAt`; the invariant carries them from point to point.
-/
import proofs.«404486_j82265803588247_3_alg».proof.Proof.Gen.KernelIdeal.Launch
import proofs.«404486_j82265803588247_3_alg».proof.Proof.Gen.KernelIdeal.Skeleton
import proofs.«404486_j82265803588247_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Trunk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sum accumulator after the body at point `t`, given what it held before: the old contents plus the tile's
    one-hot-weighted column sums of the trunk network's output. -/
def stepSum (c : Dev nD) (t : Fin cfg0.N) (acc : Vec F S64x256 .f32) : Vec F S64x256 .f32 :=
  k0_pay2 (k0_pay8 (iblk V c 6 t)) (iblk V c 7 t)
    (k0_pay9 (iblk V c 0 t) (iblk V c 2 t) (iblk V c 3 t) (iblk V c 4 t) (iblk V c 5 t)) (iblk V c 1 t) acc

/-- The count accumulator after the body at point `t`, given what it held before. -/
def stepCnt (c : Dev nD) (t : Fin cfg0.N) (acc : Vec F S1x64 .f32) : Vec F S1x64 .f32 :=
  k0_pay3 (iblk V c 1 t) acc

/-- What the two accumulators hold after the body at position `n`: reset to zero before the step at a core's
    first tile (the positions divisible by 32), carried from the position before otherwise. -/
def accAt (c : Dev nD) : (n : ℕ) → n < cfg0.N → Vec F S64x256 .f32 × Vec F S1x64 .f32
  | 0, hn => (stepSum V c ⟨0, hn⟩ k0_pay6, stepCnt V c ⟨0, hn⟩ k0_pay7)
  | n + 1, hn =>
    if (n + 1) % 32 = 0 then (stepSum V c ⟨n + 1, hn⟩ k0_pay6, stepCnt V c ⟨n + 1, hn⟩ k0_pay7)
    else (stepSum V c ⟨n + 1, hn⟩ (accAt c n (Nat.lt_of_succ_lt hn)).1, stepCnt V c ⟨n + 1, hn⟩ (accAt c n (Nat.lt_of_succ_lt hn)).2)

theorem accAt_reset (c : Dev nD) (t : Fin cfg0.N) (h : t.val % 32 = 0) :
    accAt V c t.val t.isLt = (stepSum V c t k0_pay6, stepCnt V c t k0_pay7) := by
  obtain ⟨n, hn⟩ := t
  cases n with
  | zero => rfl
  | succ n => exact if_pos h

theorem accAt_step (c : Dev nD) (t : Fin cfg0.N) (h : ¬t.val % 32 = 0) :
    accAt V c t.val t.isLt
      = (stepSum V c t (accAt V c (t.val - 1) (Nat.lt_of_le_of_lt (Nat.sub_le _ _) t.isLt)).1,
         stepCnt V c t (accAt V c (t.val - 1) (Nat.lt_of_le_of_lt (Nat.sub_le _ _) t.isLt)).2) := by
  obtain ⟨n, hn⟩ := t
  cases n with
  | zero => exact absurd (Nat.zero_mod _) h
  | succ n => exact if_neg h

/-- The two components at a core's first tile, -/
theorem accAt_reset_fst (c : Dev nD) (t : Fin cfg0.N) (h : t.val % 32 = 0) :
    (accAt V c t.val t.isLt).1 = stepSum V c t k0_pay6 := congrArg Prod.fst (accAt_reset V c t h)
theorem accAt_reset_snd (c : Dev nD) (t : Fin cfg0.N) (h : t.val % 32 = 0) :
    (accAt V c t.val t.isLt).2 = stepCnt V c t k0_pay7 := congrArg Prod.snd (accAt_reset V c t h)
/-- and at any other tile. -/
theorem accAt_step_fst (c : Dev nD) (t : Fin cfg0.N) (h : ¬t.val % 32 = 0) :
    (accAt V c t.val t.isLt).1 = stepSum V c t (accAt V c (t.val - 1) (Nat.lt_of_le_of_lt (Nat.sub_le _ _) t.isLt)).1 :=
  congrArg Prod.fst (accAt_step V c t h)
theorem accAt_step_snd (c : Dev nD) (t : Fin cfg0.N) (h : ¬t.val % 32 = 0) :
    (accAt V c t.val t.isLt).2 = stepCnt V c t (accAt V c (t.val - 1) (Nat.lt_of_le_of_lt (Nat.sub_le _ _) t.isLt)).2 :=
  congrArg Prod.snd (accAt_step V c t h)

/-- The two scratch operands as whole memrefs. -/
abbrev scSum : Memref sig .tc .vmem S64x256 .f32 := Memref.whole cc0_scratch0
abbrev scCnt : Memref sig .tc .vmem S1x64 .f32 := Memref.whole cc0_scratch1

/-- The core's scoped buffers this region never touches (the other region's staging buffers), each whole at some
    contents: with the two scratch buffers they make up the scoped rest the launch hands the region and takes back. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg11_0), ((c : Thread nD τ).loc cc1_stg11_0) ↦{fullShare} f)
    ∗ (∃ f : Buf (Elt F) ((c : Thread nD τ).loc cc1_stg12_0), ((c : Thread nD τ).loc cc1_stg12_0) ↦{fullShare} f)
    ∗ (∃ f : Buf (Elt F) ((c : Thread nD τ).loc cc1_stg13_0), ((c : Thread nD τ).loc cc1_stg13_0) ↦{fullShare} f)
    ∗ (∃ f : Buf (Elt F) ((c : Thread nD τ).loc cc1_stg13_1), ((c : Thread nD τ).loc cc1_stg13_1) ↦{fullShare} f))

/-- The region invariant before position `n`: before the first point the scoped rest at anything and the generator
    register; afterwards the two accumulators at what the point before left, the other scoped buffers at anything. -/
def PhiS (c : Dev nD) : (n : ℕ) → n ≤ cfg0.N → sProp 𝕄
  | 0, _ => Pipeline.ΦA spec0 c
  | n + 1, hn => iprop(iprop(owns (c : Thread nD τ) scSum fullShare ((accAt V c n hn).1)
      ∗ owns (c : Thread nD τ) scCnt fullShare ((accAt V c n hn).2) ∗ restS c) ∗ (∃ r, prngReg c r))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => k0_pay4 (accAt V c t.val t.isLt).1
    | ⟨9, _⟩ => k0_pay5 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t = k0_pay4 (accAt V c t.val t.isLt).1 := by dsimp only [dat0]
theorem after0_9 (c : Dev nD) (t : Fin cfg0.N) : (dat0 V c).after 9 t = k0_pay5 (accAt V c t.val t.isLt).2 := by dsimp only [dat0]

/-- What the body leaves in each input window's buffer is the block it found there. -/
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = iblk V c 7 t := by dsimp only [dat0]

/-! ## The body on any staging memrefs, case by case -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer through the whole-shape rectangle at zero offsets reads the contents. -/
theorem readAt_whole {S : Shape} {e : EltTy} (m : Memref sig .tc .vmem S e) (h : m.IsWhole) {off : Fin S.rank → Nat}
    (hz : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero hz]

/-- A buffer stored whole reads back as the stored payload, whatever it held and whatever was stored before. -/
theorem read_store_whole {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero hz inb y⟩)).trans
    (View.canon_cons_unit_zero hz inb w L)

/-- The condition of the body's first conditional (the reset), from the grid coordinates. -/
abbrev cond0_0 (i : grid0.Coords) : Prop := (Scalar.cmpi .ne (Scalar.extui (Scalar.cmpi .eq (BitVec.ofNat 32 (i 1).val) 0#32)) 0#32) = 1#1
/-- The condition of its second (the copy into the two output blocks). -/
abbrev cond0_1 (i : grid0.Coords) : Prop := k0_cond2 i = 1#1

set_option maxHeartbeats 1000000 in
/-- The body at a core's first tile (the reset taken, the flush not): the two accumulators, whatever they held, end at
    the tile's contribution added to the reset values; the inputs and the two output buffers are left as found. -/
theorem run_A (c : Dev nD) (i : grid0.Coords) (arg2 : Memref sig .tc .vmem S4096x3 .f32) (harg2 : arg2.IsWhole) (arg3 : Memref sig .tc .vmem S4096x1 .i32) (harg3 : arg3.IsWhole) (arg4 : Memref sig .tc .vmem S3x256 .f32) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x64x256 .f32) (harg10 : arg10.IsWhole) (arg11 : Memref sig .tc .vmem S1x1x64 .f32) (harg11 : arg11.IsWhole) (arg12 : Memref sig .tc .vmem S64x256 .f32) (harg12 : arg12.IsWhole) (arg13 : Memref sig .tc .vmem S1x64 .f32) (harg13 : arg13.IsWhole) (hc0 : cond0_0 i) (hc1 : ¬cond0_1 i)
    (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (xi8 : Vec F S1x64x256 .f32) (xi9 : Vec F S1x1x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare xi8 ∗ owns (c : Thread nD τ) arg11 fullShare xi9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9
            ∗ owns (c : Thread nD τ) arg12 fullShare (k0_pay2 (k0_pay8 x6) x7 (k0_pay9 x0 x2 x3 x4 x5) x1 k0_pay6)
            ∗ owns (c : Thread nD τ) arg13 fullShare (k0_pay3 x1 k0_pay7)) -∗ K ⟨⟩))
      ⊢ wp frame (wpE (defs₀ (F := F)) Variants.none c none) E (cc0__trunk_reduce_kernel i arg2 harg2 arg3 harg3 arg4 harg4 arg5 harg5 arg6 harg6 arg7 harg7 arg8 harg8 arg9 harg9 arg10 harg10 arg11 harg11 arg12 harg12 arg13 harg13) K := by
  simp only [cc0__trunk_reduce_kernel_eq_skeleton]; unfold cc0__trunk_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr
    swap; · iexact HS0
    ipureintro
    refine (read_store_whole arg12 _ hz2 inb_S64x256_S64x256_0_0 _ _).trans ?_
    sl_unfold_words
    rw [View.readCov_unit_zero arg12.view hz2 inb_S64x256_S64x256_0_0, readAt_whole arg8 harg8 hz2, readAt_whole arg9 harg9 hz1, readAt_whole arg2 harg2 hz2, readAt_whole arg4 harg4 hz2, readAt_whole arg5 harg5 hz1,
      readAt_whole arg6 harg6 hz2, readAt_whole arg7 harg7 hz1, readAt_whole arg3 harg3 hz2]
  iexists _; isplitr
  swap; · iexact HS1
  ipureintro
  refine (read_store_whole arg13 _ hz2 inb_S1x64_S1x64_0_0 _ _).trans ?_
  sl_unfold_words
  rw [View.readCov_unit_zero arg13.view hz2 inb_S1x64_S1x64_0_0, readAt_whole arg3 harg3 hz2]
set_option maxHeartbeats 1000000 in
/-- The body at a tile that is neither a core's first nor its last (neither branch taken): the two accumulators end
    at the tile's contribution added to what they held; the inputs and the two output buffers are left as found. -/
theorem run_B (c : Dev nD) (i : grid0.Coords) (arg2 : Memref sig .tc .vmem S4096x3 .f32) (harg2 : arg2.IsWhole) (arg3 : Memref sig .tc .vmem S4096x1 .i32) (harg3 : arg3.IsWhole) (arg4 : Memref sig .tc .vmem S3x256 .f32) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x64x256 .f32) (harg10 : arg10.IsWhole) (arg11 : Memref sig .tc .vmem S1x1x64 .f32) (harg11 : arg11.IsWhole) (arg12 : Memref sig .tc .vmem S64x256 .f32) (harg12 : arg12.IsWhole) (arg13 : Memref sig .tc .vmem S1x64 .f32) (harg13 : arg13.IsWhole) (hc0 : ¬cond0_0 i) (hc1 : ¬cond0_1 i)
    (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (xi8 : Vec F S1x64x256 .f32) (xi9 : Vec F S1x1x64 .f32) (s0 : Vec F S64x256 .f32) (s1 : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare xi8 ∗ owns (c : Thread nD τ) arg11 fullShare xi9
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9
            ∗ owns (c : Thread nD τ) arg12 fullShare (k0_pay2 (k0_pay8 x6) x7 (k0_pay9 x0 x2 x3 x4 x5) x1 s0)
            ∗ owns (c : Thread nD τ) arg13 fullShare (k0_pay3 x1 s1)) -∗ K ⟨⟩))
      ⊢ wp frame (wpE (defs₀ (F := F)) Variants.none c none) E (cc0__trunk_reduce_kernel i arg2 harg2 arg3 harg3 arg4 harg4 arg5 harg5 arg6 harg6 arg7 harg7 arg8 harg8 arg9 harg9 arg10 harg10 arg11 harg11 arg12 harg12 arg13 harg13) K := by
  simp only [cc0__trunk_reduce_kernel_eq_skeleton]; unfold cc0__trunk_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hfs0; obtain rfl := harg13.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr
    swap; · iexact HS0
    ipureintro
    refine (read_store_whole arg12 _ hz2 inb_S64x256_S64x256_0_0 _ _).trans ?_
    sl_unfold_words
    rw [readAt_whole arg8 harg8 hz2, readAt_whole arg9 harg9 hz1, readAt_whole arg2 harg2 hz2, readAt_whole arg4 harg4 hz2, readAt_whole arg5 harg5 hz1,
      readAt_whole arg6 harg6 hz2, readAt_whole arg7 harg7 hz1, readAt_whole arg3 harg3 hz2, readAt_whole arg12 harg12 hz2]
  iexists _; isplitr
  swap; · iexact HS1
  ipureintro
  refine (read_store_whole arg13 _ hz2 inb_S1x64_S1x64_0_0 _ _).trans ?_
  rw [readAt_whole arg3 harg3 hz2, readAt_whole arg13 harg13 hz2]

set_option maxHeartbeats 1000000 in
/-- The body at a core's last tile (the reset not taken, the flush taken): the two accumulators end at the tile's
    contribution added to what they held, and the two output buffers, whatever they held, at those sums reshaped. -/
theorem run_C (c : Dev nD) (i : grid0.Coords) (arg2 : Memref sig .tc .vmem S4096x3 .f32) (harg2 : arg2.IsWhole) (arg3 : Memref sig .tc .vmem S4096x1 .i32) (harg3 : arg3.IsWhole) (arg4 : Memref sig .tc .vmem S3x256 .f32) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x64x256 .f32) (harg10 : arg10.IsWhole) (arg11 : Memref sig .tc .vmem S1x1x64 .f32) (harg11 : arg11.IsWhole) (arg12 : Memref sig .tc .vmem S64x256 .f32) (harg12 : arg12.IsWhole) (arg13 : Memref sig .tc .vmem S1x64 .f32) (harg13 : arg13.IsWhole) (hc0 : ¬cond0_0 i) (hc1 : cond0_1 i)
    (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (s0 : Vec F S64x256 .f32) (s1 : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay4 (k0_pay2 (k0_pay8 x6) x7 (k0_pay9 x0 x2 x3 x4 x5) x1 s0))
            ∗ owns (c : Thread nD τ) arg11 fullShare (k0_pay5 (k0_pay3 x1 s1))
            ∗ owns (c : Thread nD τ) arg12 fullShare (k0_pay2 (k0_pay8 x6) x7 (k0_pay9 x0 x2 x3 x4 x5) x1 s0)
            ∗ owns (c : Thread nD τ) arg13 fullShare (k0_pay3 x1 s1)) -∗ K ⟨⟩))
      ⊢ wp frame (wpE (defs₀ (F := F)) Variants.none c none) E (cc0__trunk_reduce_kernel i arg2 harg2 arg3 harg3 arg4 harg4 arg5 harg5 arg6 harg6 arg7 harg7 arg8 harg8 arg9 harg9 arg10 harg10 arg11 harg11 arg12 harg12 arg13 harg13) K := by
  simp only [cc0__trunk_reduce_kernel_eq_skeleton]; unfold cc0__trunk_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg12.eq_unread hfs0; obtain rfl := harg13.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (read_store_whole arg10 _ hz3 inb_S1x64x256_S1x64x256_0_0_0 _ _).trans ?_
    sl_unfold_words
    rw [View.readCov_unit_zero arg12.view hz2 inb_S64x256_S64x256_0_0, readAt_whole arg8 harg8 hz2, readAt_whole arg9 harg9 hz1, readAt_whole arg2 harg2 hz2, readAt_whole arg4 harg4 hz2, readAt_whole arg5 harg5 hz1,
      readAt_whole arg6 harg6 hz2, readAt_whole arg7 harg7 hz1, readAt_whole arg3 harg3 hz2, readAt_whole arg12 harg12 hz2]
  isplitl [H9]
  · iexists _; isplitr
    swap; · iexact H9
    ipureintro
    refine (read_store_whole arg11 _ hz3 inb_S1x1x64_S1x1x64_0_0_0 _ _).trans ?_
    sl_unfold_words
    rw [View.readCov_unit_zero arg13.view hz2 inb_S1x64_S1x64_0_0, readAt_whole arg3 harg3 hz2, readAt_whole arg13 harg13 hz2]
  isplitl [HS0]
  · iexists _; isplitr
    swap; · iexact HS0
    ipureintro
    refine (read_store_whole arg12 _ hz2 inb_S64x256_S64x256_0_0 _ _).trans ?_
    sl_unfold_words
    rw [readAt_whole arg8 harg8 hz2, readAt_whole arg9 harg9 hz1, readAt_whole arg2 harg2 hz2, readAt_whole arg4 harg4 hz2, readAt_whole arg5 harg5 hz1,
      readAt_whole arg6 harg6 hz2, readAt_whole arg7 harg7 hz1, readAt_whole arg3 harg3 hz2, readAt_whole arg12 harg12 hz2]
  iexists _; isplitr
  swap; · iexact HS1
  ipureintro
  refine (read_store_whole arg13 _ hz2 inb_S1x64_S1x64_0_0 _ _).trans ?_
  rw [readAt_whole arg3 harg3 hz2, readAt_whole arg13 harg13 hz2]

/-! ## The conditions and the idle table over the grid -/

/-- The reset is taken at the points divisible by 32: each core's first tile. -/
theorem hcond0_0 : ∀ t : Fin cfg0.N, cond0_0 (grid0.coords t) ↔ t.val % 32 = 0 :=
  (by decide +kernel : ∀ t : Fin grid0.N, cond0_0 (grid0.coords t) ↔ t.val % 32 = 0)
/-- The copy out is taken at the points that are 31 modulo 32: each core's last tile. -/
theorem hcond0_1 : ∀ t : Fin cfg0.N, cond0_1 (grid0.coords t) ↔ t.val % 32 = 31 :=
  (by decide +kernel : ∀ t : Fin grid0.N, cond0_1 (grid0.coords t) ↔ t.val % 32 = 31)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Off a core's last tile the two output windows are idle and not written back; at it they are live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The invariant, point by point -/

/-- Each window's current staging memref at point `t`, as the pipeline passes it to the body, and its wholeness. -/
abbrev ms0_0 (t : Fin cfg0.N) : Memref sig .tc .vmem S4096x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x64 .f32 := win0_9.stage (cfg0.slots t 9)
abbrev hs0_9 (t : Fin cfg0.N) : (ms0_9 t).IsWhole := hstage0_9 ((cfg0.slots t 9).cast nbuf0_9)

/-- What the launch hands the region, with the two scratch buffers as memrefs owned at some contents. -/
theorem PhiA0_eq (c : Dev nD) :
    (Pipeline.ΦA spec0 c : sProp 𝕄)
      = iprop(iprop((∃ d, owns (c : Thread nD τ) scSum fullShare d) ∗ (∃ d, owns (c : Thread nD τ) scCnt fullShare d) ∗ restS c) ∗ (∃ r, prngReg c r)) := by
  unfold Pipeline.ΦA restS; rw [scopedRest0_eq]; simp only [scSum, scCnt, owns_whole]; try rfl

theorem PhiS_zero (c : Dev nD) (n : ℕ) (h : n ≤ cfg0.N) (hz : n = 0) : PhiS V c n h = Pipeline.ΦA spec0 c := by
  subst hz; rfl

/-- After point `n`: the two accumulators at that point's contents. -/
theorem PhiS_succ (c : Dev nD) (n : ℕ) (hn : n < cfg0.N) :
    PhiS V c (n + 1) hn = iprop(iprop(owns (c : Thread nD τ) scSum fullShare ((accAt V c n hn).1)
      ∗ owns (c : Thread nD τ) scCnt fullShare ((accAt V c n hn).2) ∗ restS c) ∗ (∃ r, prngReg c r)) := rfl

/-- Before a point that is not the first: the two accumulators at what the point before left. -/
theorem PhiS_pos (c : Dev nD) (n : ℕ) (h : n ≤ cfg0.N) (hz : n ≠ 0) :
    PhiS V c n h = iprop(iprop(owns (c : Thread nD τ) scSum fullShare ((accAt V c (n - 1) (by omega)).1)
      ∗ owns (c : Thread nD τ) scCnt fullShare ((accAt V c (n - 1) (by omega)).2) ∗ restS c) ∗ (∃ r, prngReg c r)) := by
  cases n with
  | zero => exact absurd rfl hz
  | succ n => rfl

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-! ## What the body finds and leaves, window by window -/

/-- Each input's current staging buffer holds its block at every point, fetched there or not: unfetched, the block
    index has not moved since the fetch, and the body left the block in place. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq0]; try rfl) t d).trans
    (by unfold Dat.fetched Dat.blockOf iblk; rw [A_eq0]; try rfl)
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A_eq0]; try rfl) t d).trans
    (by unfold Dat.fetched Dat.blockOf iblk; rw [A_eq0]; try rfl)
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A_eq0]; try rfl) t d).trans
    (by unfold Dat.fetched Dat.blockOf iblk; rw [A_eq0]; try rfl)
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A_eq0]; try rfl) t d).trans
    (by unfold Dat.fetched Dat.blockOf iblk; rw [A_eq0]; try rfl)
theorem before0_4 (c : Dev nD) (t : Fin cfg0.N) (d) : (dat0 V c).before 4 t d = iblk V c 4 t :=
  ((dat0 V c).before_in_eq_fetched 4 rfl (fun _ => rfl) (fun _ _ _ => rfl) (fun t => by rw [after0_4]; unfold Dat.blockOf iblk; rw [A_eq0]; try rfl) t d).trans
    (by unfold Dat.fetched Dat.blockOf iblk; rw [A_eq0]; try rfl)
theorem before0_5 (c : Dev nD) (t : Fin cfg0.N) (d) : (dat0 V c).before 5 t d = iblk V c 5 t :=
  ((dat0 V c).before_in_eq_fetched 5 rfl (fun _ => rfl) (fun _ _ _ => rfl) (fun t => by rw [after0_5]; unfold Dat.blockOf iblk; rw [A_eq0]; try rfl) t d).trans
    (by unfold Dat.fetched Dat.blockOf iblk; rw [A_eq0]; try rfl)
theorem before0_6 (c : Dev nD) (t : Fin cfg0.N) (d) : (dat0 V c).before 6 t d = iblk V c 6 t :=
  ((dat0 V c).before_in_eq_fetched 6 rfl (fun _ => rfl) (fun _ _ _ => rfl) (fun t => by rw [after0_6]; unfold Dat.blockOf iblk; rw [A_eq0]; try rfl) t d).trans
    (by unfold Dat.fetched Dat.blockOf iblk; rw [A_eq0]; try rfl)
theorem before0_7 (c : Dev nD) (t : Fin cfg0.N) (d) : (dat0 V c).before 7 t d = iblk V c 7 t :=
  ((dat0 V c).before_in_eq_fetched 7 rfl (fun _ => rfl) (fun _ _ _ => rfl) (fun t => by rw [after0_7]; unfold Dat.blockOf iblk; rw [A_eq0]; try rfl) t d).trans
    (by unfold Dat.fetched Dat.blockOf iblk; rw [A_eq0]; try rfl)

/-- The body leaves each input's buffer at its block; -/
theorem leaves0_0 (c : Dev nD) (t : Fin cfg0.N) : (dat0 V c).leavesExact 0 t = owns (c : Thread nD τ) (ms0_0 t) fullShare (iblk V c 0 t) := by
  unfold Dat.leavesExact; rw [liveAt0_0 t, after0_0]
theorem leaves0_1 (c : Dev nD) (t : Fin cfg0.N) : (dat0 V c).leavesExact 1 t = owns (c : Thread nD τ) (ms0_1 t) fullShare (iblk V c 1 t) := by
  unfold Dat.leavesExact; rw [liveAt0_1 t, after0_1]
theorem leaves0_2 (c : Dev nD) (t : Fin cfg0.N) : (dat0 V c).leavesExact 2 t = owns (c : Thread nD τ) (ms0_2 t) fullShare (iblk V c 2 t) := by
  unfold Dat.leavesExact; rw [liveAt0_2 t, after0_2]
theorem leaves0_3 (c : Dev nD) (t : Fin cfg0.N) : (dat0 V c).leavesExact 3 t = owns (c : Thread nD τ) (ms0_3 t) fullShare (iblk V c 3 t) := by
  unfold Dat.leavesExact; rw [liveAt0_3 t, after0_3]
theorem leaves0_4 (c : Dev nD) (t : Fin cfg0.N) : (dat0 V c).leavesExact 4 t = owns (c : Thread nD τ) (ms0_4 t) fullShare (iblk V c 4 t) := by
  unfold Dat.leavesExact; rw [liveAt0_4 t, after0_4]
theorem leaves0_5 (c : Dev nD) (t : Fin cfg0.N) : (dat0 V c).leavesExact 5 t = owns (c : Thread nD τ) (ms0_5 t) fullShare (iblk V c 5 t) := by
  unfold Dat.leavesExact; rw [liveAt0_5 t, after0_5]
theorem leaves0_6 (c : Dev nD) (t : Fin cfg0.N) : (dat0 V c).leavesExact 6 t = owns (c : Thread nD τ) (ms0_6 t) fullShare (iblk V c 6 t) := by
  unfold Dat.leavesExact; rw [liveAt0_6 t, after0_6]
theorem leaves0_7 (c : Dev nD) (t : Fin cfg0.N) : (dat0 V c).leavesExact 7 t = owns (c : Thread nD τ) (ms0_7 t) fullShare (iblk V c 7 t) := by
  unfold Dat.leavesExact; rw [liveAt0_7 t, after0_7]
/-- off a core's last tile each output's buffer as found, at it the accumulators reshaped. -/
theorem leaves0_8_idle (c : Dev nD) (t : Fin cfg0.N) (h : ¬cond0_1 (grid0.coords t)) :
    (dat0 V c).leavesExact 8 t = iprop(∃ d, owns (c : Thread nD τ) (ms0_8 t) fullShare ((dat0 V c).before 8 t d)) :=
  Dat.leavesExact_idle (dat0 V c) 8 t (idleAt0_8 t h) (noFlush0_8 t h)
theorem leaves0_9_idle (c : Dev nD) (t : Fin cfg0.N) (h : ¬cond0_1 (grid0.coords t)) :
    (dat0 V c).leavesExact 9 t = iprop(∃ d, owns (c : Thread nD τ) (ms0_9 t) fullShare ((dat0 V c).before 9 t d)) :=
  Dat.leavesExact_idle (dat0 V c) 9 t (idleAt0_9 t h) (noFlush0_9 t h)
theorem leaves0_8_live (c : Dev nD) (t : Fin cfg0.N) (h : cond0_1 (grid0.coords t)) :
    (dat0 V c).leavesExact 8 t = owns (c : Thread nD τ) (ms0_8 t) fullShare (k0_pay4 (accAt V c t.val t.isLt).1) := by
  unfold Dat.leavesExact; rw [liveAt0_8 t h, after0_8]
theorem leaves0_9_live (c : Dev nD) (t : Fin cfg0.N) (h : cond0_1 (grid0.coords t)) :
    (dat0 V c).leavesExact 9 t = owns (c : Thread nD τ) (ms0_9 t) fullShare (k0_pay5 (accAt V c t.val t.isLt).2) := by
  unfold Dat.leavesExact; rw [liveAt0_9 t h, after0_9]

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
/-- The body at any point. The inputs' buffers hold their blocks; the closed forms say which of the three cases the
    point is in; the invariant hands the body the two accumulators (at anything at the first point, at what the point
    before left afterwards) and takes them back at this point's contents by the recursion's two equations; the other
    scoped buffers and the generator register pass through; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0 V, before0_1 V, before0_2 V, before0_3 V, before0_4 V, before0_5 V, before0_6 V, before0_7 V]
  rewrite [show (dat0 V c).owesAt () t.succ = (dat0 V c).owesAt () t.castSucc from rfl]
  rewrite [show (dat0 V c).Φ t.succ = PhiS V c (t.val + 1) t.isLt from rfl, PhiS_succ]
  rewrite [leaves0_0, leaves0_1, leaves0_2, leaves0_3, leaves0_4, leaves0_5, leaves0_6, leaves0_7]
  have hN : t.val < 64 := lt_of_lt_of_eq t.isLt (show cfg0.N = 64 from N_0)
  by_cases h0 : t.val % 32 = 0
  · have hc0 : cond0_0 (grid0.coords t) := (hcond0_0 t).mpr h0
    have hc1 : ¬cond0_1 (grid0.coords t) := fun h => by have := (hcond0_1 t).mp h; omega
    rewrite [leaves0_8_idle V c t hc1, leaves0_9_idle V c t hc1, accAt_reset_fst V c t h0, accAt_reset_snd V c t h0]
    unfold stepSum stepCnt
    by_cases hz : t.val = 0
    · rewrite [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scSum (Memref.isWhole_whole _) scCnt (Memref.isWhole_whole _) hc0 hc1
        (iblk V c 0 t) (iblk V c 1 t) (iblk V c 2 t) (iblk V c 3 t) (iblk V c 4 t) (iblk V c 5 t) (iblk V c 6 t) (iblk V c 7 t) ((dat0 V c).before 8 t d8) ((dat0 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rewrite [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scSum (Memref.isWhole_whole _) scCnt (Memref.isWhole_whole _) hc0 hc1
        (iblk V c 0 t) (iblk V c 1 t) (iblk V c 2 t) (iblk V c 3 t) (iblk V c 4 t) (iblk V c 5 t) (iblk V c 6 t) (iblk V c 7 t) ((dat0 V c).before 8 t d8) ((dat0 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      iintro ⟨H0, H1, H2, H3, H4, H5, H6, H7, H8, H9, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun h => h0 (by omega)
    have hc0 : ¬cond0_0 (grid0.coords t) := fun h => h0 ((hcond0_0 t).mp h)
    rewrite [PhiS_castSucc V c t, PhiS_pos V c _ _ hz, accAt_step_fst V c t h0, accAt_step_snd V c t h0]
    unfold stepSum stepCnt
    by_cases h1 : t.val % 32 = 31
    · have hc1 : cond0_1 (grid0.coords t) := (hcond0_1 t).mpr h1
      rewrite [leaves0_8_live V c t hc1, leaves0_9_live V c t hc1, accAt_step_fst V c t h0, accAt_step_snd V c t h0]
      unfold stepSum stepCnt
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scSum (Memref.isWhole_whole _) scCnt (Memref.isWhole_whole _) hc0 hc1
        (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)).1 (accAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬cond0_1 (grid0.coords t) := fun h => h1 ((hcond0_1 t).mp h)
      rewrite [leaves0_8_idle V c t hc1, leaves0_9_idle V c t hc1]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scSum (Memref.isWhole_whole _) scCnt (Memref.isWhole_whole _) hc0 hc1
        (iblk V c 0 t) (iblk V c 1 t) (iblk V c 2 t) (iblk V c 3 t) (iblk V c 4 t) (iblk V c 5 t) (iblk V c 6 t) (iblk V c 7 t) ((dat0 V c).before 8 t d8) ((dat0 V c).before 9 t d9)
        (accAt V c (t.val - 1) (Nat.lt_of_le_of_lt (Nat.sub_le _ _) t.isLt)).1 (accAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The body obligation of region 0 at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulators' named contents
    are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- After the last point the invariant gives the class invariant back. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Trunk

end
-- ==== Proof.KI.BranchData.lean ====
/-
  Region 1 (the branch network and the output head) of the idealized kernel: its proof data. At each of the 64 row
  tiles the body forms the branch network's output on the tile's 4096 rows, multiplies it by the rows of the segment
  means its one-hot selects, applies the two-layer head and stores the transposed 3 x 4096 result block whole. Nothing is
  carried between points.
-/
import proofs.«404486_j82265803588247_3_alg».proof.Proof.Gen.KernelIdeal.Launch
import proofs.«404486_j82265803588247_3_alg».proof.Proof.Gen.KernelIdeal.Skeleton
import proofs.«404486_j82265803588247_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Branch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result block the body stores at point `t`. -/
def outBlk (c : Dev nD) (t : Fin cfg1.N) : Vec F S3x4096 .f32 :=
  k1_pay1 (k1_pay2 (iblk V c 0 t) (iblk V c 2 t) (iblk V c 3 t) (iblk V c 4 t) (iblk V c 5 t) (iblk V c 6 t) (iblk V c 7 t))
    (iblk V c 1 t) (iblk V c 8 t) (iblk V c 9 t) (iblk V c 10 t) (iblk V c 11 t) (iblk V c 12 t)

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outBlk V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_13 (c : Dev nD) (t : Fin cfg1.N) : (dat1 V c).after 13 t = outBlk V c t := by dsimp only [dat1]

/-! ## The input windows' buffers at a point -/

/-- What the body leaves in an input window's buffer is the block it found there. -/
theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = iblk V c 3 t := by dsimp only [dat1]
theorem after1_4 (c : Dev nD) (t : Fin cfg1.N) : (dat1 V c).after 4 t = iblk V c 4 t := by dsimp only [dat1]
theorem after1_5 (c : Dev nD) (t : Fin cfg1.N) : (dat1 V c).after 5 t = iblk V c 5 t := by dsimp only [dat1]
theorem after1_6 (c : Dev nD) (t : Fin cfg1.N) : (dat1 V c).after 6 t = iblk V c 6 t := by dsimp only [dat1]
theorem after1_7 (c : Dev nD) (t : Fin cfg1.N) : (dat1 V c).after 7 t = iblk V c 7 t := by dsimp only [dat1]
theorem after1_8 (c : Dev nD) (t : Fin cfg1.N) : (dat1 V c).after 8 t = iblk V c 8 t := by dsimp only [dat1]
theorem after1_9 (c : Dev nD) (t : Fin cfg1.N) : (dat1 V c).after 9 t = iblk V c 9 t := by dsimp only [dat1]
theorem after1_10 (c : Dev nD) (t : Fin cfg1.N) : (dat1 V c).after 10 t = iblk V c 10 t := by dsimp only [dat1]
theorem after1_11 (c : Dev nD) (t : Fin cfg1.N) : (dat1 V c).after 11 t = iblk V c 11 t := by dsimp only [dat1]
theorem after1_12 (c : Dev nD) (t : Fin cfg1.N) : (dat1 V c).after 12 t = iblk V c 12 t := by dsimp only [dat1]

/-- Each input's current staging buffer holds its block at every point, fetched there or not: where the window is
    not fetched its block index has not moved, so the block of the point before is this point's. -/
theorem before1_0 (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)
theorem before1_1 (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)
theorem before1_2 (c : Dev nD) (t : Fin cfg1.N) (d) : (dat1 V c).before 2 t d = iblk V c 2 t :=
  ((dat1 V c).before_in_eq_fetched 2 rfl (fun _ => rfl) (fun _ _ _ => rfl)
    (fun t => by rw [after1_2]; unfold Dat.blockOf iblk; rw [A_eq1]; try rfl) t d).trans
    (by unfold Dat.fetched Dat.blockOf iblk; rw [A_eq1]; try rfl)
theorem before1_3 (c : Dev nD) (t : Fin cfg1.N) (d) : (dat1 V c).before 3 t d = iblk V c 3 t :=
  ((dat1 V c).before_in_eq_fetched 3 rfl (fun _ => rfl) (fun _ _ _ => rfl)
    (fun t => by rw [after1_3]; unfold Dat.blockOf iblk; rw [A_eq1]; try rfl) t d).trans
    (by unfold Dat.fetched Dat.blockOf iblk; rw [A_eq1]; try rfl)
theorem before1_4 (c : Dev nD) (t : Fin cfg1.N) (d) : (dat1 V c).before 4 t d = iblk V c 4 t :=
  ((dat1 V c).before_in_eq_fetched 4 rfl (fun _ => rfl) (fun _ _ _ => rfl)
    (fun t => by rw [after1_4]; unfold Dat.blockOf iblk; rw [A_eq1]; try rfl) t d).trans
    (by unfold Dat.fetched Dat.blockOf iblk; rw [A_eq1]; try rfl)
theorem before1_5 (c : Dev nD) (t : Fin cfg1.N) (d) : (dat1 V c).before 5 t d = iblk V c 5 t :=
  ((dat1 V c).before_in_eq_fetched 5 rfl (fun _ => rfl) (fun _ _ _ => rfl)
    (fun t => by rw [after1_5]; unfold Dat.blockOf iblk; rw [A_eq1]; try rfl) t d).trans
    (by unfold Dat.fetched Dat.blockOf iblk; rw [A_eq1]; try rfl)
theorem before1_6 (c : Dev nD) (t : Fin cfg1.N) (d) : (dat1 V c).before 6 t d = iblk V c 6 t :=
  ((dat1 V c).before_in_eq_fetched 6 rfl (fun _ => rfl) (fun _ _ _ => rfl)
    (fun t => by rw [after1_6]; unfold Dat.blockOf iblk; rw [A_eq1]; try rfl) t d).trans
    (by unfold Dat.fetched Dat.blockOf iblk; rw [A_eq1]; try rfl)
theorem before1_7 (c : Dev nD) (t : Fin cfg1.N) (d) : (dat1 V c).before 7 t d = iblk V c 7 t :=
  ((dat1 V c).before_in_eq_fetched 7 rfl (fun _ => rfl) (fun _ _ _ => rfl)
    (fun t => by rw [after1_7]; unfold Dat.blockOf iblk; rw [A_eq1]; try rfl) t d).trans
    (by unfold Dat.fetched Dat.blockOf iblk; rw [A_eq1]; try rfl)
theorem before1_8 (c : Dev nD) (t : Fin cfg1.N) (d) : (dat1 V c).before 8 t d = iblk V c 8 t :=
  ((dat1 V c).before_in_eq_fetched 8 rfl (fun _ => rfl) (fun _ _ _ => rfl)
    (fun t => by rw [after1_8]; unfold Dat.blockOf iblk; rw [A_eq1]; try rfl) t d).trans
    (by unfold Dat.fetched Dat.blockOf iblk; rw [A_eq1]; try rfl)
theorem before1_9 (c : Dev nD) (t : Fin cfg1.N) (d) : (dat1 V c).before 9 t d = iblk V c 9 t :=
  ((dat1 V c).before_in_eq_fetched 9 rfl (fun _ => rfl) (fun _ _ _ => rfl)
    (fun t => by rw [after1_9]; unfold Dat.blockOf iblk; rw [A_eq1]; try rfl) t d).trans
    (by unfold Dat.fetched Dat.blockOf iblk; rw [A_eq1]; try rfl)
theorem before1_10 (c : Dev nD) (t : Fin cfg1.N) (d) : (dat1 V c).before 10 t d = iblk V c 10 t :=
  ((dat1 V c).before_in_eq_fetched 10 rfl (fun _ => rfl) (fun _ _ _ => rfl)
    (fun t => by rw [after1_10]; unfold Dat.blockOf iblk; rw [A_eq1]; try rfl) t d).trans
    (by unfold Dat.fetched Dat.blockOf iblk; rw [A_eq1]; try rfl)
theorem before1_11 (c : Dev nD) (t : Fin cfg1.N) (d) : (dat1 V c).before 11 t d = iblk V c 11 t :=
  ((dat1 V c).before_in_eq_fetched 11 rfl (fun _ => rfl) (fun _ _ _ => rfl)
    (fun t => by rw [after1_11]; unfold Dat.blockOf iblk; rw [A_eq1]; try rfl) t d).trans
    (by unfold Dat.fetched Dat.blockOf iblk; rw [A_eq1]; try rfl)
theorem before1_12 (c : Dev nD) (t : Fin cfg1.N) (d) : (dat1 V c).before 12 t d = iblk V c 12 t :=
  ((dat1 V c).before_in_eq_fetched 12 rfl (fun _ => rfl) (fun _ _ _ => rfl)
    (fun t => by rw [after1_12]; unfold Dat.blockOf iblk; rw [A_eq1]; try rfl) t d).trans
    (by unfold Dat.fetched Dat.blockOf iblk; rw [A_eq1]; try rfl)

/-! ## The body's run -/

/-- The zero offsets of a whole-buffer rectangle, however they are spelt. -/
theorem zero2 : (![0, 0] : Fin 2 → Nat) = fun _ => 0 := funext fun a => by fin_cases a <;> rfl
theorem zero1 : (![0] : Fin 1 → Nat) = fun _ => 0 := funext fun a => by fin_cases a; rfl

/-- The stored block as a function of the thirteen input blocks. -/
def outOf (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (x8 : Vec F S64x256 .bf16) (x9 : Vec F S256x256 .bf16) (x10 : Vec F S256 .f32) (x11 : Vec F S256x3 .bf16) (x12 : Vec F S3x1 .f32) : Vec F S3x4096 .f32 :=
  k1_pay1 (k1_pay2 x0 x2 x3 x4 x5 x6 x7) x1 x8 x9 x10 x11 x12

/-- The body's one store is through the whole-buffer rectangle of the output's staging buffer, so it covers it. -/
theorem cover_out (p : Vec F S3x4096 .f32) (y : S3x4096.Idx) :
    ∃ pc ∈ ([⟨Rect.unit (s := S3x4096) ![0, 0] S3x4096.size inb_S3x4096_S3x4096_0_0, p⟩] : List (View.Piece (Elt F) S3x4096 .f32)), y ∈ pc.1.set :=
  ⟨_, List.mem_singleton_self _, View.mem_set_unit_zero (S := S3x4096) zero2 inb_S3x4096_S3x4096_0_0 y⟩

set_option maxHeartbeats 4000000 in
/-- The kernel body on whole staging memrefs, the inputs' at read contents `xW` and the output's at anything, runs to
    the continuation holding the inputs' as they were and the output's at `outOf` of the inputs'. -/
theorem sound_kernel1 (c : Dev nD) (E : Set ℕ) (i : grid1.Coords) (arg1 : Memref sig .tc .vmem S4096x3 .f32) (harg1 : arg1.IsWhole) (arg2 : Memref sig .tc .vmem S4096x1 .i32) (harg2 : arg2.IsWhole) (arg3 : Memref sig .tc .vmem S3x256 .f32) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S64x256 .bf16) (harg9 : arg9.IsWhole) (arg10 : Memref sig .tc .vmem S256x256 .bf16) (harg10 : arg10.IsWhole) (arg11 : Memref sig .tc .vmem S256 .f32) (harg11 : arg11.IsWhole) (arg12 : Memref sig .tc .vmem S256x3 .bf16) (harg12 : arg12.IsWhole) (arg13 : Memref sig .tc .vmem S3x1 .f32) (harg13 : arg13.IsWhole) (arg14 : Memref sig .tc .vmem S3x4096 .f32) (harg14 : arg14.IsWhole)
    (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (x8 : Vec F S64x256 .bf16) (x9 : Vec F S256x256 .bf16) (x10 : Vec F S256 .f32) (x11 : Vec F S256x3 .bf16) (x12 : Vec F S3x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outOf x0 x1 x2 x3 x4 x5 x6 x7 x8 x9 x10 x11 x12)) -∗ K ⟨⟩))
      ⊢ wp frame (wpE (defs₀ (F := F)) Variants.none c none) E (cc1__branch_output_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__branch_output_kernel_eq_skeleton]; unfold cc1__branch_output_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  unfold outOf
  rw [View.read_writes_eq_canon _ _ _ (cover_out _), View.canon_unit_zero zero2]
  simp only [View.readAt_eq_ld,
    View.ld_unit_zero (S := S4096x3) zero2,
    View.ld_unit_zero (S := S4096x1) zero2,
    View.ld_unit_zero (S := S3x256) zero2,
    View.ld_unit_zero (S := S256) zero1,
    View.ld_unit_zero (S := S256x256) zero2,
    View.ld_unit_zero (S := S64x256) zero2,
    View.ld_unit_zero (S := S256x3) zero2,
    View.ld_unit_zero (S := S3x1) zero2]

/-- The stored block at point `t` is `outOf` of the thirteen input blocks there. -/
theorem outBlk_eq (c : Dev nD) (t : Fin cfg1.N) : outBlk V c t = outOf (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := rfl

/-! ## The body obligation, at a generic point -/

/-- What the body is called with at point `t`: the invariant, the core's debt and the fourteen current staging
    buffers, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the thirteen inputs' buffers hold their blocks, so the run applies; the invariant and the
    core's debt are the same before and after and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, outBlk_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of region 1 at every point. -/
theorem body_obligation1 (c : Dev nD) : BodyObligation (dat1 (F := F) V c) (defs₀ (F := F)) Variants.none () Set.univ := fun t => by
  rw [bigSep_W1, bigSep_W1]
  exact sound_body1 V c t

end Cert.KernelIdeal.Branch

end
-- ==== Proof.KI.Whole.lean ====
/-
  The idealized kernel's @main from the launch to the return: a host stretch (reshapes and format changes), region 0,
  a host stretch (the two cores' partial sums added, the counts clamped below by one, the quotient), region 1, and a
  last transposition. `W0 … W5` are the unscoped buffers' contents between the items; `run_all` says every weakly fair
  execution ends with every unscoped buffer at `W5`, from which the frame (no item writes an argument) and the
  result's value are read.
-/
import proofs.«404486_j82265803588247_3_alg».proof.Proof.KI.TrunkData
import proofs.«404486_j82265803588247_3_alg».proof.Proof.KI.BranchData
import proofs.«404486_j82265803588247_3_alg».proof.Proof.Gen.KernelIdeal.Regions
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (Trunk.dat0 (V1 m) c).arrAt w cfg0.N
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (Branch.dat1 (V3 m) c).arrAt w cfg1.N
abbrev V4 : (c : Dev nD) → (b : Ref sig .tc) → Buf (Elt F) ((c : Thread nD τ).loc b) := fun c b => W4 m c b
/-- After the last host stretch: the contents at the return. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (Trunk.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Branch.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- At region 0's exit each of its arrays holds what the pipeline leaves, and every other buffer what it held at
    entry. -/
theorem hF0 (c : Dev nD) (w : Fin cfg0.W) : (Trunk.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at region 1's exit. -/
theorem hF1 (c : Dev nD) (w : Fin cfg1.W) : (Branch.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Trunk.dat0 (V1 m) c
  | ⟨1, _⟩ => fun c => Branch.dat1 (V3 m) c
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the contents at the return, the
    generator register at some state. -/
abbrev Tₙ (c : Dev nD) : sProp 𝕄 := iprop(StableHlo.held (c : Thread nD τ) (Pipeline.ucRefs τ sig) (W5 m c) ∗ ∃ r, prngReg c r)

/-- After the last host stretch the thread state is the last one beside the core owing nothing. -/
theorem last_link (c : Dev nD) :
    iprop(StableHlo.held (c : Thread nD τ) (Pipeline.ucRefs τ sig) (W5 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as segments -/

-- a library lemma stated over the pinned configuration meets the printed one only when unification may unfold plain
-- definitions in a metavariable's type
set_option backward.isDefEq.respectTransparency.types false in
/-- REGION 0 over the thread state: entered from every unscoped buffer at `W1`, left at `W2`. Its arrays are split
    out of the unscoped buffers and put back at the exit contents; the generator register and the scoped rest enter the
    carried invariant as the class's (`Trunk.hin0`) and come back out of it after the last point (`Trunk.hout0`);
    nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Trunk.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (Trunk.A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Trunk.hin0 (V1 m) c)
    unfold Pipeline.ΦA
    iintro ⟨Hp, -, Hr⟩
    isplitl [Hr]; · iexact Hr
    iexact Hp
  hout c := by
    rw [Pipeline.ownSems0_none]
    refine (Trunk.hout0 (V1 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration meets the printed one only when unification may unfold plain
-- definitions in a metavariable's type
set_option backward.isDefEq.respectTransparency.types false in
/-- REGION 1 over the thread state: entered from every unscoped buffer at `W3`, left at `W4`; its invariant is the
    class's at every point. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Branch.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (Branch.A_eq1 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev items : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the items. -/
theorem main_run (c : Dev nD) : main (F := F) c = Pipeline.Seg.run (items m) := (main_chain c).trans (by chain_rfl)

set_option backward.isDefEq.respectTransparency.types false in
/-- THE RUN: every weakly fair execution of @main from memory `m` with zero counters terminates, faulting nowhere, and
    every final memory holds every unscoped buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ Variants.none L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- An unscoped TensorCore reference is among those `run_all` speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A window of region 0 whose array is neither of its two result arrays is an input window. -/
theorem in_of_not_out0 : ∀ w : Fin cfg0.W, Pipeline.arrRef spec0 w ∉ ([main_v9_0, main_v9_1] : List (Ref sig .tc)) → (cfg0.win w).isOut = false := by
  decide
/-- A window of region 1 whose array is not its result array is an input window. -/
theorem in_of_not_out1 : ∀ w : Fin cfg1.W, Pipeline.arrRef spec1 w ∉ ([main_v18] : List (Ref sig .tc)) → (cfg1.win w).isOut = false := by
  decide

/-- Region 0 leaves every buffer but its two result arrays as it found it: an input window's array is folded to
    itself, and a buffer that is no window's array bypasses the region. -/
theorem W2_keep (c : Dev nD) (b : Ref sig .tc) (hr0 : b ∉ ([main_v9_0, main_v9_1] : List (Ref sig .tc))) :
    W2 m c (Proc.devRef .tc b) = W1 m c (Proc.devRef .tc b) := by
  by_cases h : ∃ w, Pipeline.arrRef spec0 w = b
  · obtain ⟨w, rfl⟩ := h
    exact (W2_arr m c w).trans (((Trunk.dat0 (V1 m) c).arrAt_in w (in_of_not_out0 w hr0) _).trans (Trunk.A_eq0 (V1 m) c w))
  · exact W2_of_ne m c b fun w e => h ⟨w, e⟩
/-- Region 1 leaves every buffer but its result array as it found it. -/
theorem W4_keep (c : Dev nD) (b : Ref sig .tc) (hr1 : b ∉ ([main_v18] : List (Ref sig .tc))) :
    W4 m c (Proc.devRef .tc b) = W3 m c (Proc.devRef .tc b) := by
  by_cases h : ∃ w, Pipeline.arrRef spec1 w = b
  · obtain ⟨w, rfl⟩ := h
    exact (W4_arr m c w).trans (((Branch.dat1 (V3 m) c).arrAt_in w (in_of_not_out1 w hr1) _).trans (Branch.A_eq1 (V3 m) c w))
  · exact W4_of_ne m c b fun w e => h ⟨w, e⟩

/-- No item of @main writes an argument: at the return it holds what it was launched with. -/
theorem W5_arg (c : Dev nD) (b : Ref sig .tc) (h0 : b ∉ hostOps0_W) (hr0 : b ∉ ([main_v9_0, main_v9_1] : List (Ref sig .tc)))
    (h1 : b ∉ hostOps1_W) (hr1 : b ∉ ([main_v18] : List (Ref sig .tc))) (h2 : b ∉ hostOps2_W) :
    W5 m c (Proc.devRef .tc b) = m ((c : Thread nD τ).loc b) :=
  calc W5 m c (Proc.devRef .tc b)
    _ = W4 m c (Proc.devRef .tc b) := StableHlo.after_of_writes_sub hostOps2 _ hostOps2_writes h2
    _ = W3 m c (Proc.devRef .tc b) := W4_keep m c b hr1
    _ = W2 m c (Proc.devRef .tc b) := StableHlo.after_of_writes_sub hostOps1 _ hostOps1_writes h1
    _ = W1 m c (Proc.devRef .tc b) := W2_keep m c b hr0
    _ = W0 m c (Proc.devRef .tc b) := StableHlo.after_of_writes_sub hostOps0 _ hostOps0_writes h0
    _ = m ((c : Thread nD τ).loc b) := rfl

/-- THE FRAME of the idealized kernel, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  exact (θ_run defs _ _).mono (fun r h c =>
    ⟨(h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide)),
     (h c _ (mem_uc main_arg5 (by decide))).trans (W5_arg m c main_arg5 (by decide) (by decide) (by decide) (by decide) (by decide)),
     (h c _ (mem_uc main_arg6 (by decide))).trans (W5_arg m c main_arg6 (by decide) (by decide) (by decide) (by decide) (by decide)),
     (h c _ (mem_uc main_arg7 (by decide))).trans (W5_arg m c main_arg7 (by decide) (by decide) (by decide) (by decide) (by decide)),
     (h c _ (mem_uc main_arg8 (by decide))).trans (W5_arg m c main_arg8 (by decide) (by decide) (by decide) (by decide) (by decide)),
     (h c _ (mem_uc main_arg9 (by decide))).trans (W5_arg m c main_arg9 (by decide) (by decide) (by decide) (by decide) (by decide)),
     (h c _ (mem_uc main_arg10 (by decide))).trans (W5_arg m c main_arg10 (by decide) (by decide) (by decide) (by decide) (by decide)),
     (h c _ (mem_uc main_arg11 (by decide))).trans (W5_arg m c main_arg11 (by decide) (by decide) (by decide) (by decide) (by decide)),
     (h c _ (mem_uc main_arg12 (by decide))).trans (W5_arg m c main_arg12 (by decide) (by decide) (by decide) (by decide) (by decide)),
     (h c _ (mem_uc main_arg13 (by decide))).trans (W5_arg m c main_arg13 (by decide) (by decide) (by decide) (by decide) (by decide)),
     (h c _ (mem_uc main_arg14 (by decide))).trans (W5_arg m c main_arg14 (by decide) (by decide) (by decide) (by decide) (by decide)),
     (h c _ (mem_uc main_arg15 (by decide))).trans (W5_arg m c main_arg15 (by decide) (by decide) (by decide) (by decide) (by decide)),
     (h c _ (mem_uc main_arg16 (by decide))).trans (W5_arg m c main_arg16 (by decide) (by decide) (by decide) (by decide) (by decide)),
     (h c _ (mem_uc main_arg17 (by decide))).trans (W5_arg m c main_arg17 (by decide) (by decide) (by decide) (by decide) (by decide)),
     (h c _ (mem_uc main_arg18 (by decide))).trans (W5_arg m c main_arg18 (by decide) (by decide) (by decide) (by decide) (by decide)),
     (h c _ (mem_uc main_arg19 (by decide))).trans (W5_arg m c main_arg19 (by decide) (by decide) (by decide) (by decide) (by decide))⟩) (run_all m ρ)

/-- THE RUN read at the result and the arguments. -/
theorem run_value : θ_run defs (onTc (τ := τ) (main (F := F))) ⟨m, fun _ => 0, ρ⟩ (fun r => ∀ c : Dev nD,
      r.2.mem ((c.tc : Thread nD τ).loc main_v19) = W5 m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  exact (θ_run defs _ _).mono (fun r h c =>
    ⟨h c _ (mem_uc main_v19 (by decide)),
     (h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide)),
     (h c _ (mem_uc main_arg5 (by decide))).trans (W5_arg m c main_arg5 (by decide) (by decide) (by decide) (by decide) (by decide)),
     (h c _ (mem_uc main_arg6 (by decide))).trans (W5_arg m c main_arg6 (by decide) (by decide) (by decide) (by decide) (by decide)),
     (h c _ (mem_uc main_arg7 (by decide))).trans (W5_arg m c main_arg7 (by decide) (by decide) (by decide) (by decide) (by decide)),
     (h c _ (mem_uc main_arg8 (by decide))).trans (W5_arg m c main_arg8 (by decide) (by decide) (by decide) (by decide) (by decide)),
     (h c _ (mem_uc main_arg9 (by decide))).trans (W5_arg m c main_arg9 (by decide) (by decide) (by decide) (by decide) (by decide)),
     (h c _ (mem_uc main_arg10 (by decide))).trans (W5_arg m c main_arg10 (by decide) (by decide) (by decide) (by decide) (by decide)),
     (h c _ (mem_uc main_arg11 (by decide))).trans (W5_arg m c main_arg11 (by decide) (by decide) (by decide) (by decide) (by decide)),
     (h c _ (mem_uc main_arg12 (by decide))).trans (W5_arg m c main_arg12 (by decide) (by decide) (by decide) (by decide) (by decide)),
     (h c _ (mem_uc main_arg13 (by decide))).trans (W5_arg m c main_arg13 (by decide) (by decide) (by decide) (by decide) (by decide)),
     (h c _ (mem_uc main_arg14 (by decide))).trans (W5_arg m c main_arg14 (by decide) (by decide) (by decide) (by decide) (by decide)),
     (h c _ (mem_uc main_arg15 (by decide))).trans (W5_arg m c main_arg15 (by decide) (by decide) (by decide) (by decide) (by decide)),
     (h c _ (mem_uc main_arg16 (by decide))).trans (W5_arg m c main_arg16 (by decide) (by decide) (by decide) (by decide) (by decide)),
     (h c _ (mem_uc main_arg17 (by decide))).trans (W5_arg m c main_arg17 (by decide) (by decide) (by decide) (by decide) (by decide)),
     (h c _ (mem_uc main_arg18 (by decide))).trans (W5_arg m c main_arg18 (by decide) (by decide) (by decide) (by decide) (by decide)),
     (h c _ (mem_uc main_arg19 (by decide))).trans (W5_arg m c main_arg19 (by decide) (by decide) (by decide) (by decide) (by decide))⟩) (run_all m ρ)

end Cert.KernelIdeal.Whole

end
-- ==== Proof.Spec.lean ====
/-
  The function both programs compute, over the extended reals, index by index.

  A three-layer network maps each of the 262144 known nodes to a 256-vector `f` and, with other weights, each of
  the 262144 query nodes to a 256-vector `c`. The query vectors are averaged per segment (64 segments, the segment of
  a query node given by an integer id; a node whose id is no segment's number belongs to none): the column sums of `c`
  over a segment's nodes divided by the larger of the segment's node count and one. Each known node's vector is
  multiplied, entry by entry, by the mean of the segment its own id names, and a two-layer head maps the product to
  three numbers.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Spec

open Idealize.ShloMosaic Idealize.ShloMosaic.ValueIdx

/-- A matrix and a vector of extended reals, and a vector of 32-bit words, over the printed index types. -/
abbrev Mat (a b : ℕ) : Type := (⟨2, ![a, b]⟩ : Shape).Idx → EReal
abbrev Vc (a : ℕ) : Type := (⟨1, ![a]⟩ : Shape).Idx → EReal
abbrev IVc (a : ℕ) : Type := (⟨1, ![a]⟩ : Shape).Idx → BitVec 32

/-- The rectifier: the larger of a number and zero. -/
def relu (x : EReal) : EReal := max x 0

/-- One affine layer at row `i`, column `j`: the row of `x` against the column of `w`, plus the bias. -/
def lin {n k h : ℕ} (x : Fin n → Fin k → EReal) (w : Mat k h) (b : Vc h) (i : Fin n) (j : Fin h) : EReal :=
  (∑ d : Fin k, x i d * w (ix2 d j)) + b (ix1 j)

/-- The three-layer network on the rows of `x`: affine, rectifier, affine, rectifier, affine. -/
def mlp3 {n : ℕ} (x : Mat n 3) (w0 : Mat 3 256) (b0 : Vc 256) (w1 : Mat 256 256) (b1 : Vc 256) (w2 : Mat 256 256) (b2 : Vc 256)
    (i : Fin n) (j : Fin 256) : EReal :=
  lin (fun i k => relu (lin (fun i k => relu (lin (fun i d => x (ix2 i d)) w0 b0 i k)) w1 b1 i k)) w2 b2 i j

/-- Node `i`'s id, read as a signed integer, is segment `b`'s number. -/
def inSeg {n : ℕ} (seg : IVc n) (i : Fin n) (b : Fin 64) : Prop := (seg (ix1 i)).toInt = (b.val : ℤ)

instance {n : ℕ} (seg : IVc n) (i : Fin n) (b : Fin 64) : Decidable (inSeg seg i b) := by unfold inSeg; infer_instance

/-- Column `h` of `c` summed over the nodes of segment `b`. -/
def segSum {n : ℕ} (c : Fin n → Fin 256 → EReal) (seg : IVc n) (b : Fin 64) (h : Fin 256) : EReal :=
  ∑ i ∈ Finset.univ.filter (fun i => inSeg seg i b), c i h

/-- The number of nodes of segment `b`. -/
def segCnt {n : ℕ} (seg : IVc n) (b : Fin 64) : EReal :=
  ∑ _i ∈ Finset.univ.filter (fun i => inSeg seg i b), (1 : EReal)

/-- The segment's mean: its column sum over the larger of its count and one. -/
def segMean {n : ℕ} (c : Fin n → Fin 256 → EReal) (seg : IVc n) (b : Fin 64) (h : Fin 256) : EReal :=
  Ideal.div (segSum c seg b h) (max (segCnt seg b) 1)

/-- The mean of the segment node `i`'s id names (zero when it names none). -/
def gathered {n : ℕ} (sm : Fin 64 → Fin 256 → EReal) (seg : IVc n) (i : Fin n) (h : Fin 256) : EReal :=
  ∑ b : Fin 64, if inSeg seg i b then sm b h else 0

/-- The result at known node `i`, output `o`, over ANY table `sm` of segment means: the known node's vector times
    the mean its id names, through the two-layer head. -/
def outWith (sm : Fin 64 → Fin 256 → EReal) (known_nodes : Mat 262144 3) (known_seg : IVc 262144)
    (bw0 : Mat 3 256) (bb0 : Vc 256) (bw1 : Mat 256 256) (bb1 : Vc 256) (bw2 : Mat 256 256) (bb2 : Vc 256)
    (ow0 : Mat 256 256) (ob0 : Vc 256) (ow1 : Mat 256 3) (ob1 : Vc 3) (i : Fin 262144) (o : Fin 3) : EReal :=
  lin (fun i k => relu (lin (fun i j =>
      mlp3 known_nodes bw0 bb0 bw1 bb1 bw2 bb2 i j * gathered sm known_seg i j) ow0 ob0 i k)) ow1 ob1 i o

/-- The trunk's table of segment means. -/
def trunkMean (nodes : Mat 262144 3) (coord_seg : IVc 262144)
    (tw0 : Mat 3 256) (tb0 : Vc 256) (tw1 : Mat 256 256) (tb1 : Vc 256) (tw2 : Mat 256 256) (tb2 : Vc 256)
    (b : Fin 64) (h : Fin 256) : EReal :=
  segMean (mlp3 nodes tw0 tb0 tw1 tb1 tw2 tb2) coord_seg b h

/-- THE RESULT at known node `i`, output `o`. -/
def out (known_nodes nodes : Mat 262144 3) (known_seg coord_seg : IVc 262144)
    (bw0 : Mat 3 256) (bb0 : Vc 256) (bw1 : Mat 256 256) (bb1 : Vc 256) (bw2 : Mat 256 256) (bb2 : Vc 256)
    (tw0 : Mat 3 256) (tb0 : Vc 256) (tw1 : Mat 256 256) (tb1 : Vc 256) (tw2 : Mat 256 256) (tb2 : Vc 256)
    (ow0 : Mat 256 256) (ob0 : Vc 256) (ow1 : Mat 256 3) (ob1 : Vc 3) (i : Fin 262144) (o : Fin 3) : EReal :=
  outWith (trunkMean nodes coord_seg tw0 tb0 tw1 tb1 tw2 tb2) known_nodes known_seg bw0 bb0 bw1 bb1 bw2 bb2 ow0 ob0 ow1 ob1 i o

/-- Every node's id is some segment's number (the ids lie in 0 … 63). -/
def InRange {n : ℕ} (seg : IVc n) : Prop := ∀ i : Fin n, ∃ b : Fin 64, inSeg seg i b

/-- The two float patterns the programs carry. -/
theorem zero_f32 : Ideal.ofBits .f32 0x00000000#32 = 0 := Ideal.ofBits_zero_f32
theorem one_f32 : Ideal.ofBits .f32 0x3F800000#32 = 1 := Ideal.ofBits_one_f32

/-- When node `i`'s id is a segment's number, the gathered mean is that segment's. -/
theorem gathered_of_inSeg {n : ℕ} (sm : Fin 64 → Fin 256 → EReal) (seg : IVc n) (i : Fin n) (h : Fin 256) (b : Fin 64)
    (hb : inSeg seg i b) : gathered sm seg i h = sm b h := by
  unfold gathered
  rw [Finset.sum_eq_single b]
  · rw [if_pos hb]
  · intro b' _ hne
    have : ¬ inSeg seg i b' := by
      intro hb'
      unfold inSeg at hb hb'
      exact hne (Fin.ext (by exact_mod_cast (hb'.symm.trans hb)))
    rw [if_neg this]
  · intro hnot; exact absurd (Finset.mem_univ b) hnot

end Cert.Spec

end
-- ==== Proof.KI.Args.lean ====
/-
  The idealized kernel's twenty argument arrays, as launched, under the names and types the specification uses.
-/
import proofs.«404486_j82265803588247_3_alg».proof.KernelIdeal
import proofs.«404486_j82265803588247_3_alg».proof.Proof.Spec

noncomputable section

namespace Cert.KernelIdeal.Args

open Cert.KernelIdeal Idealize.ShloMosaic Idealize.ShloMosaic.TcCoe Idealize.SL.Sem

variable (m : (ℓ : Loc nD τ sig) → Buf (Elt Ideal) ℓ) (c : Dev nD)

abbrev known_nodes : Spec.Mat 262144 3 := m ((c.tc : Thread nD τ).loc main_arg0)
abbrev nodes : Spec.Mat 262144 3 := m ((c.tc : Thread nD τ).loc main_arg1)
abbrev known_seg : Spec.IVc 262144 := m ((c.tc : Thread nD τ).loc main_arg2)
abbrev coord_seg : Spec.IVc 262144 := m ((c.tc : Thread nD τ).loc main_arg3)
abbrev bw0 : Spec.Mat 3 256 := m ((c.tc : Thread nD τ).loc main_arg4)
abbrev bb0 : Spec.Vc 256 := m ((c.tc : Thread nD τ).loc main_arg5)
abbrev bw1 : Spec.Mat 256 256 := m ((c.tc : Thread nD τ).loc main_arg6)
abbrev bb1 : Spec.Vc 256 := m ((c.tc : Thread nD τ).loc main_arg7)
abbrev bw2 : Spec.Mat 256 256 := m ((c.tc : Thread nD τ).loc main_arg8)
abbrev bb2 : Spec.Vc 256 := m ((c.tc : Thread nD τ).loc main_arg9)
abbrev tw0 : Spec.Mat 3 256 := m ((c.tc : Thread nD τ).loc main_arg10)
abbrev tb0 : Spec.Vc 256 := m ((c.tc : Thread nD τ).loc main_arg11)
abbrev tw1 : Spec.Mat 256 256 := m ((c.tc : Thread nD τ).loc main_arg12)
abbrev tb1 : Spec.Vc 256 := m ((c.tc : Thread nD τ).loc main_arg13)
abbrev tw2 : Spec.Mat 256 256 := m ((c.tc : Thread nD τ).loc main_arg14)
abbrev tb2 : Spec.Vc 256 := m ((c.tc : Thread nD τ).loc main_arg15)
abbrev ow0 : Spec.Mat 256 256 := m ((c.tc : Thread nD τ).loc main_arg16)
abbrev ob0 : Spec.Vc 256 := m ((c.tc : Thread nD τ).loc main_arg17)
abbrev ow1 : Spec.Mat 256 3 := m ((c.tc : Thread nD τ).loc main_arg18)
abbrev ob1 : Spec.Vc 3 := m ((c.tc : Thread nD τ).loc main_arg19)

/-- The trunk's table of segment means of the launched arguments. -/
abbrev trunkMean (b : Fin 64) (h : Fin 256) : EReal :=
  Spec.trunkMean (nodes m c) (coord_seg m c) (tw0 m c) (tb0 m c) (tw1 m c) (tb1 m c) (tw2 m c) (tb2 m c) b h

/-- The head over a table `sm` of segment means, of the launched arguments. -/
abbrev outWith (sm : Fin 64 → Fin 256 → EReal) (i : Fin 262144) (o : Fin 3) : EReal :=
  Spec.outWith sm (known_nodes m c) (known_seg m c) (bw0 m c) (bb0 m c) (bw1 m c) (bb1 m c) (bw2 m c) (bb2 m c)
    (ow0 m c) (ob0 m c) (ow1 m c) (ob1 m c) i o

/-- The specification's result of the launched arguments. -/
abbrev out (i : Fin 262144) (o : Fin 3) : EReal :=
  Spec.out (known_nodes m c) (nodes m c) (known_seg m c) (coord_seg m c) (bw0 m c) (bb0 m c) (bw1 m c) (bb1 m c) (bw2 m c) (bb2 m c)
    (tw0 m c) (tb0 m c) (tw1 m c) (tb1 m c) (tw2 m c) (tb2 m c) (ow0 m c) (ob0 m c) (ow1 m c) (ob1 m c) i o

theorem out_eq (i : Fin 262144) (o : Fin 3) : out m c i o = outWith m c (trunkMean m c) i o := rfl

end Cert.KernelIdeal.Args

end
-- ==== Proof.KI.TrunkTile.lean ====
/-
  One tile of the trunk reduction, read at an index over the extended reals. The first layer's three broadcast
  products are the three terms of a row-by-column sum; a matrix product into a zero accumulator is that sum; the
  product of the transposed one-hot (one where a row's id is the segment's number, zero elsewhere) with the tile's
  output adds, for each segment, the rows of its nodes; the one-hot's column sums count them.
-/
import proofs.«404486_j82265803588247_3_alg».proof.Proof.Gen.KernelIdeal.Skeleton
import proofs.«404486_j82265803588247_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TrunkTile

open Cert.KernelIdeal Cert.KernelIdeal.Gen Idealize.ShloMosaic Idealize.ShloMosaic.ValueIdx
open scoped BigOperators

/-! ## Layout: a column or a row spread over the tile, a slice of one coordinate, the bias -/

/-- A column broadcast over many columns reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `c` of a tile's coordinates spread over the 256 columns: at (r, k) the row's coordinate `c`. -/
theorem xcol_apply {α : Type} (x : S4096x3.Idx → α) (o : ℕ) (h : S4096x3.Slices ![0, o] S4096x1) (c : Fin 3) (hc : c.val = o + 0)
    (r : Fin 4096) (k : Fin 256) :
    broadcastTo S4096x256 (extractStridedSlice S4096x1 ![0, o] x h) broadcasts_S4096x1_S4096x256 (ix2 r k) = x (ix2 r c) := by
  rw [broadcastTo_a1_ab_apply]
  exact slice2_axis1_apply o x h r 0 c hc

/-- Row `c` of the first weight spread over the tile's rows: at (r, k) the weight at (c, k). -/
theorem wrow_apply {α : Type} (w : S3x256.Idx → α) (o : ℕ) (h : S3x256.Slices ![o, 0] S1x256) (c : Fin 3) (hc : c.val = o + 0)
    (r : Fin 4096) (k : Fin 256) :
    broadcastTo S4096x256 (extractStridedSlice S1x256 ![o, 0] w h) broadcasts_S1x256_S4096x256 (ix2 r k) = w (ix2 c k) := by
  rw [broadcastTo_1b_ab_apply]
  exact slice2_axis0_apply o w h 0 k c hc

/-- A bias vector spread over the tile's rows: at (r, k) the bias at k. -/
theorem bias_apply {α : Type} (b : S256.Idx → α) (r : Fin 4096) (k : Fin 256) :
    broadcastTo S4096x256 (shapeCast S1x256 b shapeCasts_S256_S1x256) broadcasts_S1x256_S4096x256 (ix2 r k) = b (ix1 k) := by
  rw [broadcastTo_1b_ab_apply]
  exact shapeCast_a_1a_apply b _ 0 k

/-! ## The one-hot of the tile's ids -/

/-- A 32-bit word equals the word of a number below 64 exactly when its signed value is that number. -/
theorem word_eq_iff_toInt (x : BitVec 32) (b : Fin 64) : x = BitVec.ofNat 32 b.val ↔ x.toInt = (b.val : ℤ) := by
  have hb := b.isLt
  have e : (BitVec.ofNat 32 b.val).toInt = (b.val : ℤ) := by
    have hn : (BitVec.ofNat 32 b.val).toNat = b.val := by
      rw [BitVec.toNat_ofNat]; exact Nat.mod_eq_of_lt (by omega)
    rw [BitVec.toInt_eq_toNat_of_lt (by rw [hn]; omega), hn]
  constructor
  · intro h; rw [h, e]
  · intro h; exact BitVec.eq_of_toInt_eq (h.trans e.symm)

/-- The comparison bit of two words, widened and read as a signed number: one on equal words, zero otherwise. -/
theorem eqBit_val (x y : BitVec 32) :
    FloatOps.sitofp (F := Ideal) .f32 ((IntOp.cmpi .eq x y).setWidth 32) = if x = y then (1 : EReal) else 0 := by
  by_cases h : x = y
  · subst h
    rw [if_pos rfl]
    have e : (IntOp.cmpi .eq x x).setWidth 32 = 1#32 := by
      show (BitVec.ofBool (x == x)).setWidth 32 = 1#32
      rw [beq_self_eq_true]; rfl
    rw [e]
    show (((1#32 : BitVec 32).toInt : ℝ) : EReal) = 1
    have e1 : (1#32 : BitVec 32).toInt = 1 := by decide
    rw [e1, Int.cast_one, EReal.coe_one]
  · rw [if_neg h]
    have hb : (x == y) = false := beq_eq_false_iff_ne.mpr h
    have e : (IntOp.cmpi .eq x y).setWidth 32 = 0#32 := by
      show (BitVec.ofBool (x == y)).setWidth 32 = 0#32
      rw [hb]; rfl
    rw [e]
    show (((0#32 : BitVec 32).toInt : ℝ) : EReal) = 0
    have e0 : (0#32 : BitVec 32).toInt = 0 := by decide
    rw [e0, Int.cast_zero, EReal.coe_zero]

/-- The one-hot of a tile's ids: at row r, segment b, one when the row's id is b, else zero. -/
theorem onehot_apply (seg : Vec Ideal S4096x1 .i32) (r : Fin 4096) (b : Fin 64) :
    k0_pay1 (F := Ideal) seg (ix2 r b) = if (seg (ix2 r 0)).toInt = (b.val : ℤ) then (1 : EReal) else 0 := by
  unfold k0_pay1
  rw [shapeCast_self]
  rw [sitofp_apply, extui_apply]
  show FloatOps.sitofp .f32 ((IntOp.cmpi .eq (broadcastTo S4096x64 seg broadcasts_S4096x1_S4096x64 (ix2 r b))
    (iota .tc S4096x64 32 [1] iota_S4096x64_d1_w32 (ix2 r b))).setWidth 32) = _
  rw [broadcastTo_a1_ab_apply, iota_single_apply]
  show FloatOps.sitofp (F := Ideal) .f32 ((IntOp.cmpi .eq (seg (ix2 r 0)) (BitVec.ofNat 32 b.val)).setWidth 32) = _
  rw [eqBit_val]
  exact if_congr (word_eq_iff_toInt _ b) rfl rfl

/-! ## The two matrix products read at an index -/

/-! The product of a tile's rows with a square weight: which entries of the two operands meet. -/

theorem lhsSq_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsSq_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsSq_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsSq_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- A tile's rows times a square weight, into a zero accumulator: at (r, j) the row r against the column j. -/
theorem matmulSq_apply {φ₁ φ₂ : FTy} (l : FVec Ideal S4096x256 φ₁) (w : FVec Ideal S256x256 φ₂) (r : Fin 4096) (j : Fin 256) :
    matmul dot_S4096x256_S256x256_S4096x256_1_0_0_1_n_n none l w (constant S4096x256 .f32 0x00000000#32) (ix2 r j)
      = ∑ k : Fin 256, l (ix2 r k) * w (ix2 k j) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r j) ((contrEquiv1 dot_S4096x256_S256x256_S4096x256_1_0_0_1_n_n 256 rfl rfl).symm k) = ix2 r k := funext fun a => Fin.ext (by
    match a with
    | ⟨0, _⟩ => exact lhsSq_0 _ _
    | ⟨1, _⟩ => exact (lhsSq_1 _ _).trans hk)
  have er : dot_S4096x256_S256x256_S4096x256_1_0_0_1_n_n.rhsIdx (ix2 r j) ((contrEquiv1 dot_S4096x256_S256x256_S4096x256_1_0_0_1_n_n 256 rfl rfl).symm k) = ix2 k j := funext fun a => Fin.ext (by
    match a with
    | ⟨0, _⟩ => exact (rhsSq_0 _ _).trans hk
    | ⟨1, _⟩ => exact rhsSq_1 _ _)
  rw [el, er]

/-! The product that contracts the rows of both operands (the one-hot transposed against the tile's output). -/

theorem lhsT_0 (i : S64x256.Idx) (q : dot_S4096x64_S4096x256_S64x256_0_0_1_1_n_n.contr.Idx) :
    (dot_S4096x64_S4096x256_S64x256_0_0_1_1_n_n.lhsIdx i q 0).val = (q ⟨0, by decide⟩).val :=
  dot_S4096x64_S4096x256_S64x256_0_0_1_1_n_n.lhsIdx_val_of_single rfl i q
theorem lhsT_1 (i : S64x256.Idx) (q : dot_S4096x64_S4096x256_S64x256_0_0_1_1_n_n.contr.Idx) :
    (dot_S4096x64_S4096x256_S64x256_0_0_1_1_n_n.lhsIdx i q 1).val = (i 0).val := by
  unfold DotDims.lhsIdx
  rw [dif_neg (show ¬(1 : Fin S4096x64.rank) ∈ dot_S4096x64_S4096x256_S64x256_0_0_1_1_n_n.lhsBatch by decide), dif_pos (show (1 : Fin S4096x64.rank) ∈ dot_S4096x64_S4096x256_S64x256_0_0_1_1_n_n.lhsNonContracting by decide)]
  rfl
theorem rhsT_0 (i : S64x256.Idx) (q : dot_S4096x64_S4096x256_S64x256_0_0_1_1_n_n.contr.Idx) :
    (dot_S4096x64_S4096x256_S64x256_0_0_1_1_n_n.rhsIdx i q 0).val = (q ⟨0, by decide⟩).val :=
  dot_S4096x64_S4096x256_S64x256_0_0_1_1_n_n.rhsIdx_val_of_single rfl i q
theorem rhsT_1 (i : S64x256.Idx) (q : dot_S4096x64_S4096x256_S64x256_0_0_1_1_n_n.contr.Idx) :
    (dot_S4096x64_S4096x256_S64x256_0_0_1_1_n_n.rhsIdx i q 1).val = (i 1).val := by
  unfold DotDims.rhsIdx
  rw [dif_neg (show ¬(1 : Fin S4096x256.rank) ∈ dot_S4096x64_S4096x256_S64x256_0_0_1_1_n_n.rhsBatch by decide), dif_pos (show (1 : Fin S4096x256.rank) ∈ dot_S4096x64_S4096x256_S64x256_0_0_1_1_n_n.rhsNonContracting by decide)]
  rfl

/-- The transposed product into a zero accumulator: at (b, h) the column b of the left operand against the column h
    of the right one, summed over the tile's rows. -/
theorem matmulT_apply {φ₁ φ₂ : FTy} (l : FVec Ideal S4096x64 φ₁) (y : FVec Ideal S4096x256 φ₂) (b : Fin 64) (h : Fin 256) :
    matmul dot_S4096x64_S4096x256_S64x256_0_0_1_1_n_n none l y (constant S64x256 .f32 0x00000000#32) (ix2 b h)
      = ∑ r : Fin 4096, l (ix2 r b) * y (ix2 r h) := by
  simp only [matmul]
  rw [Ideal.matmul_constant_zero_apply, ← Equiv.sum_comp (contrEquiv1 dot_S4096x64_S4096x256_S64x256_0_0_1_1_n_n 4096 rfl rfl).symm]
  refine Finset.sum_congr rfl fun k _ => ?_
  have hk := contrEquiv1_symm_val dot_S4096x64_S4096x256_S64x256_0_0_1_1_n_n 4096 rfl rfl k
  have el : dot_S4096x64_S4096x256_S64x256_0_0_1_1_n_n.lhsIdx (ix2 b h) ((contrEquiv1 dot_S4096x64_S4096x256_S64x256_0_0_1_1_n_n 4096 rfl rfl).symm k) = ix2 k b := funext fun a => Fin.ext (by
    match a with
    | ⟨0, _⟩ => exact (lhsT_0 _ _).trans hk
    | ⟨1, _⟩ => exact lhsT_1 _ _)
  have er : dot_S4096x64_S4096x256_S64x256_0_0_1_1_n_n.rhsIdx (ix2 b h) ((contrEquiv1 dot_S4096x64_S4096x256_S64x256_0_0_1_1_n_n 4096 rfl rfl).symm k) = ix2 k h := funext fun a => Fin.ext (by
    match a with
    | ⟨0, _⟩ => exact (rhsT_0 _ _).trans hk
    | ⟨1, _⟩ => exact rhsT_1 _ _)
  rw [el, er]

/-! ## The tile's payloads -/

/-- The tile's hidden rows: two affine layers, each followed by the rectifier. -/
theorem hidden_apply (x : Vec Ideal S4096x3 .f32) (w0 : Vec Ideal S3x256 .f32) (b0 : Vec Ideal S256 .f32)
    (w1 : Vec Ideal S256x256 .bf16) (b1 : Vec Ideal S256 .f32) (r : Fin 4096) (j : Fin 256) :
    k0_pay9 (F := Ideal) x w0 b0 w1 b1 (ix2 r j)
      = Spec.relu (Spec.lin (fun r k => Spec.relu (Spec.lin (fun r d => x (ix2 r d)) w0 b0 r k)) w1 b1 r j) := by
  unfold k0_pay9
  rw [maximumf_apply, broadcast_apply, addf_apply, matmulSq_apply, bias_apply, shapeCast_self]
  unfold Spec.relu Spec.lin
  refine congrArg₂ max (congrArg (· + b1 (ix1 j)) (Finset.sum_congr rfl fun k _ => congrArg (· * w1 (ix2 k j)) ?_)) Spec.zero_f32
  rw [truncf_apply, maximumf_apply, broadcast_apply, addf_apply, addf_apply, addf_apply, mulf_apply, mulf_apply, mulf_apply,
    xcol_apply x 0 _ 0 rfl, xcol_apply x 1 _ 1 rfl, xcol_apply x 2 _ 2 rfl,
    wrow_apply w0 0 _ 0 rfl, wrow_apply w0 1 _ 1 rfl, wrow_apply w0 2 _ 2 rfl, bias_apply]
  show max _ _ = max ((∑ d : Fin 3, x (ix2 r d) * w0 (ix2 d k)) + b0 (ix1 k)) 0
  rw [Fin.sum_univ_three]
  exact congrArg₂ max rfl Spec.zero_f32

/-- The sum accumulator after a tile: what it held, plus, for segment `b`, column `h` of the third affine layer summed
    over the tile's rows whose id is `b`. -/
theorem stepSum_apply (w2 : FVec Ideal S256x256 .bf16) (b2 : Vec Ideal S256 .f32) (hid : FVec Ideal S4096x256 .f32)
    (seg : Vec Ideal S4096x1 .i32) (acc : Vec Ideal S64x256 .f32) (b : Fin 64) (h : Fin 256) :
    k0_pay2 (F := Ideal) w2 b2 hid seg acc (ix2 b h)
      = acc (ix2 b h) + ∑ r : Fin 4096,
          (if (seg (ix2 r 0)).toInt = (b.val : ℤ) then Spec.lin (fun r k => hid (ix2 r k)) w2 b2 r h else 0) := by
  unfold k0_pay2
  rw [shapeCast_self, addf_apply, matmulT_apply]
  refine congrArg (acc (ix2 b h) + ·) (Finset.sum_congr rfl fun r _ => ?_)
  rw [truncf_apply, truncf_apply, onehot_apply, addf_apply, matmulSq_apply, bias_apply]
  unfold Spec.lin
  by_cases hc : (seg (ix2 r 0)).toInt = (b.val : ℤ)
  · rw [if_pos hc, if_pos hc, one_mul]
    rfl
  · rw [if_neg hc, if_neg hc, zero_mul]

/-- The count accumulator after a tile: what it held plus the number of the tile's rows whose id is `b`. -/
theorem stepCnt_apply (seg : Vec Ideal S4096x1 .i32) (acc : Vec Ideal S1x64 .f32) (b : Fin 64) :
    k0_pay3 (F := Ideal) seg acc (ix2 0 b)
      = acc (ix2 0 b) + ∑ r : Fin 4096, (if (seg (ix2 r 0)).toInt = (b.val : ℤ) then (1 : EReal) else 0) := by
  unfold k0_pay3
  rw [shapeCast_self, addf_apply, shapeCast_a_1a_apply]
  refine congrArg (acc (ix2 0 b) + ·) ?_
  refine (Ideal.multiReduction_add_single (k0_pay1 (F := Ideal) seg) 0x00000000#32 reduces_S4096x64_S64 (.inl rfl) rfl (ix1 b)).trans ?_
  refine Finset.sum_congr rfl fun r _ => ?_
  have e : reduces_S4096x64_S64.lift (ix1 b) r = ix2 r b := by
    funext a
    match a with
    | ⟨0, _⟩ => rfl
    | ⟨1, _⟩ => rfl
  rw [e]
  exact onehot_apply seg r b

/-- The reset values are zero; the two output blocks are the accumulators re-shaped; the weight re-shape is the identity. -/
theorem resetSum_apply (j : S64x256.Idx) : k0_pay6 (F := Ideal) j = 0 := by
  unfold k0_pay6
  rw [shapeCast_self]
  exact Spec.zero_f32
theorem resetCnt_apply (j : S1x64.Idx) : k0_pay7 (F := Ideal) j = 0 := by
  unfold k0_pay7
  rw [shapeCast_self]
  exact Spec.zero_f32
theorem outSum_apply (acc : Vec Ideal S64x256 .f32) (b : Fin 64) (h : Fin 256) :
    k0_pay4 (F := Ideal) acc (ix3 0 b h) = acc (ix2 b h) := by
  unfold k0_pay4
  exact shapeCast_ab_1ab_apply acc _ 0 b h
theorem outCnt_apply (acc : Vec Ideal S1x64 .f32) (b : Fin 64) :
    k0_pay5 (F := Ideal) acc (ix3 0 0 b) = acc (ix2 0 b) := by
  unfold k0_pay5
  exact shapeCast_ab_1ab_apply acc _ 0 0 b
theorem weight_apply (w : Vec Ideal S256x256 .bf16) (j : S256x256.Idx) : k0_pay8 (F := Ideal) w j = w j := by
  unfold k0_pay8
  rw [shapeCast_self]

end Cert.KernelIdeal.TrunkTile

end
-- ==== Proof.KI.ValueTrunkSum.lean ====
/-
  A sum over all 262144 rows, split the way the grid walks them: two cores, 32 tiles a core, 4096 rows a tile; row
  r of tile t is row 4096 t + r, tile j of core k is tile 32 k + j. The segment's column sum and its node count are
  sums, over every row, of the row's term where the row's id is the segment's number and of zero elsewhere.
-/
import proofs.«404486_j82265803588247_3_alg».proof.Proof.Spec
import Mathlib.Logic.Equiv.Fin.Basic
import Mathlib.Algebra.BigOperators.Fin

set_option maxRecDepth 16384

noncomputable section

namespace Cert.KernelIdeal.ValueTrunk

open Idealize.ShloMosaic Idealize.ShloMosaic.ValueIdx
open scoped BigOperators

/-- A sum over `m * n` indices is the double sum over quotient and remainder: index `n a + b`. -/
theorem sum_fin_split {M : Type*} [AddCommMonoid M] {N : ℕ} (m n : ℕ) (hN : N = m * n) (f : Fin N → M) :
    ∑ i, f i = ∑ a : Fin m, ∑ b : Fin n, f ⟨n * a.val + b.val, by
      subst hN
      calc n * a.val + b.val < n * a.val + n := Nat.add_lt_add_left b.isLt _
        _ = n * (a.val + 1) := (Nat.mul_succ n a.val).symm
        _ ≤ n * m := Nat.mul_le_mul_left n a.isLt
        _ = m * n := Nat.mul_comm n m⟩ := by
  subst hN
  rw [← Equiv.sum_comp finProdFinEquiv f, Fintype.sum_prod_type]
  refine Finset.sum_congr rfl fun a _ => Finset.sum_congr rfl fun b _ => congrArg f (Fin.ext ?_)
  show b.val + n * a.val = n * a.val + b.val
  omega

/-- Row `r` of tile `t`. -/
abbrev rowOf (t : Fin 64) (r : Fin 4096) : Fin 262144 := ⟨4096 * t.val + r.val, by have := t.isLt; have := r.isLt; omega⟩
/-- Tile `j` of core `k`. -/
abbrev tileOf (k : Fin 2) (j : Fin 32) : Fin 64 := ⟨32 * k.val + j.val, by have := k.isLt; have := j.isLt; omega⟩

/-- A sum over all rows, by core, tile and row. -/
theorem sum_rows {M : Type*} [AddCommMonoid M] (f : Fin 262144 → M) :
    ∑ i, f i = ∑ k : Fin 2, ∑ j : Fin 32, ∑ r : Fin 4096, f (rowOf (tileOf k j) r) := by
  rw [sum_fin_split 64 4096 (by norm_num) f, sum_fin_split 2 32 (by norm_num) fun t : Fin 64 => ∑ r : Fin 4096, f (rowOf t r)]

/-- The segment's column sum as a sum over every row. -/
theorem segSum_eq {n : ℕ} (c : Fin n → Fin 256 → EReal) (seg : Spec.IVc n) (b : Fin 64) (h : Fin 256) :
    Spec.segSum c seg b h = ∑ i, if Spec.inSeg seg i b then c i h else 0 := by
  unfold Spec.segSum; exact Finset.sum_filter _ _
/-- The segment's node count as a sum over every row. -/
theorem segCnt_eq {n : ℕ} (seg : Spec.IVc n) (b : Fin 64) :
    Spec.segCnt seg b = ∑ i, if Spec.inSeg seg i b then (1 : EReal) else 0 := by
  unfold Spec.segCnt; exact Finset.sum_filter _ _

/-- The segment's mean with both sums split by core, tile and row. -/
theorem segMean_split (c : Fin 262144 → Fin 256 → EReal) (seg : Spec.IVc 262144) (b : Fin 64) (h : Fin 256) :
    Spec.segMean c seg b h
      = Ideal.div (∑ k : Fin 2, ∑ j : Fin 32, ∑ r : Fin 4096,
            if Spec.inSeg seg (rowOf (tileOf k j) r) b then c (rowOf (tileOf k j) r) h else 0)
          (max (∑ k : Fin 2, ∑ j : Fin 32, ∑ r : Fin 4096,
            if Spec.inSeg seg (rowOf (tileOf k j) r) b then (1 : EReal) else 0) 1) := by
  unfold Spec.segMean
  rw [segSum_eq, segCnt_eq, sum_rows, sum_rows fun i => if Spec.inSeg seg i b then (1 : EReal) else 0]

/-- An affine layer's entry depends on its row of the input only: reading the input's rows through a map of the
    row numbers and taking row `r` is taking row `g r`. -/
theorem lin_rows {n n' k h : ℕ} (g : Fin n' → Fin n) (x : Fin n → Fin k → EReal) (w : Spec.Mat k h) (bias : Spec.Vc h)
    (r : Fin n') (j : Fin h) : Spec.lin (fun r d => x (g r) d) w bias r j = Spec.lin x w bias (g r) j := rfl

end Cert.KernelIdeal.ValueTrunk

end
-- ==== Proof.KI.ValueTrunkHost.lean ====
/-
  The two host stretches around region 0, read at an index over the extended reals. Before the region: the segment
  ids re-shaped to a column (entry (i, 0) of the column is entry i of the vector), two weight matrices re-formatted
  (the identity over the extended reals), every other operand of the region untouched. After it: the two cores'
  partial sums and counts added, the count clamped below by one, the quotient.
-/
import proofs.«404486_j82265803588247_3_alg».proof.Proof.KI.Whole
import proofs.«404486_j82265803588247_3_alg».proof.Proof.KI.Args
import Idealize.ShloMosaic.Lib.Pipeline.Value
import Idealize.ShloMosaic.Lib.ValueIdx
import Idealize.ShloMosaic.Lib.IdealHost
import Idealize.ShloMosaic.PureOps.Ideal.Laws
import Idealize.ShloMosaic.Lib.StableHlo.Run

set_option maxRecDepth 16384

noncomputable section

namespace Cert.KernelIdeal.ValueTrunk

open Cert.KernelIdeal Cert.KernelIdeal.Gen Idealize.ShloMosaic Idealize.ShloMosaic.TcCoe Idealize.SL.Sem Idealize.ShloMosaic.ValueIdx
open scoped BigOperators

/-! ## After region 0 -/

/-- The second host stretch as one term of the two arrays of partial results. -/
def tailTerm (A : Vec Ideal S2x64x256 .f32) (B : Vec Ideal S2x1x64 .f32) : Vec Ideal S64x256 .bf16 :=
  truncf .bf16 (Host.divf (F := Ideal)
    (Host.reduceAdd (F := Ideal) A (constant (F := Ideal) S_ .f32 0x00000000#32) reducesTo_S2x64x256_S64x256_d0 h_S_)
    (broadcastInDim S64x256 ![0, 1] bcast_S64x1_S64x256_0_1
      (maximumf
        (shapeCast S64x1 (Host.reduceAdd (F := Ideal) B (constant (F := Ideal) S_ .f32 0x00000000#32) reducesTo_S2x1x64_S1x64_d0 h_S_)
          shapeCasts_S1x64_S64x1)
        (broadcastInDim S64x1 ![] bcast_S_S64x1 (constant (F := Ideal) S_ .f32 0x3F800000#32))))) bitsLt_bf16_f32

/-- Core `k`'s entry of the partial sums above entry `(b, h)` of their sum. -/
theorem lift_sum (hr : S2x64x256.Reduces [0] S64x256) (b : Fin 64) (h : Fin 256) (k : Fin 2) :
    hr.lift (ix2 b h) k = ix3 k b h := by
  funext a
  match a with
  | ⟨0, _⟩ => rfl
  | ⟨1, _⟩ => rfl
  | ⟨2, _⟩ => rfl

/-- Core `k`'s entry of the partial counts above entry `(0, b)` of their sum. -/
theorem lift_cnt (hr : S2x1x64.Reduces [0] S1x64) (b : Fin 64) (k : Fin 2) :
    hr.lift (ix2 (0 : Fin 1) b) k = ix3 k (0 : Fin 1) b := by
  funext a
  match a with
  | ⟨0, _⟩ => rfl
  | ⟨1, _⟩ => rfl
  | ⟨2, _⟩ => rfl

/-- The two cores' partial sums added. -/
theorem sumParts_apply (A : Vec Ideal S2x64x256 .f32) (b : Fin 64) (h : Fin 256) :
    Host.reduceAdd (F := Ideal) A (constant (F := Ideal) S_ .f32 0x00000000#32) reducesTo_S2x64x256_S64x256_d0 h_S_ (ix2 b h)
      = ∑ k : Fin 2, A (ix3 k b h) := by
  have hr : S2x64x256.Reduces [0] S64x256 := by decide
  refine (hostReduceAdd_apply A _ reducesTo_S2x64x256_S64x256_d0 h_S_ (ix2 b h)).trans ?_
  refine (Ideal.hostReduceAdd_single reducesTo_S2x64x256_S64x256_d0 hr A _ (ix2 b h)).trans ?_
  rw [constant_apply, Spec.zero_f32, zero_add]
  exact Finset.sum_congr rfl fun k _ => congrArg A (lift_sum hr b h k)

/-- The two cores' partial counts added. -/
theorem cntParts_apply (B : Vec Ideal S2x1x64 .f32) (b : Fin 64) :
    Host.reduceAdd (F := Ideal) B (constant (F := Ideal) S_ .f32 0x00000000#32) reducesTo_S2x1x64_S1x64_d0 h_S_ (ix2 (0 : Fin 1) b)
      = ∑ k : Fin 2, B (ix3 k (0 : Fin 1) b) := by
  have hr : S2x1x64.Reduces [0] S1x64 := by decide
  refine (hostReduceAdd_apply B _ reducesTo_S2x1x64_S1x64_d0 h_S_ (ix2 (0 : Fin 1) b)).trans ?_
  refine (Ideal.hostReduceAdd_single reducesTo_S2x1x64_S1x64_d0 hr B _ (ix2 (0 : Fin 1) b)).trans ?_
  rw [constant_apply, Spec.zero_f32, zero_add]
  exact Finset.sum_congr rfl fun k _ => congrArg B (lift_cnt hr b k)

/-- The second host stretch at entry `(b, h)`: the two cores' sums added, over the larger of their counts added and one. -/
theorem tailTerm_apply (A : Vec Ideal S2x64x256 .f32) (B : Vec Ideal S2x1x64 .f32) (b : Fin 64) (h : Fin 256) :
    tailTerm A B (ix2 b h) = Ideal.div (∑ k : Fin 2, A (ix3 k b h)) (max (∑ k : Fin 2, B (ix3 k (0 : Fin 1) b)) 1) := by
  unfold tailTerm
  rw [truncf_apply, hostDivf_apply, sumParts_apply]
  congr 1
  refine (broadcastInDim_apply _ _ _ (ix2 b h) (ix2 b (0 : Fin 1)) (fun a => ?_)).trans ?_
  · match a with
    | ⟨0, _⟩ => rfl
    | ⟨1, _⟩ => rfl
  rw [maximumf_apply]
  congr 1
  · refine (shapeCast_apply _ _ (ix2 b (0 : Fin 1)) (ix2 (0 : Fin 1) b) ?_).trans (cntParts_apply B b)
    rw [Shape.rowMajor_val_two, Shape.rowMajor_val_two]
    show (0 : ℕ) * 64 + b.val = b.val * 1 + 0
    omega
  · rw [broadcastInDim_scalar_apply, constant_apply, Spec.one_f32]

/-- What the second host stretch leaves in the buffer of segment means, from any contents: the quotient term of the two
    arrays of partial results. -/
theorem tail_eq (X : Valuation τ sig (Elt Ideal)) :
    (StableHlo.after (hostOps1 (F := Ideal)) X (Proc.devRef .tc main_v17) : Vec Ideal S64x256 .bf16)
      = tailTerm (X (Proc.devRef .tc main_v9_0)) (X (Proc.devRef .tc main_v9_1)) := by
  after_results
  rfl

/-! ## Before region 0 -/

variable (m : (ℓ : Loc nD τ sig) → Buf (Elt Ideal) ℓ) (c : Dev nD)

/-- The query nodes' coordinates reach the region as launched. -/
theorem V1_nodes : (Whole.V1 (F := Ideal) m c main_arg1 : Vec Ideal S262144x3 .f32) = Args.nodes m c := by
  show StableHlo.after hostOps0 _ (Proc.devRef .tc main_arg1) = _
  after_results
/-- The first layer's weights and every layer's bias reach the region as launched. -/
theorem V1_tw0 : (Whole.V1 (F := Ideal) m c main_arg10 : Vec Ideal S3x256 .f32) = Args.tw0 m c := by
  show StableHlo.after hostOps0 _ (Proc.devRef .tc main_arg10) = _
  after_results
theorem V1_tb0 : (Whole.V1 (F := Ideal) m c main_arg11 : Vec Ideal S256 .f32) = Args.tb0 m c := by
  show StableHlo.after hostOps0 _ (Proc.devRef .tc main_arg11) = _
  after_results
theorem V1_tb1 : (Whole.V1 (F := Ideal) m c main_arg13 : Vec Ideal S256 .f32) = Args.tb1 m c := by
  show StableHlo.after hostOps0 _ (Proc.devRef .tc main_arg13) = _
  after_results
theorem V1_tb2 : (Whole.V1 (F := Ideal) m c main_arg15 : Vec Ideal S256 .f32) = Args.tb2 m c := by
  show StableHlo.after hostOps0 _ (Proc.devRef .tc main_arg15) = _
  after_results
/-- The second and third layers' weights reach the region re-formatted: over the extended reals, as launched. -/
theorem V1_tw1 : (Whole.V1 (F := Ideal) m c main_v2 : Vec Ideal S256x256 .bf16) = Args.tw1 m c := by
  show StableHlo.after hostOps0 _ (Proc.devRef .tc main_v2) = _
  after_results
  rfl
theorem V1_tw2 : (Whole.V1 (F := Ideal) m c main_v3 : Vec Ideal S256x256 .bf16) = Args.tw2 m c := by
  show StableHlo.after hostOps0 _ (Proc.devRef .tc main_v3) = _
  after_results
  rfl
/-- The segment ids reach the region as a column: its entry `(i, 0)` is the vector's entry `i`. -/
theorem V1_seg (i : Fin 262144) :
    (Whole.V1 (F := Ideal) m c main_v1 : Vec Ideal S262144x1 .i32) (ix2 i (0 : Fin 1)) = Args.coord_seg m c (ix1 i) := by
  have e : (Whole.V1 (F := Ideal) m c main_v1 : Vec Ideal S262144x1 .i32)
      = shapeCast S262144x1 (Args.coord_seg m c) shapeCasts_S262144_S262144x1 := by
    show StableHlo.after hostOps0 _ (Proc.devRef .tc main_v1) = _
    after_results
    rfl
  rw [e]
  refine shapeCast_apply _ _ (ix2 i (0 : Fin 1)) (ix1 i) ?_
  rw [Shape.rowMajor_val_one, Shape.rowMajor_val_two]
  show i.val = i.val * 1 + 0
  omega

end Cert.KernelIdeal.ValueTrunk

end
-- ==== Proof.KI.ValueTrunkBlocks.lean ====
/-
  Region 0's input blocks read at an index. The two row windows move with the grid: at point t their block is rows
  4096 t … 4096 t + 4095 of the array (the printed index map sends core k, tile j to block 32 k + j, and point t is
  tile t mod 32 of core t div 32). The six weight and bias windows never move: their block is the whole array.
-/
import proofs.«404486_j82265803588247_3_alg».proof.Proof.KI.TrunkData
import Idealize.ShloMosaic.Lib.Pipeline.Value
import Idealize.ShloMosaic.Lib.ValueIdx

set_option maxRecDepth 16384

noncomputable section

namespace Cert.KernelIdeal.ValueTrunk

open Cert.KernelIdeal Cert.KernelIdeal.Gen Idealize.ShloMosaic Idealize.ShloMosaic.TcCoe Idealize.SL.Sem Idealize.ShloMosaic.ValueIdx
open scoped BigOperators

variable {F : FTy → Type} [FloatOps F]
-- the buffers' contents when the region is entered, per core
variable (V : (c : Dev nD) → (b : Ref sig .tc) → Buf (Elt F) ((c : Thread nD τ).loc b)) (c : Dev nD)

/-! ## The printed index maps, decided over the grid -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 :=
  (by decide +kernel : ∀ t : Fin grid0.N, win0_3.index t 0 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 :=
  (by decide +kernel : ∀ t : Fin grid0.N, win0_5.index t 0 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 :=
  (by decide +kernel : ∀ t : Fin grid0.N, win0_7.index t 0 = 0)

/-- Row `r` of the tile at point `t`, as a row of the whole array. -/
abbrev rowAt (t : Fin cfg0.N) (r : Fin 4096) : Fin 262144 :=
  ⟨4096 * t.val + r.val, by have hN : cfg0.N = 64 := N_0; have := t.isLt; have := r.isLt; omega⟩

/-! ## The row windows -/

/-- The tile's node coordinates are rows `4096 t …` of the coordinate array. -/
theorem nodesBlk_apply (t : Fin cfg0.N) (r : Fin 4096) (d : Fin 3) :
    (Trunk.iblk V c 0 t : Vec F S4096x3 .f32) (ix2 r d) = (V c main_arg1 : Vec F S262144x3 .f32) (ix2 (rowAt t r) d) := by
  unfold Trunk.iblk
  rw [View.read_apply]
  show V c main_arg1 _ = V c main_arg1 _
  congr 1
  funext a
  apply Fin.ext
  match a with
  | ⟨0, _⟩ => show win0_0.index t 0 * 4096 + 1 * r.val = 4096 * t.val + r.val; rw [(index0 t).1]; omega
  | ⟨1, _⟩ => show win0_0.index t 1 * 3 + 1 * d.val = d.val; rw [(index0 t).2]; omega

/-- The tile's segment ids are rows `4096 t …` of the id column. -/
theorem segBlk_apply (t : Fin cfg0.N) (r : Fin 4096) :
    (Trunk.iblk V c 1 t : Vec F S4096x1 .i32) (ix2 r (0 : Fin 1))
      = (V c main_v1 : Vec F S262144x1 .i32) (ix2 (rowAt t r) (0 : Fin 1)) := by
  unfold Trunk.iblk
  rw [View.read_apply]
  show V c main_v1 _ = V c main_v1 _
  congr 1
  funext a
  apply Fin.ext
  match a with
  | ⟨0, _⟩ => show win0_1.index t 0 * 4096 + 1 * r.val = 4096 * t.val + r.val; rw [(index1 t).1]; omega
  | ⟨1, _⟩ => show win0_1.index t 1 * 1 + 1 * 0 = 0; rw [(index1 t).2]

/-! ## The weight and bias windows: the whole array at every point -/

theorem w0Blk_eq (t : Fin cfg0.N) : (Trunk.iblk V c 2 t : Vec F S3x256 .f32) = (V c main_arg10 : Vec F S3x256 .f32) := by
  funext j
  unfold Trunk.iblk
  rw [View.read_apply]
  show V c main_arg10 _ = V c main_arg10 _
  congr 1
  funext a
  apply Fin.ext
  match a with
  | ⟨0, _⟩ => show win0_2.index t 0 * 3 + 1 * (j 0).val = (j 0).val; rw [(index2 t).1]; omega
  | ⟨1, _⟩ => show win0_2.index t 1 * 256 + 1 * (j 1).val = (j 1).val; rw [(index2 t).2]; omega

theorem b0Blk_eq (t : Fin cfg0.N) : (Trunk.iblk V c 3 t : Vec F S256 .f32) = (V c main_arg11 : Vec F S256 .f32) := by
  funext j
  unfold Trunk.iblk
  rw [View.read_apply]
  show V c main_arg11 _ = V c main_arg11 _
  congr 1
  funext a
  apply Fin.ext
  match a with
  | ⟨0, _⟩ => show win0_3.index t 0 * 256 + 1 * (j 0).val = (j 0).val; rw [index3 t]; omega

theorem w1Blk_eq (t : Fin cfg0.N) : (Trunk.iblk V c 4 t : Vec F S256x256 .bf16) = (V c main_v2 : Vec F S256x256 .bf16) := by
  funext j
  unfold Trunk.iblk
  rw [View.read_apply]
  show V c main_v2 _ = V c main_v2 _
  congr 1
  funext a
  apply Fin.ext
  match a with
  | ⟨0, _⟩ => show win0_4.index t 0 * 256 + 1 * (j 0).val = (j 0).val; rw [(index4 t).1]; omega
  | ⟨1, _⟩ => show win0_4.index t 1 * 256 + 1 * (j 1).val = (j 1).val; rw [(index4 t).2]; omega

theorem b1Blk_eq (t : Fin cfg0.N) : (Trunk.iblk V c 5 t : Vec F S256 .f32) = (V c main_arg13 : Vec F S256 .f32) := by
  funext j
  unfold Trunk.iblk
  rw [View.read_apply]
  show V c main_arg13 _ = V c main_arg13 _
  congr 1
  funext a
  apply Fin.ext
  match a with
  | ⟨0, _⟩ => show win0_5.index t 0 * 256 + 1 * (j 0).val = (j 0).val; rw [index5 t]; omega

theorem w2Blk_eq (t : Fin cfg0.N) : (Trunk.iblk V c 6 t : Vec F S256x256 .bf16) = (V c main_v3 : Vec F S256x256 .bf16) := by
  funext j
  unfold Trunk.iblk
  rw [View.read_apply]
  show V c main_v3 _ = V c main_v3 _
  congr 1
  funext a
  apply Fin.ext
  match a with
  | ⟨0, _⟩ => show win0_6.index t 0 * 256 + 1 * (j 0).val = (j 0).val; rw [(index6 t).1]; omega
  | ⟨1, _⟩ => show win0_6.index t 1 * 256 + 1 * (j 1).val = (j 1).val; rw [(index6 t).2]; omega

theorem b2Blk_eq (t : Fin cfg0.N) : (Trunk.iblk V c 7 t : Vec F S256 .f32) = (V c main_arg15 : Vec F S256 .f32) := by
  funext j
  unfold Trunk.iblk
  rw [View.read_apply]
  show V c main_arg15 _ = V c main_arg15 _
  congr 1
  funext a
  apply Fin.ext
  match a with
  | ⟨0, _⟩ => show win0_7.index t 0 * 256 + 1 * (j 0).val = (j 0).val; rw [index7 t]; omega

end Cert.KernelIdeal.ValueTrunk

end
-- ==== Proof.KI.ValueTrunkAcc.lean ====
/-
  The two accumulators of the trunk reduction as sums over a core's tiles. A tile adds to entry (b, h) of the sum
  accumulator the third layer's column h summed over the tile's rows whose id is b, and to entry b of the count
  accumulator the number of those rows; both start from zero at the core's first tile. So after tile j of core k the
  accumulators hold the sums of those contributions over tiles 32 k … 32 k + j: by induction on j.
-/
import proofs.«404486_j82265803588247_3_alg».proof.Proof.KI.TrunkData
import proofs.«404486_j82265803588247_3_alg».proof.Proof.KI.TrunkTile
import Idealize.ShloMosaic.Lib.ValueIdx
import Mathlib.Algebra.BigOperators.Fin

set_option maxRecDepth 16384

noncomputable section

namespace Cert.KernelIdeal.ValueTrunk

open Cert.KernelIdeal Cert.KernelIdeal.Gen Idealize.ShloMosaic Idealize.ShloMosaic.TcCoe Idealize.SL.Sem Idealize.ShloMosaic.ValueIdx
open scoped BigOperators

-- the buffers' contents when the region is entered, per core
variable (V : (c : Dev nD) → (b : Ref sig .tc) → Buf (Elt Ideal) ((c : Thread nD τ).loc b)) (c : Dev nD)

/-! ## A point's blocks under their literal types -/

/-- The tile's node coordinates, segment ids, and the three layers' weights and biases as the point reads them. -/
abbrev xB (t : Fin cfg0.N) : Vec Ideal S4096x3 .f32 := Trunk.iblk V c 0 t
abbrev sB (t : Fin cfg0.N) : Vec Ideal S4096x1 .i32 := Trunk.iblk V c 1 t
abbrev w0B (t : Fin cfg0.N) : Vec Ideal S3x256 .f32 := Trunk.iblk V c 2 t
abbrev b0B (t : Fin cfg0.N) : Vec Ideal S256 .f32 := Trunk.iblk V c 3 t
abbrev w1B (t : Fin cfg0.N) : Vec Ideal S256x256 .bf16 := Trunk.iblk V c 4 t
abbrev b1B (t : Fin cfg0.N) : Vec Ideal S256 .f32 := Trunk.iblk V c 5 t
abbrev w2B (t : Fin cfg0.N) : Vec Ideal S256x256 .bf16 := Trunk.iblk V c 6 t
abbrev b2B (t : Fin cfg0.N) : Vec Ideal S256 .f32 := Trunk.iblk V c 7 t

/-- What tile `t` adds to entry `(b, h)` of the sum accumulator: column `h` of the network's output on the tile's
    rows, summed over the rows whose id is `b`. -/
def tileSum (t : Fin cfg0.N) (b : Fin 64) (h : Fin 256) : EReal :=
  ∑ r : Fin 4096, if (sB V c t (ix2 r (0 : Fin 1))).toInt = (b.val : ℤ) then
    Spec.lin (fun r k => Spec.relu (Spec.lin (fun r k => Spec.relu (Spec.lin (fun r d => xB V c t (ix2 r d))
      (w0B V c t) (b0B V c t) r k)) (w1B V c t) (b1B V c t) r k)) (w2B V c t) (b2B V c t) r h else 0

/-- What tile `t` adds to entry `b` of the count accumulator: the number of its rows whose id is `b`. -/
def tileCnt (t : Fin cfg0.N) (b : Fin 64) : EReal :=
  ∑ r : Fin 4096, if (sB V c t (ix2 r (0 : Fin 1))).toInt = (b.val : ℤ) then (1 : EReal) else 0

/-- One step of the sum accumulator at an entry. -/
theorem stepSum_at (t : Fin cfg0.N) (acc : Vec Ideal S64x256 .f32) (b : Fin 64) (h : Fin 256) :
    Trunk.stepSum V c t acc (ix2 b h) = acc (ix2 b h) + tileSum V c t b h := by
  have e8 : k0_pay8 (F := Ideal) (w2B V c t) = w2B V c t := funext fun j => TrunkTile.weight_apply _ j
  have e9 : ∀ (r : Fin 4096) (k : Fin 256),
      k0_pay9 (F := Ideal) (xB V c t) (w0B V c t) (b0B V c t) (w1B V c t) (b1B V c t) (ix2 r k)
        = Spec.relu (Spec.lin (fun r k => Spec.relu (Spec.lin (fun r d => xB V c t (ix2 r d)) (w0B V c t) (b0B V c t) r k))
            (w1B V c t) (b1B V c t) r k) :=
    fun r k => TrunkTile.hidden_apply _ _ _ _ _ r k
  show k0_pay2 (F := Ideal) (k0_pay8 (w2B V c t)) (b2B V c t)
      (k0_pay9 (xB V c t) (w0B V c t) (b0B V c t) (w1B V c t) (b1B V c t)) (sB V c t) acc (ix2 b h) = _
  refine (TrunkTile.stepSum_apply _ _ _ _ acc b h).trans ?_
  rw [e8]
  simp only [e9]
  rfl

/-- One step of the count accumulator at an entry. -/
theorem stepCnt_at (t : Fin cfg0.N) (acc : Vec Ideal S1x64 .f32) (b : Fin 64) :
    Trunk.stepCnt V c t acc (ix2 (0 : Fin 1) b) = acc (ix2 (0 : Fin 1) b) + tileCnt V c t b := by
  show k0_pay3 (F := Ideal) (sB V c t) acc (ix2 (0 : Fin 1) b) = _
  exact TrunkTile.stepCnt_apply _ acc b

/-! ## A core's run of tiles -/

/-- Tile `s` of core `k` is a point of the grid. -/
theorem lt_N (k : Fin 2) (s : ℕ) (hs : s < 32) : 32 * k.val + s < cfg0.N := by
  have hN : cfg0.N = 64 := N_0
  have := k.isLt
  omega
/-- Tile `s` of core `k` as a point. -/
abbrev tIdx (k : Fin 2) (s : ℕ) (hs : s < 32) : Fin cfg0.N := ⟨32 * k.val + s, lt_N k s hs⟩

/-- The accumulators after a position depend on the position only. -/
theorem acc_congr {n n' : ℕ} (e : n = n') (h : n < cfg0.N) (h' : n' < cfg0.N) :
    Trunk.accAt V c n h = Trunk.accAt V c n' h' := by subst e; rfl

/-- After tile `j` of core `k` the sum accumulator holds the contributions of tiles `32 k … 32 k + j`. -/
theorem runSum (k : Fin 2) (b : Fin 64) (h : Fin 256) : ∀ (j : ℕ) (hj : j < 32),
    (Trunk.accAt V c (32 * k.val + j) (lt_N k j hj)).1 (ix2 b h)
      = ∑ s : Fin (j + 1), tileSum V c (tIdx k s.val (Nat.lt_of_lt_of_le s.isLt hj)) b h
  | 0, hj => by
    have h0 := Trunk.accAt_reset V c (tIdx k 0 hj) (by show (32 * k.val + 0) % 32 = 0; omega)
    rw [show Trunk.accAt V c (32 * k.val + 0) (lt_N k 0 hj) = _ from h0]
    show Trunk.stepSum V c (tIdx k 0 hj) (k0_pay6 (F := Ideal)) (ix2 b h) = _
    rw [stepSum_at, TrunkTile.resetSum_apply, zero_add, Fin.sum_univ_castSucc, Fin.sum_univ_zero, zero_add]
    rfl
  | j + 1, hj => by
    have hne : ¬(tIdx k (j + 1) hj).val % 32 = 0 := by show ¬(32 * k.val + (j + 1)) % 32 = 0; omega
    have hs := Trunk.accAt_step V c (tIdx k (j + 1) hj) hne
    rw [show Trunk.accAt V c (32 * k.val + (j + 1)) (lt_N k (j + 1) hj) = _ from hs]
    show Trunk.stepSum V c (tIdx k (j + 1) hj) (Trunk.accAt V c (32 * k.val + (j + 1) - 1) _).1 (ix2 b h) = _
    rw [Fin.sum_univ_castSucc, stepSum_at,
      acc_congr V c (show 32 * k.val + (j + 1) - 1 = 32 * k.val + j by omega) _ (lt_N k j (by omega)), runSum k b h j (by omega)]
    rfl

/-- After tile `j` of core `k` the count accumulator holds the counts of tiles `32 k … 32 k + j`. -/
theorem runCnt (k : Fin 2) (b : Fin 64) : ∀ (j : ℕ) (hj : j < 32),
    (Trunk.accAt V c (32 * k.val + j) (lt_N k j hj)).2 (ix2 (0 : Fin 1) b)
      = ∑ s : Fin (j + 1), tileCnt V c (tIdx k s.val (Nat.lt_of_lt_of_le s.isLt hj)) b
  | 0, hj => by
    have h0 := Trunk.accAt_reset V c (tIdx k 0 hj) (by show (32 * k.val + 0) % 32 = 0; omega)
    rw [show Trunk.accAt V c (32 * k.val + 0) (lt_N k 0 hj) = _ from h0]
    show Trunk.stepCnt V c (tIdx k 0 hj) (k0_pay7 (F := Ideal)) (ix2 (0 : Fin 1) b) = _
    rw [stepCnt_at, TrunkTile.resetCnt_apply, zero_add, Fin.sum_univ_castSucc, Fin.sum_univ_zero, zero_add]
    rfl
  | j + 1, hj => by
    have hne : ¬(tIdx k (j + 1) hj).val % 32 = 0 := by show ¬(32 * k.val + (j + 1)) % 32 = 0; omega
    have hs := Trunk.accAt_step V c (tIdx k (j + 1) hj) hne
    rw [show Trunk.accAt V c (32 * k.val + (j + 1)) (lt_N k (j + 1) hj) = _ from hs]
    show Trunk.stepCnt V c (tIdx k (j + 1) hj) (Trunk.accAt V c (32 * k.val + (j + 1) - 1) _).2 (ix2 (0 : Fin 1) b) = _
    rw [Fin.sum_univ_castSucc, stepCnt_at,
      acc_congr V c (show 32 * k.val + (j + 1) - 1 = 32 * k.val + j by omega) _ (lt_N k j (by omega)), runCnt k b j (by omega)]
    rfl

/-- After a core's last tile: the sum over its 32 tiles. -/
theorem coreSum (k : Fin 2) (b : Fin 64) (h : Fin 256) :
    (Trunk.accAt V c (32 * k.val + 31) (lt_N k 31 (by omega))).1 (ix2 b h)
      = ∑ s : Fin 32, tileSum V c (tIdx k s.val s.isLt) b h :=
  runSum V c k b h 31 (by omega)
theorem coreCnt (k : Fin 2) (b : Fin 64) :
    (Trunk.accAt V c (32 * k.val + 31) (lt_N k 31 (by omega))).2 (ix2 (0 : Fin 1) b)
      = ∑ s : Fin 32, tileCnt V c (tIdx k s.val s.isLt) b :=
  runCnt V c k b 31 (by omega)

end Cert.KernelIdeal.ValueTrunk

end
-- ==== Proof.KI.ValueTrunkOut.lean ====
/-
  Region 0's two result arrays after the region. Each core writes its block of either array once, at its last tile:
  block k of the [2, 64, 256] array is the sum accumulator, block k of the [2, 1, 64] array the count accumulator, as
  core k's 32nd tile leaves them. The two blocks cover either array, so the arrays hold exactly that.
-/
import proofs.«404486_j82265803588247_3_alg».proof.Proof.KI.TrunkData
import proofs.«404486_j82265803588247_3_alg».proof.Proof.KI.TrunkTile
import Idealize.ShloMosaic.Lib.Pipeline.Value
import Idealize.ShloMosaic.Lib.ValueIdx

set_option maxRecDepth 16384

noncomputable section

namespace Cert.KernelIdeal.ValueTrunk

open Cert.KernelIdeal Cert.KernelIdeal.Gen Idealize.ShloMosaic Idealize.ShloMosaic.TcCoe Idealize.SL.Sem Idealize.ShloMosaic.ValueIdx
open scoped BigOperators

-- the buffers' contents when the region is entered, per core
variable (V : (c : Dev nD) → (b : Ref sig .tc) → Buf (Elt Ideal) ((c : Thread nD τ).loc b)) (c : Dev nD)

/-- The result windows' block at point `t` is the block of `t`'s core. -/
theorem index8 : ∀ t : Fin cfg0.N, win0_8.index t 0 = t.val / 32 ∧ win0_8.index t 1 = 0 ∧ win0_8.index t 2 = 0 :=
  (by decide +kernel : ∀ t : Fin grid0.N, win0_8.index t 0 = t.val / 32 ∧ win0_8.index t 1 = 0 ∧ win0_8.index t 2 = 0)
theorem index9 : ∀ t : Fin cfg0.N, win0_9.index t 0 = t.val / 32 ∧ win0_9.index t 1 = 0 ∧ win0_9.index t 2 = 0 :=
  (by decide +kernel : ∀ t : Fin grid0.N, win0_9.index t 0 = t.val / 32 ∧ win0_9.index t 1 = 0 ∧ win0_9.index t 2 = 0)

/-- Core `k`'s last tile is a point of the grid. -/
theorem last_lt (k : Fin 2) : 32 * k.val + 31 < cfg0.N := by
  have hN : cfg0.N = 64 := N_0
  have := k.isLt
  omega
abbrev lastOf (k : Fin 2) : Fin cfg0.N := ⟨32 * k.val + 31, last_lt k⟩

/-- The accumulators after a position depend on the position only. -/
theorem accAt_pos {n n' : ℕ} (e : n = n') (h : n < cfg0.N) (h' : n' < cfg0.N) :
    Trunk.accAt V c n h = Trunk.accAt V c n' h' := by subst e; rfl

/-- Entry `(b, h)` of the sum accumulator, entry `b` of the count accumulator, after core `k`'s last tile. -/
def sumAt (k : Fin 2) (b : Fin 64) (h : Fin 256) : EReal := (Trunk.accAt V c (32 * k.val + 31) (last_lt k)).1 (ix2 b h)
def cntAt (k : Fin 2) (b : Fin 64) : EReal := (Trunk.accAt V c (32 * k.val + 31) (last_lt k)).2 (ix2 (0 : Fin 1) b)

/-- The two result arrays as the region leaves them. -/
def sumArr : Vec Ideal S2x64x256 .f32 := fun i => sumAt V c (i 0) (i 1) (i 2)
def cntArr : Vec Ideal S2x1x64 .f32 := fun i => cntAt V c (i 0) (i 2)

theorem sumArr_apply (k : Fin 2) (b : Fin 64) (h : Fin 256) : sumArr V c (ix3 k b h) = sumAt V c k b h := rfl
theorem cntArr_apply (k : Fin 2) (b : Fin 64) : cntArr V c (ix3 k (0 : Fin 1) b) = cntAt V c k b := rfl

/-- What a core's last tile writes back to the array of partial sums is that array's block. -/
theorem flushed8 (t : Fin cfg0.N) (hf : (cfg0.win 8).flush t = true) :
    (Trunk.dat0 V c).flushed 8 t = ((cfg0.win 8).blk t).view.read (Elt Ideal) (sumArr V c) := by
  have hN : cfg0.N = 64 := N_0
  have h31 : t.val % 32 = 31 := (flush0_8 t).mp hf
  have hk : t.val / 32 < 2 := by have := t.isLt; omega
  show (cfg0.win 8).cut (grid0.coords t) ((Trunk.dat0 V c).after 8 t) = _
  rw [Trunk.after0_8]
  funext y
  obtain ⟨y0, y1, y2, rfl⟩ : ∃ (y0 : Fin 1) (y1 : Fin 64) (y2 : Fin 256), y = ix3 y0 y1 y2 := ⟨y 0, y 1, y 2, eq_ix3 y⟩
  obtain rfl : y0 = 0 := Subsingleton.elim _ _
  have hx : (cfg0.win 8).xinj (grid0.coords t) (ix3 (0 : Fin 1) y1 y2) = (ix3 (0 : Fin 1) y1 y2 : S1x64x256.Idx) := by
    funext a
    match a with
    | ⟨0, _⟩ => rfl
    | ⟨1, _⟩ => rfl
    | ⟨2, _⟩ => rfl
  have he : ((cfg0.win 8).blk t).view.emb (ix3 (0 : Fin 1) y1 y2) = (ix3 (⟨t.val / 32, hk⟩ : Fin 2) y1 y2 : S2x64x256.Idx) := by
    funext a
    apply Fin.ext
    match a with
    | ⟨0, _⟩ => show win0_8.index t 0 * 1 + 1 * 0 = t.val / 32; rw [(index8 t).1]; omega
    | ⟨1, _⟩ => show win0_8.index t 1 * 64 + 1 * y1.val = y1.val; rw [(index8 t).2.1]; omega
    | ⟨2, _⟩ => show win0_8.index t 2 * 256 + 1 * y2.val = y2.val; rw [(index8 t).2.2]; omega
  rw [View.read_apply]
  show k0_pay4 (F := Ideal) (Trunk.accAt V c t.val t.isLt).1 ((cfg0.win 8).xinj (grid0.coords t) (ix3 (0 : Fin 1) y1 y2))
    = sumArr V c (((cfg0.win 8).blk t).view.emb (ix3 (0 : Fin 1) y1 y2))
  rw [hx, he, TrunkTile.outSum_apply, sumArr_apply]
  unfold sumAt
  rw [accAt_pos V c (show t.val = 32 * (t.val / 32) + 31 by omega) t.isLt (last_lt ⟨t.val / 32, hk⟩)]

/-- What a core's last tile writes back to the array of partial counts is that array's block. -/
theorem flushed9 (t : Fin cfg0.N) (hf : (cfg0.win 9).flush t = true) :
    (Trunk.dat0 V c).flushed 9 t = ((cfg0.win 9).blk t).view.read (Elt Ideal) (cntArr V c) := by
  have hN : cfg0.N = 64 := N_0
  have h31 : t.val % 32 = 31 := (flush0_9 t).mp hf
  have hk : t.val / 32 < 2 := by have := t.isLt; omega
  show (cfg0.win 9).cut (grid0.coords t) ((Trunk.dat0 V c).after 9 t) = _
  rw [Trunk.after0_9]
  funext y
  obtain ⟨y0, y1, y2, rfl⟩ : ∃ (y0 : Fin 1) (y1 : Fin 1) (y2 : Fin 64), y = ix3 y0 y1 y2 := ⟨y 0, y 1, y 2, eq_ix3 y⟩
  obtain rfl : y0 = 0 := Subsingleton.elim _ _
  obtain rfl : y1 = 0 := Subsingleton.elim _ _
  have hx : (cfg0.win 9).xinj (grid0.coords t) (ix3 (0 : Fin 1) (0 : Fin 1) y2) = (ix3 (0 : Fin 1) (0 : Fin 1) y2 : S1x1x64.Idx) := by
    funext a
    match a with
    | ⟨0, _⟩ => rfl
    | ⟨1, _⟩ => rfl
    | ⟨2, _⟩ => rfl
  have he : ((cfg0.win 9).blk t).view.emb (ix3 (0 : Fin 1) (0 : Fin 1) y2)
      = (ix3 (⟨t.val / 32, hk⟩ : Fin 2) (0 : Fin 1) y2 : S2x1x64.Idx) := by
    funext a
    apply Fin.ext
    match a with
    | ⟨0, _⟩ => show win0_9.index t 0 * 1 + 1 * 0 = t.val / 32; rw [(index9 t).1]; omega
    | ⟨1, _⟩ => show win0_9.index t 1 * 1 + 1 * 0 = 0; rw [(index9 t).2.1]
    | ⟨2, _⟩ => show win0_9.index t 2 * 64 + 1 * y2.val = y2.val; rw [(index9 t).2.2]; omega
  rw [View.read_apply]
  show k0_pay5 (F := Ideal) (Trunk.accAt V c t.val t.isLt).2 ((cfg0.win 9).xinj (grid0.coords t) (ix3 (0 : Fin 1) (0 : Fin 1) y2))
    = cntArr V c (((cfg0.win 9).blk t).view.emb (ix3 (0 : Fin 1) (0 : Fin 1) y2))
  rw [hx, he, TrunkTile.outCnt_apply, cntArr_apply]
  unfold cntAt
  rw [accAt_pos V c (show t.val = 32 * (t.val / 32) + 31 by omega) t.isLt (last_lt ⟨t.val / 32, hk⟩)]

/-- Every entry of the array of partial sums lies in the block its core's last tile writes back. -/
theorem cover8 (i : S2x64x256.Idx) :
    ∃ t : Fin cfg0.N, (cfg0.win 8).flush t = true ∧ i ∈ ((cfg0.win 8).blk t).view.set := by
  have h0 : (i 0 : ℕ) < 2 := (i 0).isLt
  have h1 : (i 1 : ℕ) < 64 := (i 1).isLt
  have h2 : (i 2 : ℕ) < 256 := (i 2).isLt
  refine ⟨lastOf ⟨(i 0).val, h0⟩, (flush0_8 _).mpr (by show (32 * (i 0).val + 31) % 32 = 31; omega), ?_⟩
  show i ∈ ((View.whole main_v9_0).slice (win0_8.rect (lastOf ⟨(i 0).val, h0⟩))).set
  rw [View.set_slice_whole, Rect.mem_set_unit]
  intro a
  match a with
  | ⟨0, _⟩ =>
    show win0_8.index (lastOf ⟨(i 0).val, h0⟩) 0 * 1 ≤ (i 0 : ℕ) ∧ (i 0 : ℕ) < win0_8.index (lastOf ⟨(i 0).val, h0⟩) 0 * 1 + 1
    rw [(index8 _).1]
    show (32 * (i 0).val + 31) / 32 * 1 ≤ (i 0 : ℕ) ∧ (i 0 : ℕ) < (32 * (i 0).val + 31) / 32 * 1 + 1
    omega
  | ⟨1, _⟩ =>
    show win0_8.index (lastOf ⟨(i 0).val, h0⟩) 1 * 64 ≤ (i 1 : ℕ) ∧ (i 1 : ℕ) < win0_8.index (lastOf ⟨(i 0).val, h0⟩) 1 * 64 + 64
    rw [(index8 _).2.1]; omega
  | ⟨2, _⟩ =>
    show win0_8.index (lastOf ⟨(i 0).val, h0⟩) 2 * 256 ≤ (i 2 : ℕ) ∧ (i 2 : ℕ) < win0_8.index (lastOf ⟨(i 0).val, h0⟩) 2 * 256 + 256
    rw [(index8 _).2.2]; omega

/-- Every entry of the array of partial counts lies in the block its core's last tile writes back. -/
theorem cover9 (i : S2x1x64.Idx) :
    ∃ t : Fin cfg0.N, (cfg0.win 9).flush t = true ∧ i ∈ ((cfg0.win 9).blk t).view.set := by
  have h0 : (i 0 : ℕ) < 2 := (i 0).isLt
  have h1 : (i 1 : ℕ) < 1 := (i 1).isLt
  have h2 : (i 2 : ℕ) < 64 := (i 2).isLt
  refine ⟨lastOf ⟨(i 0).val, h0⟩, (flush0_9 _).mpr (by show (32 * (i 0).val + 31) % 32 = 31; omega), ?_⟩
  show i ∈ ((View.whole main_v9_1).slice (win0_9.rect (lastOf ⟨(i 0).val, h0⟩))).set
  rw [View.set_slice_whole, Rect.mem_set_unit]
  intro a
  match a with
  | ⟨0, _⟩ =>
    show win0_9.index (lastOf ⟨(i 0).val, h0⟩) 0 * 1 ≤ (i 0 : ℕ) ∧ (i 0 : ℕ) < win0_9.index (lastOf ⟨(i 0).val, h0⟩) 0 * 1 + 1
    rw [(index9 _).1]
    show (32 * (i 0).val + 31) / 32 * 1 ≤ (i 0 : ℕ) ∧ (i 0 : ℕ) < (32 * (i 0).val + 31) / 32 * 1 + 1
    omega
  | ⟨1, _⟩ =>
    show win0_9.index (lastOf ⟨(i 0).val, h0⟩) 1 * 1 ≤ (i 1 : ℕ) ∧ (i 1 : ℕ) < win0_9.index (lastOf ⟨(i 0).val, h0⟩) 1 * 1 + 1
    rw [(index9 _).2.1]; omega
  | ⟨2, _⟩ =>
    show win0_9.index (lastOf ⟨(i 0).val, h0⟩) 2 * 64 ≤ (i 2 : ℕ) ∧ (i 2 : ℕ) < win0_9.index (lastOf ⟨(i 0).val, h0⟩) 2 * 64 + 64
    rw [(index9 _).2.2]; omega

/-- After the region the array of partial sums holds, in block `k`, the sum accumulator after core `k`'s last tile, -/
theorem sumArr_final : (Trunk.dat0 V c).arrAt 8 cfg0.N = sumArr V c :=
  (Trunk.dat0 V c).arrAt_eq_of_cover 8 (sumArr V c) (flushed8 V c) (cover8)
/-- and the array of partial counts the count accumulator. -/
theorem cntArr_final : (Trunk.dat0 V c).arrAt 9 cfg0.N = cntArr V c :=
  (Trunk.dat0 V c).arrAt_eq_of_cover 9 (cntArr V c) (flushed9 V c) (cover9)

end Cert.KernelIdeal.ValueTrunk

end
-- ==== Proof.KI.ValueTrunk.lean ====
/-
  What region 1 finds in the buffer of segment means. Each core's 32 tiles add, segment by segment, the trunk
  network's output rows of that segment's nodes (the one-hot product is that sum: a node's row enters the segment
  its id names and no other) and count them; the host adds the two cores' partial sums and counts, clamps the
  count below by one and divides. A sum over all nodes split by tile and by core is the same sum.
-/
import proofs.«404486_j82265803588247_3_alg».proof.Proof.KI.Whole
import proofs.«404486_j82265803588247_3_alg».proof.Proof.KI.Args
import proofs.«404486_j82265803588247_3_alg».proof.Proof.KI.TrunkTile
import proofs.«404486_j82265803588247_3_alg».proof.Proof.KI.ValueTrunkSum
import proofs.«404486_j82265803588247_3_alg».proof.Proof.KI.ValueTrunkHost
import proofs.«404486_j82265803588247_3_alg».proof.Proof.KI.ValueTrunkBlocks
import proofs.«404486_j82265803588247_3_alg».proof.Proof.KI.ValueTrunkAcc
import proofs.«404486_j82265803588247_3_alg».proof.Proof.KI.ValueTrunkOut
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.ValueTrunk

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ) (c : Dev nD)

/-- A tile's contribution to the sum accumulator, over the launched arguments: the trunk network's output on the
    tile's rows of the node array, summed over the rows whose id is the segment's number. -/
theorem tileSum_eq (t : Fin cfg0.N) (b : Fin 64) (h : Fin 256) :
    tileSum (Whole.V1 m) c t b h
      = ∑ r : Fin 4096, if Spec.inSeg (Args.coord_seg m c) (rowAt t r) b then
          Spec.mlp3 (Args.nodes m c) (Args.tw0 m c) (Args.tb0 m c) (Args.tw1 m c) (Args.tb1 m c) (Args.tw2 m c) (Args.tb2 m c)
            (rowAt t r) h else 0 := by
  have hx : (fun (r : Fin 4096) (d : Fin 3) => xB (Whole.V1 m) c t (ix2 r d)) = fun r d => Args.nodes m c (ix2 (rowAt t r) d) :=
    funext fun r => funext fun d => (nodesBlk_apply (Whole.V1 m) c t r d).trans (congrFun (V1_nodes m c) _)
  have hs : ∀ r : Fin 4096, sB (Whole.V1 m) c t (ix2 r (0 : Fin 1)) = Args.coord_seg m c (ix1 (rowAt t r)) :=
    fun r => (segBlk_apply (Whole.V1 m) c t r).trans (V1_seg m c (rowAt t r))
  have hw0 : w0B (Whole.V1 m) c t = Args.tw0 m c := (w0Blk_eq (Whole.V1 m) c t).trans (V1_tw0 m c)
  have hb0 : b0B (Whole.V1 m) c t = Args.tb0 m c := (b0Blk_eq (Whole.V1 m) c t).trans (V1_tb0 m c)
  have hw1 : w1B (Whole.V1 m) c t = Args.tw1 m c := (w1Blk_eq (Whole.V1 m) c t).trans (V1_tw1 m c)
  have hb1 : b1B (Whole.V1 m) c t = Args.tb1 m c := (b1Blk_eq (Whole.V1 m) c t).trans (V1_tb1 m c)
  have hw2 : w2B (Whole.V1 m) c t = Args.tw2 m c := (w2Blk_eq (Whole.V1 m) c t).trans (V1_tw2 m c)
  have hb2 : b2B (Whole.V1 m) c t = Args.tb2 m c := (b2Blk_eq (Whole.V1 m) c t).trans (V1_tb2 m c)
  unfold tileSum
  rw [hx, hw0, hb0, hw1, hb1, hw2, hb2]
  refine Finset.sum_congr rfl fun r _ => ?_
  rw [hs r]
  by_cases hin : Spec.inSeg (Args.coord_seg m c) (rowAt t r) b
  · rw [if_pos hin, if_pos (show (Args.coord_seg m c (ix1 (rowAt t r))).toInt = (b.val : ℤ) from hin)]
    rfl
  · rw [if_neg hin, if_neg (show ¬(Args.coord_seg m c (ix1 (rowAt t r))).toInt = (b.val : ℤ) from hin)]

/-- A tile's contribution to the count accumulator, over the launched arguments. -/
theorem tileCnt_eq (t : Fin cfg0.N) (b : Fin 64) :
    tileCnt (Whole.V1 m) c t b
      = ∑ r : Fin 4096, if Spec.inSeg (Args.coord_seg m c) (rowAt t r) b then (1 : EReal) else 0 := by
  have hs : ∀ r : Fin 4096, sB (Whole.V1 m) c t (ix2 r (0 : Fin 1)) = Args.coord_seg m c (ix1 (rowAt t r)) :=
    fun r => (segBlk_apply (Whole.V1 m) c t r).trans (V1_seg m c (rowAt t r))
  unfold tileCnt
  refine Finset.sum_congr rfl fun r _ => ?_
  rw [hs r]
  by_cases hin : Spec.inSeg (Args.coord_seg m c) (rowAt t r) b
  · rw [if_pos hin, if_pos (show (Args.coord_seg m c (ix1 (rowAt t r))).toInt = (b.val : ℤ) from hin)]
  · rw [if_neg hin, if_neg (show ¬(Args.coord_seg m c (ix1 (rowAt t r))).toInt = (b.val : ℤ) from hin)]

/-- Core `k`'s entry `(b, h)` of the array of partial sums when region 0 is left: the network's column `h` summed over
    the core's rows whose id is `b`. -/
theorem parts_sum (k : Fin 2) (b : Fin 64) (h : Fin 256) :
    (Whole.W2 (F := Ideal) m c (Proc.devRef .tc main_v9_0) : Vec Ideal S2x64x256 .f32) (ix3 k b h)
      = ∑ j : Fin 32, ∑ r : Fin 4096, if Spec.inSeg (Args.coord_seg m c) (rowOf (tileOf k j) r) b then
          Spec.mlp3 (Args.nodes m c) (Args.tw0 m c) (Args.tb0 m c) (Args.tw1 m c) (Args.tb1 m c) (Args.tw2 m c) (Args.tb2 m c)
            (rowOf (tileOf k j) r) h else 0 := by
  have hA : (Whole.W2 (F := Ideal) m c (Proc.devRef .tc main_v9_0) : Vec Ideal S2x64x256 .f32) = sumArr (Whole.V1 m) c :=
    (Whole.W2_arr m c 8).trans (sumArr_final (Whole.V1 m) c)
  rw [hA, sumArr_apply]
  unfold sumAt
  refine (coreSum (Whole.V1 m) c k b h).trans ?_
  refine Finset.sum_congr rfl fun j _ => ?_
  rw [tileSum_eq]

/-- Core `k`'s entry `b` of the array of partial counts when region 0 is left: the number of the core's rows whose id
    is `b`. -/
theorem parts_cnt (k : Fin 2) (b : Fin 64) :
    (Whole.W2 (F := Ideal) m c (Proc.devRef .tc main_v9_1) : Vec Ideal S2x1x64 .f32) (ix3 k (0 : Fin 1) b)
      = ∑ j : Fin 32, ∑ r : Fin 4096, if Spec.inSeg (Args.coord_seg m c) (rowOf (tileOf k j) r) b then (1 : EReal) else 0 := by
  have hB : (Whole.W2 (F := Ideal) m c (Proc.devRef .tc main_v9_1) : Vec Ideal S2x1x64 .f32) = cntArr (Whole.V1 m) c :=
    (Whole.W2_arr m c 9).trans (cntArr_final (Whole.V1 m) c)
  rw [hB, cntArr_apply]
  unfold cntAt
  refine (coreCnt (Whole.V1 m) c k b).trans ?_
  refine Finset.sum_congr rfl fun j _ => ?_
  rw [tileCnt_eq]

/-- After the second host stretch the buffer `main_v17` (the quotient, re-formatted: the identity over the extended
    reals) holds the specification's table of segment means of the launched arguments. -/
theorem segMean_eq (b : Fin 64) (h : Fin 256) :
    (Whole.W3 (F := Ideal) m c (Proc.devRef .tc main_v17) : S64x256.Idx → EReal) (ix2 b h) = Args.trunkMean m c b h := by
  show (StableHlo.after (hostOps1 (F := Ideal)) (Whole.W2 m c) (Proc.devRef .tc main_v17) : Vec Ideal S64x256 .bf16) (ix2 b h) = _
  rw [tail_eq, tailTerm_apply]
  show _ = Spec.trunkMean (Args.nodes m c) (Args.coord_seg m c) (Args.tw0 m c) (Args.tb0 m c) (Args.tw1 m c) (Args.tb1 m c)
    (Args.tw2 m c) (Args.tb2 m c) b h
  unfold Spec.trunkMean
  rw [segMean_split]
  congr 1
  · exact Finset.sum_congr rfl fun k _ => parts_sum m c k b h
  · congr 1
    exact Finset.sum_congr rfl fun k _ => parts_cnt m c k b

end Cert.KernelIdeal.ValueTrunk

end
-- ==== Proof.KI.ValueBranchBlocks.lean ====
/-
  What region 1 reads. Of its thirteen input arrays six are launched arguments nothing before it writes; four are
  weight matrices the first host stretch re-formatted, which on the extended reals changes nothing; two are the known
  nodes' ids and the last bias re-shaped to one column by that stretch (entry (i, 0) of the column is entry i); one is the
  table of segment means. Region 0 writes only its two result arrays and the second host stretch only its own results, so
  all of them reach region 1 as the first stretch left them. Tile `t` reads rows 4096 t … 4096 t + 4095 of the known
  nodes and of the id column, and every other array whole.
-/
import proofs.«404486_j82265803588247_3_alg».proof.Proof.KI.Whole
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.ValueBranch

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ) (c : Dev nD)

/-! ## The arrays as region 1 finds them -/

/-- A buffer neither host stretch before region 1 writes, and that is no array of region 0, reaches region 1 as launched. -/
theorem V3_keep (b : Ref sig .tc) (h0 : b ∉ hostOps0_W) (hr0 : ∀ w, Pipeline.arrRef spec0 w ≠ b) (h1 : b ∉ hostOps1_W) :
    Whole.V3 (F := Ideal) m c b = m ((c : Thread nD τ).loc b) :=
  calc Whole.W3 (F := Ideal) m c (Proc.devRef .tc b)
    _ = Whole.W2 m c (Proc.devRef .tc b) := StableHlo.after_of_writes_sub hostOps1 _ hostOps1_writes h1
    _ = Whole.W1 m c (Proc.devRef .tc b) := Whole.W2_of_ne m c b hr0
    _ = Whole.W0 m c (Proc.devRef .tc b) := StableHlo.after_of_writes_sub hostOps0 _ hostOps0_writes h0
    _ = m ((c : Thread nD τ).loc b) := rfl

/-- A result of the first host stretch that nothing later writes reaches region 1 as that stretch left it. -/
theorem V3_host0 (b : Ref sig .tc) (hr0 : ∀ w, Pipeline.arrRef spec0 w ≠ b) (h1 : b ∉ hostOps1_W) :
    Whole.V3 (F := Ideal) m c b = StableHlo.after hostOps0 (Whole.W0 m c) (Proc.devRef .tc b) :=
  calc Whole.W3 (F := Ideal) m c (Proc.devRef .tc b)
    _ = Whole.W2 m c (Proc.devRef .tc b) := StableHlo.after_of_writes_sub hostOps1 _ hostOps1_writes h1
    _ = Whole.W1 m c (Proc.devRef .tc b) := Whole.W2_of_ne m c b hr0

theorem V3_arg0 : Whole.V3 (F := Ideal) m c main_arg0 = m ((c : Thread nD τ).loc main_arg0) := V3_keep m c main_arg0 (by decide) (by decide) (by decide)
theorem V3_arg4 : Whole.V3 (F := Ideal) m c main_arg4 = m ((c : Thread nD τ).loc main_arg4) := V3_keep m c main_arg4 (by decide) (by decide) (by decide)
theorem V3_arg5 : Whole.V3 (F := Ideal) m c main_arg5 = m ((c : Thread nD τ).loc main_arg5) := V3_keep m c main_arg5 (by decide) (by decide) (by decide)
theorem V3_arg7 : Whole.V3 (F := Ideal) m c main_arg7 = m ((c : Thread nD τ).loc main_arg7) := V3_keep m c main_arg7 (by decide) (by decide) (by decide)
theorem V3_arg9 : Whole.V3 (F := Ideal) m c main_arg9 = m ((c : Thread nD τ).loc main_arg9) := V3_keep m c main_arg9 (by decide) (by decide) (by decide)
theorem V3_arg17 : Whole.V3 (F := Ideal) m c main_arg17 = m ((c : Thread nD τ).loc main_arg17) := V3_keep m c main_arg17 (by decide) (by decide) (by decide)

/-- The re-formatted weights: a change of float format is the identity on the extended reals. -/
theorem V3_v4 : (Whole.V3 (F := Ideal) m c main_v4 : S256x256.Idx → EReal) = m ((c : Thread nD τ).loc main_arg6) := by
  rw [V3_host0 m c main_v4 (by decide) (by decide)]
  show StableHlo.after hostOps0 _ (Proc.devRef .tc main_v4) = _
  after_results
  rfl
theorem V3_v5 : (Whole.V3 (F := Ideal) m c main_v5 : S256x256.Idx → EReal) = m ((c : Thread nD τ).loc main_arg8) := by
  rw [V3_host0 m c main_v5 (by decide) (by decide)]
  show StableHlo.after hostOps0 _ (Proc.devRef .tc main_v5) = _
  after_results
  rfl
theorem V3_v6 : (Whole.V3 (F := Ideal) m c main_v6 : S256x256.Idx → EReal) = m ((c : Thread nD τ).loc main_arg16) := by
  rw [V3_host0 m c main_v6 (by decide) (by decide)]
  show StableHlo.after hostOps0 _ (Proc.devRef .tc main_v6) = _
  after_results
  rfl
theorem V3_v7 : (Whole.V3 (F := Ideal) m c main_v7 : S256x3.Idx → EReal) = m ((c : Thread nD τ).loc main_arg18) := by
  rw [V3_host0 m c main_v7 (by decide) (by decide)]
  show StableHlo.after hostOps0 _ (Proc.devRef .tc main_v7) = _
  after_results
  rfl

/-- The ids as a column: entry (i, 0) is id i. -/
theorem V3_v0 (i : Fin 262144) : (Whole.V3 (F := Ideal) m c main_v0 : S262144x1.Idx → BitVec 32) (ix2 i 0) = (m ((c : Thread nD τ).loc main_arg2) : S262144.Idx → BitVec 32) (ix1 i) := by
  rw [V3_host0 m c main_v0 (by decide) (by decide)]
  show StableHlo.after hostOps0 _ (Proc.devRef .tc main_v0) _ = _
  after_results
  show shapeCast S262144x1 (m ((c : Thread nD τ).loc main_arg2) : S262144.Idx → BitVec 32) shapeCasts_S262144_S262144x1 (ix2 i 0) = _
  refine shapeCast_apply (s := S262144) (t := S262144x1) _ _ _ (ix1 i) ?_
  rw [Shape.rowMajor_val_one, Shape.rowMajor_val_two]
  show i.val = i.val * 1 + 0
  omega

/-- The last bias as a column: entry (o, 0) is bias o. -/
theorem V3_v8 (o : Fin 3) : (Whole.V3 (F := Ideal) m c main_v8 : S3x1.Idx → EReal) (ix2 o 0) = (m ((c : Thread nD τ).loc main_arg19) : S3.Idx → EReal) (ix1 o) := by
  rw [V3_host0 m c main_v8 (by decide) (by decide)]
  show StableHlo.after hostOps0 _ (Proc.devRef .tc main_v8) _ = _
  after_results
  show shapeCast S3x1 (m ((c : Thread nD τ).loc main_arg19) : S3.Idx → EReal) shapeCasts_S3_S3x1 (ix2 o 0) = _
  refine shapeCast_apply (s := S3) (t := S3x1) _ _ _ (ix1 o) ?_
  rw [Shape.rowMajor_val_one, Shape.rowMajor_val_two]
  show o.val = o.val * 1 + 0
  omega

/-! ## The blocks

  A block's coordinate in its array is the block index times the block's size plus the coordinate inside the block; the
  block indices are decided once over the 64 points. -/

theorem tile_index : ∀ t : Fin cfg1.N, win1_0.index t (0 : Fin 2) = t.val ∧ win1_0.index t (1 : Fin 2) = 0
    ∧ win1_1.index t (0 : Fin 2) = t.val ∧ win1_1.index t (1 : Fin 2) = 0
    ∧ win1_13.index t (0 : Fin 2) = 0 ∧ win1_13.index t (1 : Fin 2) = t.val :=
  (by decide +kernel : ∀ t : Fin grid1.N, _)

theorem whole_index : ∀ t : Fin cfg1.N, (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 2) = 0 ∧ win1_6.index t (1 : Fin 2) = 0)
    ∧ win1_7.index t (0 : Fin 1) = 0
    ∧ (win1_8.index t (0 : Fin 2) = 0 ∧ win1_8.index t (1 : Fin 2) = 0)
    ∧ (win1_9.index t (0 : Fin 2) = 0 ∧ win1_9.index t (1 : Fin 2) = 0)
    ∧ win1_10.index t (0 : Fin 1) = 0
    ∧ (win1_11.index t (0 : Fin 2) = 0 ∧ win1_11.index t (1 : Fin 2) = 0)
    ∧ (win1_12.index t (0 : Fin 2) = 0 ∧ win1_12.index t (1 : Fin 2) = 0) :=
  (by decide +kernel : ∀ t : Fin grid1.N, _)

/-- Tile `t` of the known nodes holds rows 4096 t … 4096 t + 4095. -/
theorem blk0_apply (t : Fin cfg1.N) (r : Fin 4096) (d : Fin 3) (i : Fin 262144) (hi : i.val = 4096 * t.val + r.val) :
    (Branch.iblk (Whole.V3 (F := Ideal) m) c 0 t : S4096x3.Idx → EReal) (ix2 r d) = (m ((c : Thread nD τ).loc main_arg0) : S262144x3.Idx → EReal) (ix2 i d) := by
  unfold Branch.iblk
  rw [View.read_apply]
  show Whole.V3 (F := Ideal) m c main_arg0 _ = _
  rw [V3_arg0]
  congr 1
  funext a
  apply Fin.ext
  match a with
  | ⟨0, _⟩ => show win1_0.index t (0 : Fin 2) * 4096 + 1 * r.val = i.val; rw [(tile_index t).1]; omega
  | ⟨1, _⟩ => show win1_0.index t (1 : Fin 2) * 3 + 1 * d.val = d.val; rw [(tile_index t).2.1]; omega

/-- Tile `t` of the id column holds ids 4096 t … 4096 t + 4095. -/
theorem blk1_apply (t : Fin cfg1.N) (r : Fin 4096) (i : Fin 262144) (hi : i.val = 4096 * t.val + r.val) :
    (Branch.iblk (Whole.V3 (F := Ideal) m) c 1 t : S4096x1.Idx → BitVec 32) (ix2 r 0) = (m ((c : Thread nD τ).loc main_arg2) : S262144.Idx → BitVec 32) (ix1 i) := by
  unfold Branch.iblk
  rw [View.read_apply]
  show (Whole.V3 (F := Ideal) m c main_v0 : S262144x1.Idx → BitVec 32) _ = _
  rw [← V3_v0 m c i]
  congr 1
  funext a
  apply Fin.ext
  match a with
  | ⟨0, _⟩ => show win1_1.index t (0 : Fin 2) * 4096 + 1 * r.val = i.val; rw [(tile_index t).2.2.1]; omega
  | ⟨1, _⟩ => show win1_1.index t (1 : Fin 2) * 1 + 1 * 0 = 0; rw [(tile_index t).2.2.2.1]

/-- A window whose block is its whole array reads the array. -/
theorem blk2_eq (t : Fin cfg1.N) : (Branch.iblk (Whole.V3 (F := Ideal) m) c 2 t : S3x256.Idx → EReal) = m ((c : Thread nD τ).loc main_arg4) := by
  funext y
  unfold Branch.iblk
  rw [View.read_apply]
  show Whole.V3 (F := Ideal) m c main_arg4 _ = _
  rw [V3_arg4]
  congr 1
  funext a
  apply Fin.ext
  match a with
  | ⟨0, _⟩ => show win1_2.index t (0 : Fin 2) * 3 + 1 * (y 0).val = (y 0).val; rw [(whole_index t).1.1]; omega
  | ⟨1, _⟩ => show win1_2.index t (1 : Fin 2) * 256 + 1 * (y 1).val = (y 1).val; rw [(whole_index t).1.2]; omega
theorem blk3_eq (t : Fin cfg1.N) : (Branch.iblk (Whole.V3 (F := Ideal) m) c 3 t : S256.Idx → EReal) = m ((c : Thread nD τ).loc main_arg5) := by
  funext y
  unfold Branch.iblk
  rw [View.read_apply]
  show Whole.V3 (F := Ideal) m c main_arg5 _ = _
  rw [V3_arg5]
  congr 1
  funext a
  apply Fin.ext
  match a with
  | ⟨0, _⟩ => show win1_3.index t (0 : Fin 1) * 256 + 1 * (y 0).val = (y 0).val; rw [(whole_index t).2.1]; omega
theorem blk4_eq (t : Fin cfg1.N) : (Branch.iblk (Whole.V3 (F := Ideal) m) c 4 t : S256x256.Idx → EReal) = m ((c : Thread nD τ).loc main_arg6) := by
  funext y
  unfold Branch.iblk
  rw [View.read_apply]
  show (Whole.V3 (F := Ideal) m c main_v4 : S256x256.Idx → EReal) _ = _
  rw [V3_v4]
  congr 1
  funext a
  apply Fin.ext
  match a with
  | ⟨0, _⟩ => show win1_4.index t (0 : Fin 2) * 256 + 1 * (y 0).val = (y 0).val; rw [(whole_index t).2.2.1.1]; omega
  | ⟨1, _⟩ => show win1_4.index t (1 : Fin 2) * 256 + 1 * (y 1).val = (y 1).val; rw [(whole_index t).2.2.1.2]; omega
theorem blk5_eq (t : Fin cfg1.N) : (Branch.iblk (Whole.V3 (F := Ideal) m) c 5 t : S256.Idx → EReal) = m ((c : Thread nD τ).loc main_arg7) := by
  funext y
  unfold Branch.iblk
  rw [View.read_apply]
  show (Whole.V3 (F := Ideal) m c main_arg7 : S256.Idx → EReal) _ = _
  rw [V3_arg7]
  congr 1
  funext a
  apply Fin.ext
  match a with
  | ⟨0, _⟩ => show win1_5.index t (0 : Fin 1) * 256 + 1 * (y 0).val = (y 0).val; rw [(whole_index t).2.2.2.1]; omega
theorem blk6_eq (t : Fin cfg1.N) : (Branch.iblk (Whole.V3 (F := Ideal) m) c 6 t : S256x256.Idx → EReal) = m ((c : Thread nD τ).loc main_arg8) := by
  funext y
  unfold Branch.iblk
  rw [View.read_apply]
  show (Whole.V3 (F := Ideal) m c main_v5 : S256x256.Idx → EReal) _ = _
  rw [V3_v5]
  congr 1
  funext a
  apply Fin.ext
  match a with
  | ⟨0, _⟩ => show win1_6.index t (0 : Fin 2) * 256 + 1 * (y 0).val = (y 0).val; rw [(whole_index t).2.2.2.2.1.1]; omega
  | ⟨1, _⟩ => show win1_6.index t (1 : Fin 2) * 256 + 1 * (y 1).val = (y 1).val; rw [(whole_index t).2.2.2.2.1.2]; omega
theorem blk7_eq (t : Fin cfg1.N) : (Branch.iblk (Whole.V3 (F := Ideal) m) c 7 t : S256.Idx → EReal) = m ((c : Thread nD τ).loc main_arg9) := by
  funext y
  unfold Branch.iblk
  rw [View.read_apply]
  show (Whole.V3 (F := Ideal) m c main_arg9 : S256.Idx → EReal) _ = _
  rw [V3_arg9]
  congr 1
  funext a
  apply Fin.ext
  match a with
  | ⟨0, _⟩ => show win1_7.index t (0 : Fin 1) * 256 + 1 * (y 0).val = (y 0).val; rw [(whole_index t).2.2.2.2.2.1]; omega
theorem blk9_eq (t : Fin cfg1.N) : (Branch.iblk (Whole.V3 (F := Ideal) m) c 9 t : S256x256.Idx → EReal) = m ((c : Thread nD τ).loc main_arg16) := by
  funext y
  unfold Branch.iblk
  rw [View.read_apply]
  show (Whole.V3 (F := Ideal) m c main_v6 : S256x256.Idx → EReal) _ = _
  rw [V3_v6]
  congr 1
  funext a
  apply Fin.ext
  match a with
  | ⟨0, _⟩ => show win1_9.index t (0 : Fin 2) * 256 + 1 * (y 0).val = (y 0).val; rw [(whole_index t).2.2.2.2.2.2.2.1.1]; omega
  | ⟨1, _⟩ => show win1_9.index t (1 : Fin 2) * 256 + 1 * (y 1).val = (y 1).val; rw [(whole_index t).2.2.2.2.2.2.2.1.2]; omega
theorem blk10_eq (t : Fin cfg1.N) : (Branch.iblk (Whole.V3 (F := Ideal) m) c 10 t : S256.Idx → EReal) = m ((c : Thread nD τ).loc main_arg17) := by
  funext y
  unfold Branch.iblk
  rw [View.read_apply]
  show (Whole.V3 (F := Ideal) m c main_arg17 : S256.Idx → EReal) _ = _
  rw [V3_arg17]
  congr 1
  funext a
  apply Fin.ext
  match a with
  | ⟨0, _⟩ => show win1_10.index t (0 : Fin 1) * 256 + 1 * (y 0).val = (y 0).val; rw [(whole_index t).2.2.2.2.2.2.2.2.1]; omega
theorem blk11_eq (t : Fin cfg1.N) : (Branch.iblk (Whole.V3 (F := Ideal) m) c 11 t : S256x3.Idx → EReal) = m ((c : Thread nD τ).loc main_arg18) := by
  funext y
  unfold Branch.iblk
  rw [View.read_apply]
  show (Whole.V3 (F := Ideal) m c main_v7 : S256x3.Idx → EReal) _ = _
  rw [V3_v7]
  congr 1
  funext a
  apply Fin.ext
  match a with
  | ⟨0, _⟩ => show win1_11.index t (0 : Fin 2) * 256 + 1 * (y 0).val = (y 0).val; rw [(whole_index t).2.2.2.2.2.2.2.2.2.1.1]; omega
  | ⟨1, _⟩ => show win1_11.index t (1 : Fin 2) * 3 + 1 * (y 1).val = (y 1).val; rw [(whole_index t).2.2.2.2.2.2.2.2.2.1.2]; omega

/-- The table's window reads the table region 1 finds. -/
theorem blk8_apply (t : Fin cfg1.N) (b : Fin 64) (j : Fin 256) :
    (Branch.iblk (Whole.V3 (F := Ideal) m) c 8 t : S64x256.Idx → EReal) (ix2 b j) = (Whole.W3 (F := Ideal) m c (Proc.devRef .tc main_v17) : S64x256.Idx → EReal) (ix2 b j) := by
  unfold Branch.iblk
  rw [View.read_apply]
  show (Whole.V3 (F := Ideal) m c main_v17 : S64x256.Idx → EReal) _ = _
  congr 1
  funext a
  apply Fin.ext
  match a with
  | ⟨0, _⟩ => show win1_8.index t (0 : Fin 2) * 64 + 1 * b.val = b.val; rw [(whole_index t).2.2.2.2.2.2.1.1]; omega
  | ⟨1, _⟩ => show win1_8.index t (1 : Fin 2) * 256 + 1 * j.val = j.val; rw [(whole_index t).2.2.2.2.2.2.1.2]; omega

/-- The last bias's window reads the bias column. -/
theorem blk12_apply (t : Fin cfg1.N) (o : Fin 3) :
    (Branch.iblk (Whole.V3 (F := Ideal) m) c 12 t : S3x1.Idx → EReal) (ix2 o 0) = (m ((c : Thread nD τ).loc main_arg19) : S3.Idx → EReal) (ix1 o) := by
  unfold Branch.iblk
  rw [View.read_apply]
  show (Whole.V3 (F := Ideal) m c main_v8 : S3x1.Idx → EReal) _ = _
  rw [← V3_v8 m c o]
  congr 1
  funext a
  apply Fin.ext
  match a with
  | ⟨0, _⟩ => show win1_12.index t (0 : Fin 2) * 3 + 1 * o.val = o.val; rw [(whole_index t).2.2.2.2.2.2.2.2.2.2.1]; omega
  | ⟨1, _⟩ => show win1_12.index t (1 : Fin 2) * 1 + 1 * 0 = 0; rw [(whole_index t).2.2.2.2.2.2.2.2.2.2.2]

end Cert.KernelIdeal.ValueBranch

end
-- ==== Proof.KI.BranchTile.lean ====
/-
  One tile of the branch network and the head, read at an index over the extended reals. The branch network is the
  three-layer network on the tile's rows; the product of the one-hot (one where a row's id is the segment's number) with
  the table of means is the sum over segments of an indicator times the table's row; the last product is taken
  transposed, which commutes each term.
-/
import proofs.«404486_j82265803588247_3_alg».proof.Proof.Gen.KernelIdeal.Skeleton
import proofs.«404486_j82265803588247_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BranchTile

open Cert.KernelIdeal Cert.KernelIdeal.Gen Idealize.ShloMosaic Idealize.ShloMosaic.ValueIdx
open scoped BigOperators

/-! ## Layout: a column broadcast along its rows -/

/-- A column `[a, 1]` broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The rectifier and an affine layer's bias -/

/-- The larger of an entry and the zero pattern is the rectifier of the entry. -/
theorem relu_apply {s : Shape} (v : FVec Ideal s .f32) (i : s.Idx) :
    maximumf v (broadcast s (Scalar.ofBits .f32 0x00000000#32)) i = Spec.relu (v i) := by
  rw [maximumf_apply, broadcast_apply]
  show max (v i) (Ideal.ofBits .f32 0x00000000#32) = max (v i) 0
  rw [Ideal.ofBits_zero_f32]

/-- A bias `[b]` viewed as one row and broadcast over `a` rows reads, at `(p, c)`, the bias at `c`. -/
theorem bias_apply {a b : ℕ} (v : (⟨1, ![b]⟩ : Shape).Idx → EReal) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ v h) h' (ix2 p c) = v (ix1 c) := by
  rw [broadcastTo_1b_ab_apply, shapeCast_a_1a_apply]

/-! ## One term of the first layer: a column of the rows against a row of the weights -/

/-- Column `o` of `x` broadcast along the columns, times row `o` of `w` broadcast along the rows, reads at `(r, j)` the
    product of `x` at `(r, o)` and `w` at `(o, j)`. -/
theorem colRow_apply {n c m : ℕ} (o : ℕ) (x : FVec Ideal ⟨2, ![n, c]⟩ .f32) (w : FVec Ideal ⟨2, ![c, m]⟩ .f32)
    (hx : (⟨2, ![n, c]⟩ : Shape).Slices ![0, o] ⟨2, ![n, 1]⟩) (hw : (⟨2, ![c, m]⟩ : Shape).Slices ![o, 0] ⟨2, ![1, m]⟩)
    (hbx : (⟨2, ![n, 1]⟩ : Shape).Broadcasts ⟨2, ![n, m]⟩) (hbw : (⟨2, ![1, m]⟩ : Shape).Broadcasts ⟨2, ![n, m]⟩)
    (r : Fin n) (j : Fin m) (k : Fin c) (hk : k.val = o) :
    mulf (broadcastTo ⟨2, ![n, m]⟩ (extractStridedSlice ⟨2, ![n, 1]⟩ ![0, o] x hx) hbx : FVec Ideal ⟨2, ![n, m]⟩ .f32)
        (broadcastTo ⟨2, ![n, m]⟩ (extractStridedSlice ⟨2, ![1, m]⟩ ![o, 0] w hw) hbw) (ix2 r j)
      = x (ix2 r k) * w (ix2 k j) := by
  rw [mulf_apply, broadcastTo_a1_ab_apply, broadcastTo_1b_ab_apply,
    slice2_axis1_apply o x hx r (0 : Fin 1) k (by rw [hk]; rfl), slice2_axis0_apply o w hw (0 : Fin 1) j k (by rw [hk]; rfl)]

/-! ## The three products read at an index -/

theorem lhs_rows256_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_rows256_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_rows256_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_rows256_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The rows' 256-vectors against a 256 by 256 matrix, into zero: at `(r, j)` the sum over `k` of the row's entry `k` times
    the matrix at `(k, j)`. -/
theorem rows256_apply (h : FVec Ideal S4096x256 .bf16) (w : FVec Ideal S256x256 .bf16) (r : Fin 4096) (j : Fin 256) :
    matmul dot_S4096x256_S256x256_S4096x256_1_0_0_1_n_n none h w (constant (F := Ideal) S4096x256 .f32 0x00000000#32) (ix2 r j)
      = ∑ k : Fin 256, h (ix2 r k) * w (ix2 k j) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r j) ((contrEquiv1 dot_S4096x256_S256x256_S4096x256_1_0_0_1_n_n 256 rfl rfl).symm k) = ix2 r k := funext fun a => Fin.ext (by
    match a with
    | ⟨0, _⟩ => exact lhs_rows256_0 _ _
    | ⟨1, _⟩ => exact (lhs_rows256_1 _ _).trans hk)
  have er : dot_S4096x256_S256x256_S4096x256_1_0_0_1_n_n.rhsIdx (ix2 r j) ((contrEquiv1 dot_S4096x256_S256x256_S4096x256_1_0_0_1_n_n 256 rfl rfl).symm k) = ix2 k j := funext fun a => Fin.ext (by
    match a with
    | ⟨0, _⟩ => exact (rhs_rows256_0 _ _).trans hk
    | ⟨1, _⟩ => exact rhs_rows256_1 _ _)
  rw [el, er]

theorem lhs_seg64_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs_seg64_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
theorem rhs_seg64_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_seg64_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- The rows' 64-vectors against a 64 by 256 table, into zero: at `(r, j)` the sum over the 64 segments `b` of the row's
    entry `b` times the table at `(b, j)`. -/
theorem seg64_apply (h : FVec Ideal S4096x64 .bf16) (t : FVec Ideal S64x256 .bf16) (r : Fin 4096) (j : Fin 256) :
    matmul dot_S4096x64_S64x256_S4096x256_1_0_0_1_n_n none h t (constant (F := Ideal) S4096x256 .f32 0x00000000#32) (ix2 r j)
      = ∑ b : Fin 64, h (ix2 r b) * t (ix2 b j) := by
  simp only [matmul]
  rw [Ideal.matmul_constant_zero_apply, ← Equiv.sum_comp (contrEquiv1 dot_S4096x64_S64x256_S4096x256_1_0_0_1_n_n 64 rfl rfl).symm]
  refine Finset.sum_congr rfl fun k _ => ?_
  have hk := contrEquiv1_symm_val dot_S4096x64_S64x256_S4096x256_1_0_0_1_n_n 64 rfl rfl k
  have el : dot_S4096x64_S64x256_S4096x256_1_0_0_1_n_n.lhsIdx (ix2 r j) ((contrEquiv1 dot_S4096x64_S64x256_S4096x256_1_0_0_1_n_n 64 rfl rfl).symm k) = ix2 r k := funext fun a => Fin.ext (by
    match a with
    | ⟨0, _⟩ => exact lhs_seg64_0 _ _
    | ⟨1, _⟩ => exact (lhs_seg64_1 _ _).trans hk)
  have er : dot_S4096x64_S64x256_S4096x256_1_0_0_1_n_n.rhsIdx (ix2 r j) ((contrEquiv1 dot_S4096x64_S64x256_S4096x256_1_0_0_1_n_n 64 rfl rfl).symm k) = ix2 k j := funext fun a => Fin.ext (by
    match a with
    | ⟨0, _⟩ => exact (rhs_seg64_0 _ _).trans hk
    | ⟨1, _⟩ => exact rhs_seg64_1 _ _)
  rw [el, er]

theorem lhs_headT_0 (i : S3x4096.Idx) (q : dot_S256x3_S4096x256_S3x4096_0_1_1_0_n_n.contr.Idx) :
    (dot_S256x3_S4096x256_S3x4096_0_1_1_0_n_n.lhsIdx i q 0).val = (q ⟨0, by decide⟩).val :=
  dot_S256x3_S4096x256_S3x4096_0_1_1_0_n_n.lhsIdx_val_of_single rfl i q
theorem lhs_headT_1 (i : S3x4096.Idx) (q : dot_S256x3_S4096x256_S3x4096_0_1_1_0_n_n.contr.Idx) :
    (dot_S256x3_S4096x256_S3x4096_0_1_1_0_n_n.lhsIdx i q 1).val = (i 0).val := by
  unfold DotDims.lhsIdx
  rw [dif_neg (show ¬(1 : Fin S256x3.rank) ∈ dot_S256x3_S4096x256_S3x4096_0_1_1_0_n_n.lhsBatch by decide), dif_pos (show (1 : Fin S256x3.rank) ∈ dot_S256x3_S4096x256_S3x4096_0_1_1_0_n_n.lhsNonContracting by decide)]
  rfl
theorem rhs_headT_0 (i : S3x4096.Idx) (q : dot_S256x3_S4096x256_S3x4096_0_1_1_0_n_n.contr.Idx) :
    (dot_S256x3_S4096x256_S3x4096_0_1_1_0_n_n.rhsIdx i q 0).val = (i 1).val := by
  unfold DotDims.rhsIdx
  rw [dif_neg (show ¬(0 : Fin S4096x256.rank) ∈ dot_S256x3_S4096x256_S3x4096_0_1_1_0_n_n.rhsBatch by decide), dif_pos (show (0 : Fin S4096x256.rank) ∈ dot_S256x3_S4096x256_S3x4096_0_1_1_0_n_n.rhsNonContracting by decide)]
  rfl
theorem rhs_headT_1 (i : S3x4096.Idx) (q : dot_S256x3_S4096x256_S3x4096_0_1_1_0_n_n.contr.Idx) :
    (dot_S256x3_S4096x256_S3x4096_0_1_1_0_n_n.rhsIdx i q 1).val = (q ⟨0, by decide⟩).val :=
  dot_S256x3_S4096x256_S3x4096_0_1_1_0_n_n.rhsIdx_val_of_single rfl i q

/-- The last product, taken transposed: the 256 by 3 weights contracted along their rows against the rows' 256-vectors
    contracted along their entries, into zero: at `(o, r)` the sum over `k` of the weight at `(k, o)` times row `r`'s entry `k`. -/
theorem headT_apply (w : FVec Ideal S256x3 .bf16) (h : FVec Ideal S4096x256 .bf16) (o : Fin 3) (r : Fin 4096) :
    matmul dot_S256x3_S4096x256_S3x4096_0_1_1_0_n_n none w h (constant (F := Ideal) S3x4096 .f32 0x00000000#32) (ix2 o r)
      = ∑ k : Fin 256, w (ix2 k o) * h (ix2 r k) := by
  simp only [matmul]
  rw [Ideal.matmul_constant_zero_apply, ← Equiv.sum_comp (contrEquiv1 dot_S256x3_S4096x256_S3x4096_0_1_1_0_n_n 256 rfl rfl).symm]
  refine Finset.sum_congr rfl fun k _ => ?_
  have hk := contrEquiv1_symm_val dot_S256x3_S4096x256_S3x4096_0_1_1_0_n_n 256 rfl rfl k
  have el : dot_S256x3_S4096x256_S3x4096_0_1_1_0_n_n.lhsIdx (ix2 o r) ((contrEquiv1 dot_S256x3_S4096x256_S3x4096_0_1_1_0_n_n 256 rfl rfl).symm k) = ix2 k o := funext fun a => Fin.ext (by
    match a with
    | ⟨0, _⟩ => exact (lhs_headT_0 _ _).trans hk
    | ⟨1, _⟩ => exact lhs_headT_1 _ _)
  have er : dot_S256x3_S4096x256_S3x4096_0_1_1_0_n_n.rhsIdx (ix2 o r) ((contrEquiv1 dot_S256x3_S4096x256_S3x4096_0_1_1_0_n_n 256 rfl rfl).symm k) = ix2 r k := funext fun a => Fin.ext (by
    match a with
    | ⟨0, _⟩ => exact rhs_headT_0 _ _
    | ⟨1, _⟩ => exact (rhs_headT_1 _ _).trans hk)
  rw [el, er]

/-! ## The one-hot of the ids -/

/-- A 32-bit word is the word of a number below 64 exactly when it reads, signed, as that number. -/
theorem eq_ofNat_iff_toInt (s : BitVec 32) (b : Fin 64) : s = BitVec.ofNat 32 b.val ↔ s.toInt = (b.val : ℤ) := by
  have hb := b.isLt
  have h1 : (BitVec.ofNat 32 b.val).toInt = (b.val : ℤ) := by
    rw [BitVec.toInt_eq_toNat_cond, BitVec.toNat_ofNat]
    omega
  constructor
  · rintro rfl; exact h1
  · intro h; exact BitVec.eq_of_toInt_eq (h.trans h1.symm)

/-- One entry of the one-hot: the comparison's bit, widened and read as a number, is one when the id reads as `b` and zero
    otherwise. -/
theorem onehot_word (s : BitVec 32) (b : Fin 64) :
    (FloatOps.sitofp (F := Ideal) .f32 ((IntOp.cmpi .eq s (BitVec.ofNat 32 b.val)).setWidth 32) : EReal)
      = if s.toInt = (b.val : ℤ) then 1 else 0 := by
  by_cases h : s = BitVec.ofNat 32 b.val
  · rw [if_pos ((eq_ofNat_iff_toInt s b).mp h)]
    have hc : IntOp.cmpi .eq s (BitVec.ofNat 32 b.val) = 1#1 := by
      show BitVec.ofBool (s == BitVec.ofNat 32 b.val) = 1#1
      rw [beq_iff_eq.mpr h]; rfl
    rw [hc]
    show (((1#1 : BitVec 1).setWidth 32).toInt : ℝ) = (1 : EReal)
    have : ((1#1 : BitVec 1).setWidth 32).toInt = 1 := by decide
    rw [this]; simp
  · rw [if_neg (fun h' => h ((eq_ofNat_iff_toInt s b).mpr h'))]
    have hc : IntOp.cmpi .eq s (BitVec.ofNat 32 b.val) = 0#1 := by
      show BitVec.ofBool (s == BitVec.ofNat 32 b.val) = 0#1
      rw [beq_eq_false_iff_ne.mpr h]; rfl
    rw [hc]
    show (((0#1 : BitVec 1).setWidth 32).toInt : ℝ) = (0 : EReal)
    have : ((0#1 : BitVec 1).setWidth 32).toInt = 0 := by decide
    rw [this]; simp

/-- The one-hot at `(r, b)`: one when row `r`'s id reads as `b`, zero otherwise. -/
theorem onehot_apply (seg : Vec Ideal S4096x1 .i32) (hc : S4096x1.ShapeCasts S4096x1) (hi : S4096x64.Iotas .tc 32 [1])
    (hb : S4096x1.Broadcasts S4096x64) (h1 : 1 < 32) (hbits : FTy.bits .bf16 < FTy.bits .f32) (r : Fin 4096) (b : Fin 64) :
    (truncf .bf16 (sitofp .f32 (extui 32 (cmpi .eq (broadcastTo S4096x64 (shapeCast S4096x1 seg hc) hb)
        (iota .tc S4096x64 32 [1] hi)) h1) : FVec Ideal S4096x64 .f32) hbits : FVec Ideal S4096x64 .bf16) (ix2 r b)
      = if (seg (ix2 r 0)).toInt = (b.val : ℤ) then 1 else 0 := by
  rw [truncf_apply, sitofp_apply, extui_apply]
  show FloatOps.sitofp (F := Ideal) .f32 ((IntOp.cmpi .eq (broadcastTo S4096x64 (shapeCast S4096x1 seg hc) hb (ix2 r b))
      (iota .tc S4096x64 32 [1] hi (ix2 r b))).setWidth 32) = _
  rw [broadcastTo_a1_ab_apply, shapeCast_self, iota_single_apply]
  exact onehot_word (seg (ix2 r 0)) b

/-! ## One 256-wide affine layer on the rows -/

/-- A 256-wide layer of the tile: the rows' vectors `h` against the weights plus the bias is the affine layer of the
    specification on any table `g` the vectors are known to be. -/
theorem layer_apply (h : FVec Ideal S4096x256 .f32) (g : Fin 4096 → Fin 256 → EReal) (w : Vec Ideal S256x256 .bf16)
    (b : Vec Ideal S256 .f32) (hbits : FTy.bits .bf16 < FTy.bits .f32) (hc : S256x256.ShapeCasts S256x256)
    (hc1 : S256.ShapeCasts S1x256) (hb : S1x256.Broadcasts S4096x256) (hg : ∀ i k, h (ix2 i k) = g i k)
    (r : Fin 4096) (j : Fin 256) :
    addf (matmul dot_S4096x256_S256x256_S4096x256_1_0_0_1_n_n none (truncf .bf16 h hbits) (shapeCast S256x256 w hc : FVec Ideal S256x256 .bf16)
        (constant (F := Ideal) S4096x256 .f32 0x00000000#32)) (broadcastTo S4096x256 (shapeCast S1x256 b hc1) hb) (ix2 r j)
      = Spec.lin g w b r j := by
  rw [addf_apply, rows256_apply, bias_apply, shapeCast_self]
  unfold Spec.lin
  refine congrArg (· + b (ix1 j)) (Finset.sum_congr rfl fun k _ => ?_)
  rw [truncf_apply, hg]

/-- The tile's branch vectors: the three-layer network on its rows. -/
theorem mlp_apply (x : Vec Ideal S4096x3 .f32) (w0 : Vec Ideal S3x256 .f32) (b0 : Vec Ideal S256 .f32)
    (w1 : Vec Ideal S256x256 .bf16) (b1 : Vec Ideal S256 .f32) (w2 : Vec Ideal S256x256 .bf16) (b2 : Vec Ideal S256 .f32)
    (r : Fin 4096) (j : Fin 256) :
    k1_pay2 (F := Ideal) x w0 b0 w1 b1 w2 b2 (ix2 r j) = Spec.mlp3 x w0 b0 w1 b1 w2 b2 r j := by
  unfold k1_pay2 Spec.mlp3
  refine layer_apply _ _ _ _ _ _ _ _ (fun i k => ?_) r j
  rw [relu_apply]
  refine congrArg Spec.relu (layer_apply _ _ _ _ _ _ _ _ (fun i k => ?_) i k)
  rw [relu_apply]
  refine congrArg Spec.relu ?_
  rw [addf_apply, addf_apply, addf_apply, bias_apply]
  unfold Spec.lin
  rw [Fin.sum_univ_three, colRow_apply 0 x w0 _ _ _ _ i k 0 rfl, colRow_apply 1 x w0 _ _ _ _ i k 1 rfl,
    colRow_apply 2 x w0 _ _ _ _ i k 2 rfl]

/-- The stored block at output `o`, row `r`: the head over the row's vector times the selected row of the table. -/
theorem out_apply (f : FVec Ideal S4096x256 .f32) (seg : Vec Ideal S4096x1 .i32) (sm : Vec Ideal S64x256 .bf16)
    (ow0 : Vec Ideal S256x256 .bf16) (ob0 : Vec Ideal S256 .f32) (ow1 : Vec Ideal S256x3 .bf16) (ob1 : Vec Ideal S3x1 .f32)
    (o : Fin 3) (r : Fin 4096) :
    k1_pay1 (F := Ideal) f seg sm ow0 ob0 ow1 ob1 (ix2 o r)
      = (∑ k : Fin 256, Spec.relu ((∑ j : Fin 256,
            (f (ix2 r j) * ∑ b : Fin 64, (if (seg (ix2 r 0)).toInt = (b.val : ℤ) then sm (ix2 b j) else 0)) * ow0 (ix2 j k))
            + ob0 (ix1 k)) * ow1 (ix2 k o)) + ob1 (ix2 o 0) := by
  unfold k1_pay1
  rw [addf_apply, headT_apply, broadcastTo_a1_ab_apply, shapeCast_self ob1, shapeCast_self ow1]
  refine congrArg (· + ob1 (ix2 o 0)) (Finset.sum_congr rfl fun k _ => ?_)
  rw [mul_comm, truncf_apply, relu_apply]
  refine congrArg (fun t => Spec.relu t * ow1 (ix2 k o)) ?_
  refine (layer_apply _ (fun i j => f (ix2 i j) * ∑ b : Fin 64, (if (seg (ix2 i 0)).toInt = (b.val : ℤ) then sm (ix2 b j) else 0))
    _ _ _ _ _ _ (fun i j => ?_) r k).trans rfl
  rw [mulf_apply, seg64_apply, shapeCast_self sm]
  refine congrArg (f (ix2 i j) * ·) (Finset.sum_congr rfl fun b _ => ?_)
  rw [onehot_apply, ite_mul, one_mul, zero_mul]

end Cert.KernelIdeal.BranchTile

end
-- ==== Proof.KI.ValueBranchTile.lean ====
/-
  One tile against the specification. The branch network at a row depends on that row of its input only, so a tile
  whose row `r` is node `i` computes the specification's branch vector of node `i`; the indicator sum over the 64
  segments is the specification's gathered mean once the tile's id at row `r` is node `i`'s; the head's two affine
  layers are the same sums on both sides.
-/
import proofs.«404486_j82265803588247_3_alg».proof.Proof.KI.BranchTile
import proofs.«404486_j82265803588247_3_alg».proof.Proof.Spec
import Idealize.ShloMosaic.Lib.ValueIdx

set_option maxRecDepth 16384

noncomputable section

namespace Cert.KernelIdeal.ValueBranch

open Cert.KernelIdeal Cert.KernelIdeal.Gen Idealize.ShloMosaic Idealize.ShloMosaic.ValueIdx
open scoped BigOperators

/-- The three-layer network at a row depends on that row of its input only. -/
theorem mlp3_row {n n' : ℕ} (x : Spec.Mat n 3) (x' : Spec.Mat n' 3) (w0 : Spec.Mat 3 256) (b0 : Spec.Vc 256) (w1 : Spec.Mat 256 256) (b1 : Spec.Vc 256)
    (w2 : Spec.Mat 256 256) (b2 : Spec.Vc 256) (r : Fin n) (i : Fin n') (h : ∀ d : Fin 3, x (ix2 r d) = x' (ix2 i d)) (j : Fin 256) :
    Spec.mlp3 x w0 b0 w1 b1 w2 b2 r j = Spec.mlp3 x' w0 b0 w1 b1 w2 b2 i j := by
  simp only [Spec.mlp3, Spec.lin, h]

/-- The stored block at output `o`, row `r` of a tile whose row `r` is node `i`: the specification's head at node `i`. -/
theorem tile_apply (sm : Fin 64 → Fin 256 → EReal)
    (x : Vec Ideal S4096x3 .f32) (seg : Vec Ideal S4096x1 .i32) (smv : Vec Ideal S64x256 .bf16) (ob1v : Vec Ideal S3x1 .f32)
    (X : Spec.Mat 262144 3) (SEG : Spec.IVc 262144)
    (w0 : Spec.Mat 3 256) (b0 : Spec.Vc 256) (w1 : Spec.Mat 256 256) (b1 : Spec.Vc 256) (w2 : Spec.Mat 256 256) (b2 : Spec.Vc 256)
    (ow0 : Spec.Mat 256 256) (ob0 : Spec.Vc 256) (ow1 : Spec.Mat 256 3) (OB1 : Spec.Vc 3)
    (o : Fin 3) (r : Fin 4096) (i : Fin 262144)
    (hx : ∀ d : Fin 3, x (ix2 r d) = X (ix2 i d)) (hseg : seg (ix2 r 0) = SEG (ix1 i))
    (hsm : ∀ (b : Fin 64) (j : Fin 256), smv (ix2 b j) = sm b j) (hob1 : ob1v (ix2 o 0) = OB1 (ix1 o)) :
    k1_pay1 (F := Ideal) (k1_pay2 (F := Ideal) x w0 b0 w1 b1 w2 b2) seg smv ow0 ob0 ow1 ob1v (ix2 o r)
      = Spec.outWith sm X SEG w0 b0 w1 b1 w2 b2 ow0 ob0 ow1 OB1 i o := by
  rw [BranchTile.out_apply]
  simp only [Spec.outWith, Spec.lin, Spec.gathered]
  refine congrArg₂ (· + ·) (Finset.sum_congr rfl fun k _ => ?_) hob1
  refine congrArg (· * ow1 (ix2 k o)) (congrArg Spec.relu ?_)
  refine congrArg (· + ob0 (ix1 k)) (Finset.sum_congr rfl fun j _ => ?_)
  refine congrArg (· * ow0 (ix2 j k)) ?_
  refine congrArg₂ (· * ·) ?_ (Finset.sum_congr rfl fun b _ => ?_)
  · exact (BranchTile.mlp_apply x w0 b0 w1 b1 w2 b2 r j).trans (mlp3_row x X w0 b0 w1 b1 w2 b2 r i hx j)
  · exact if_congr (by rw [hseg]; exact Iff.rfl) (hsm b j) rfl

end Cert.KernelIdeal.ValueBranch

end
-- ==== Proof.KI.ValueBranch.lean ====
/-
  The result buffer from whatever table of segment means region 1 finds. Tile `t` of region 1 writes the transposed
  block of columns 4096 t … 4096 t + 4095: at a known node the branch network's vector, times the row of the table
  its one-hot selects (the sum over the 64 segments of an indicator times the row), through the two-layer head; the last
  host operation transposes the 3 x 262144 array back. Every point writes its block back and column q lies in the block
  of point q / 4096, so the blocks tile the array and it ends holding one function of the launched arguments.
-/
import proofs.«404486_j82265803588247_3_alg».proof.Proof.KI.Whole
import proofs.«404486_j82265803588247_3_alg».proof.Proof.KI.Args
import proofs.«404486_j82265803588247_3_alg».proof.Proof.KI.ValueBranchBlocks
import proofs.«404486_j82265803588247_3_alg».proof.Proof.KI.ValueBranchTile
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.ValueBranch

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ) (c : Dev nD)

/-- The transposed result as one function of the launched arguments: entry (o, q) is the head at node q, output o. -/
def headT (sm : Fin 64 → Fin 256 → EReal) : S3x262144.Idx → EReal :=
  fun q => Args.outWith m c sm ⟨(q 1).val, idx2_lt1 q⟩ ⟨(q 0).val, idx2_lt0 q⟩

/-- What the body stores at point `t`, read at output `o`, row `r`: the head at node 4096 t + r. -/
theorem outBlk_apply (sm : Fin 64 → Fin 256 → EReal)
    (hsm : ∀ (b : Fin 64) (h : Fin 256), (Whole.W3 (F := Ideal) m c (Proc.devRef .tc main_v17) : S64x256.Idx → EReal) (ix2 b h) = sm b h)
    (t : Fin cfg1.N) (o : Fin 3) (r : Fin 4096) (i : Fin 262144) (hi : i.val = 4096 * t.val + r.val) :
    (Branch.outBlk (Whole.V3 (F := Ideal) m) c t : S3x4096.Idx → EReal) (ix2 o r) = Args.outWith m c sm i o := by
  unfold Branch.outBlk
  rw [blk2_eq m c t, blk3_eq m c t, blk4_eq m c t, blk5_eq m c t, blk6_eq m c t, blk7_eq m c t, blk9_eq m c t, blk10_eq m c t, blk11_eq m c t]
  exact tile_apply sm _ _ _ _ (m ((c : Thread nD τ).loc main_arg0)) (m ((c : Thread nD τ).loc main_arg2)) _ _ _ _ _ _ _ _ _ (m ((c : Thread nD τ).loc main_arg19)) o r i
    (fun d => blk0_apply m c t r d i hi) (blk1_apply m c t r i hi) (fun b j => (blk8_apply m c t b j).trans (hsm b j)) (blk12_apply m c t o)

/-- WHAT POINT `t` WRITES BACK is block `t` of `headT`. -/
theorem written_eq (sm : Fin 64 → Fin 256 → EReal)
    (hsm : ∀ (b : Fin 64) (h : Fin 256), (Whole.W3 (F := Ideal) m c (Proc.devRef .tc main_v17) : S64x256.Idx → EReal) (ix2 b h) = sm b h)
    (t : Fin cfg1.N) :
    (Branch.dat1 (Whole.V3 (F := Ideal) m) c).flushed 13 t = ((cfg1.win 13).blk t).view.read (Elt Ideal) (headT m c sm) := by
  show (cfg1.win 13).cut (grid1.coords t) ((Branch.dat1 (Whole.V3 (F := Ideal) m) c).after 13 t) = _
  rw [Branch.after1_13]
  funext y
  obtain ⟨o, r, rfl⟩ : ∃ (o : Fin 3) (r : Fin 4096), y = ix2 o r := ⟨y 0, y 1, eq_ix2 y⟩
  rw [View.read_apply]
  have e0 : ((((cfg1.win 13).blk t).view.emb (ix2 o r)) 0).val = o.val := by
    show win1_13.index t (0 : Fin 2) * 3 + 1 * o.val = o.val; rw [(tile_index t).2.2.2.2.1]; omega
  have e1 : ((((cfg1.win 13).blk t).view.emb (ix2 o r)) 1).val = 4096 * t.val + r.val := by
    show win1_13.index t (1 : Fin 2) * 4096 + 1 * r.val = _; rw [(tile_index t).2.2.2.2.2]; omega
  show (Branch.outBlk (Whole.V3 (F := Ideal) m) c t : S3x4096.Idx → EReal) (ix2 o r) = headT m c sm (((cfg1.win 13).blk t).view.emb (ix2 o r))
  unfold headT
  exact (outBlk_apply m c sm hsm t o r ⟨_, _⟩ e1).trans (congrArg (Args.outWith m c sm _) (Fin.ext e0.symm))

/-- An index of the array is in point `t`'s block iff each coordinate is in the block's range on its axis. -/
theorem mem_tile (t : Fin cfg1.N) (q : S3x262144.Idx) :
    q ∈ ((cfg1.win 13).blk t).view.set ↔ ∀ a : Fin 2, win1_13.index t a * S3x4096.size a ≤ (q a).val ∧ (q a).val < win1_13.index t a * S3x4096.size a + S3x4096.size a := by
  show q ∈ ((View.whole main_v18).slice (win1_13.rect t)).set ↔ _
  rw [View.set_slice_whole, Rect.mem_set_unit]
  exact Iff.rfl

/-- The blocks tile the array: column q is in the block of point q / 4096. -/
theorem tiles_cover (q : S3x262144.Idx) : ∃ t : Fin cfg1.N, (cfg1.win 13).flush t = true ∧ q ∈ ((cfg1.win 13).blk t).view.set := by
  have h0 : (q 0).val < 3 := idx2_lt0 q
  have h1 : (q 1).val < 262144 := idx2_lt1 q
  refine ⟨⟨(q 1).val / 4096, by rw [show cfg1.N = 64 from N_1]; omega⟩, flush1_13 _, ?_⟩
  rw [mem_tile]
  intro a
  match a with
  | ⟨0, _⟩ => show win1_13.index _ (0 : Fin 2) * 3 ≤ (q 0).val ∧ (q 0).val < win1_13.index _ (0 : Fin 2) * 3 + 3; rw [(tile_index _).2.2.2.2.1]; omega
  | ⟨1, _⟩ => show win1_13.index _ (1 : Fin 2) * 4096 ≤ (q 1).val ∧ (q 1).val < win1_13.index _ (1 : Fin 2) * 4096 + 4096; rw [(tile_index _).2.2.2.2.2]; show (q 1).val / 4096 * 4096 ≤ (q 1).val ∧ (q 1).val < (q 1).val / 4096 * 4096 + 4096; omega

/-- THE ARRAY after region 1: `headT`. -/
theorem resultT_eq (sm : Fin 64 → Fin 256 → EReal)
    (hsm : ∀ (b : Fin 64) (h : Fin 256), (Whole.W3 (F := Ideal) m c (Proc.devRef .tc main_v17) : S64x256.Idx → EReal) (ix2 b h) = sm b h) :
    (Branch.dat1 (Whole.V3 (F := Ideal) m) c).arrAt 13 cfg1.N = headT m c sm :=
  (Branch.dat1 (Whole.V3 (F := Ideal) m) c).arrAt_eq_of_cover 13 (headT m c sm) (fun t _ => written_eq m c sm hsm t) tiles_cover

/-- If region 1 finds the table `sm` in `main_v17`, the result `main_v19` is the head over `sm` of the launched
    arguments, index by index. -/
theorem out_eq (sm : Fin 64 → Fin 256 → EReal)
    (hsm : ∀ (b : Fin 64) (h : Fin 256), (Whole.W3 (F := Ideal) m c (Proc.devRef .tc main_v17) : S64x256.Idx → EReal) (ix2 b h) = sm b h)
    (i : Fin 262144) (o : Fin 3) :
    (Whole.W5 (F := Ideal) m c (Proc.devRef .tc main_v19) : S262144x3.Idx → EReal) (ix2 i o) = Args.outWith m c sm i o := by
  show StableHlo.after hostOps2 (Whole.W4 (F := Ideal) m c) (Proc.devRef .tc main_v19) (ix2 i o) = _
  after_results
  refine (transpose_apply _ _ _ (ix2 i o) (ix2 o i) fun b => ?_).trans ?_
  · match b with
    | ⟨0, _⟩ => rfl
    | ⟨1, _⟩ => rfl
  · show (Whole.W4 (F := Ideal) m c (Proc.devRef .tc (Pipeline.arrRef spec1 13)) : S3x262144.Idx → EReal) (ix2 o i) = _
    rw [Whole.W4_arr, resultT_eq m c sm hsm]
    rfl

end Cert.KernelIdeal.ValueBranch

end
-- ==== Proof.KI.Value.lean ====
/-
  The idealized kernel's result is the specification's function of its launched arguments.
-/
import proofs.«404486_j82265803588247_3_alg».proof.Proof.KI.Whole
import proofs.«404486_j82265803588247_3_alg».proof.Proof.KI.Args
import proofs.«404486_j82265803588247_3_alg».proof.Proof.KI.ValueTrunk
import proofs.«404486_j82265803588247_3_alg».proof.Proof.KI.ValueBranch
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ) (c : Dev nD)

theorem result_eq (i : Fin 262144) (o : Fin 3) :
    (Whole.W5 (F := Ideal) m c (Proc.devRef .tc main_v19) : S262144x3.Idx → EReal) (ix2 i o) = Args.out m c i o :=
  (ValueBranch.out_eq m c (Args.trunkMean m c) (ValueTrunk.segMean_eq m c) i o).trans (Args.out_eq m c i o).symm

end Cert.KernelIdeal.Value

end
-- ==== Proof.Ref.Value.lean ====
/-
  The reference's result, read off its run stage by stage, is the specification's function of the arguments — where
  every known node's id is a segment's number. The reference sums the trunk's rows into segments by a scatter-add (an
  update whose id is no segment's number is dropped) and reads the means back by a gather whose index is the id, wrapped
  when negative and clamped into range: on ids in 0 … 63 that index is the id.
-/
import proofs.«404486_j82265803588247_3_alg».proof.Proof.Gen.ReferenceIdeal.Run
import proofs.«404486_j82265803588247_3_alg».proof.Proof.Gen.ReferenceIdeal.Read
import proofs.«404486_j82265803588247_3_alg».proof.Proof.Spec
import Idealize.ShloMosaic.Lib.StableHlo.Predicate

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.ValueIdx
open scoped BigOperators

/-! ## The scatter's dimension numbers, read at an index

Both scatters add a row of updates into the row of the table its id names: the updates' axis 0 runs over the nodes and
reads the id column, the table's axis 0 is the one the id addresses (and the updates have no axis for it), and the
updates' axis 1 is the table's axis 1. -/

/-- The dimension numbers of the scatter of the trunk's rows into the 64 × 256 table. -/
abbrev DS : ScatterDims S64x256 S262144x1 S262144x256 := scatter_S64x256_S262144x1_S262144x256_1_0_0_1

/-- On the table's axis 0 the window starts at the update row's id, read signed. -/
theorem DS_start0 (r : Fin 262144) (h' : Fin 256) (idx : IVec S262144x1 32) :
    DS.start (ix2 r h') idx 0 = (idx (ix2 r 0)).toInt := by
  unfold ScatterDims.start
  rw [dif_pos (show (0 : Fin S64x256.rank) ∈ DS.scatterDimsToOperandDims by decide)]
  refine congrArg (fun k => (idx k).toInt) (funext fun a => Fin.ext ?_)
  match a with
  | ⟨0, _⟩ => rfl
  | ⟨1, _⟩ => rfl

/-- On axis 1 it starts at 0: the ids do not address that axis. -/
theorem DS_start1 (j : S262144x256.Idx) (idx : IVec S262144x1 32) : DS.start j idx 1 = 0 := by
  unfold ScatterDims.start
  rw [dif_neg (show ¬(1 : Fin S64x256.rank) ∈ DS.scatterDimsToOperandDims by decide)]

/-- The window has no extent on axis 0 … -/
theorem DS_window0 (j : S262144x256.Idx) : DS.window j 0 = 0 := by
  unfold ScatterDims.window
  rw [dif_neg (show ¬(0 : Fin S64x256.rank) ∈ DS.sKept by decide)]

/-- … and on axis 1 its coordinate is the update's column. -/
theorem DS_window1 (r : Fin 262144) (h' : Fin 256) : DS.window (ix2 r h') 1 = h'.val := by
  unfold ScatterDims.window
  rw [dif_pos (show (1 : Fin S64x256.rank) ∈ DS.sKept by decide)]
  rfl

/-- Update (r, h') lands on table entry (b, h) exactly when row r's id is b and the columns agree; an id that is no
    segment's number lands nowhere. -/
theorem DS_result (r : Fin 262144) (h' : Fin 256) (idx : IVec S262144x1 32) (b : Fin 64) (h : Fin 256) :
    DS.resultIdx? (ix2 r h') idx = some (ix2 b h) ↔ (idx (ix2 r 0)).toInt = (b.val : ℤ) ∧ h' = h := by
  have hb := b.isLt
  have hh' := h'.isLt
  unfold ScatterDims.resultIdx?
  split
  · rename_i hall
    have h0 := hall 0
    rw [DS_start0, DS_window0] at h0
    rw [Option.some.injEq]
    constructor
    · intro e
      have e0 : (DS.start (ix2 r h') idx 0 + (DS.window (ix2 r h') 0 : ℕ)).toNat = b.val := congrArg (fun f => (f 0).val) e
      have e1 : (DS.start (ix2 r h') idx 1 + (DS.window (ix2 r h') 1 : ℕ)).toNat = h.val := congrArg (fun f => (f 1).val) e
      rw [DS_start0, DS_window0] at e0
      rw [DS_start1, DS_window1] at e1
      exact ⟨by omega, Fin.ext (by omega)⟩
    · rintro ⟨e0, rfl⟩
      refine funext (Fin.forall_fin_two.mpr ⟨Fin.ext ?_, Fin.ext ?_⟩)
      · show (DS.start (ix2 r h') idx 0 + (DS.window (ix2 r h') 0 : ℕ)).toNat = b.val
        rw [DS_start0, DS_window0]; omega
      · show (DS.start (ix2 r h') idx 1 + (DS.window (ix2 r h') 1 : ℕ)).toNat = h'.val
        rw [DS_start1, DS_window1]; omega
  · rename_i hnot
    constructor
    · intro e; cases e
    · rintro ⟨e0, rfl⟩
      refine absurd (Fin.forall_fin_two.mpr ⟨?_, ?_⟩) hnot
      · show 0 ≤ DS.start (ix2 r h') idx 0 + (DS.window (ix2 r h') 0 : ℕ) ∧ DS.start (ix2 r h') idx 0 + (DS.window (ix2 r h') 0 : ℕ) < ((64 : ℕ) : ℤ)
        rw [DS_start0, DS_window0]; omega
      · show 0 ≤ DS.start (ix2 r h') idx 1 + (DS.window (ix2 r h') 1 : ℕ) ∧ DS.start (ix2 r h') idx 1 + (DS.window (ix2 r h') 1 : ℕ) < ((256 : ℕ) : ℤ)
        rw [DS_start1, DS_window1]; omega

/-- The dimension numbers of the scatter of ones into the 64 × 1 table of counts: the same, with one column. -/
abbrev DC : ScatterDims S64x1 S262144x1 S262144x1 := scatter_S64x1_S262144x1_S262144x1_1_0_0_1

theorem DC_start0 (r : Fin 262144) (z : Fin 1) (idx : IVec S262144x1 32) :
    DC.start (ix2 r z) idx 0 = (idx (ix2 r 0)).toInt := by
  unfold ScatterDims.start
  rw [dif_pos (show (0 : Fin S64x1.rank) ∈ DC.scatterDimsToOperandDims by decide)]
  refine congrArg (fun k => (idx k).toInt) (funext fun a => Fin.ext ?_)
  match a with
  | ⟨0, _⟩ => rfl
  | ⟨1, _⟩ => rfl

theorem DC_start1 (j : S262144x1.Idx) (idx : IVec S262144x1 32) : DC.start j idx 1 = 0 := by
  unfold ScatterDims.start
  rw [dif_neg (show ¬(1 : Fin S64x1.rank) ∈ DC.scatterDimsToOperandDims by decide)]

theorem DC_window0 (j : S262144x1.Idx) : DC.window j 0 = 0 := by
  unfold ScatterDims.window
  rw [dif_neg (show ¬(0 : Fin S64x1.rank) ∈ DC.sKept by decide)]

theorem DC_window1 (r : Fin 262144) (z : Fin 1) : DC.window (ix2 r z) 1 = 0 := by
  unfold ScatterDims.window
  rw [dif_pos (show (1 : Fin S64x1.rank) ∈ DC.sKept by decide)]
  show z.val = 0
  omega

/-- The one of row r lands on the count of segment b exactly when row r's id is b. -/
theorem DC_result (r : Fin 262144) (z : Fin 1) (idx : IVec S262144x1 32) (b : Fin 64) :
    DC.resultIdx? (ix2 r z) idx = some (ix2 b 0) ↔ (idx (ix2 r 0)).toInt = (b.val : ℤ) := by
  have hb := b.isLt
  unfold ScatterDims.resultIdx?
  split
  · rename_i hall
    have h0 := hall 0
    rw [DC_start0, DC_window0] at h0
    rw [Option.some.injEq]
    constructor
    · intro e
      have e0 : (DC.start (ix2 r z) idx 0 + (DC.window (ix2 r z) 0 : ℕ)).toNat = b.val := congrArg (fun f => (f 0).val) e
      rw [DC_start0, DC_window0] at e0
      omega
    · intro e0
      refine funext (Fin.forall_fin_two.mpr ⟨Fin.ext ?_, Fin.ext ?_⟩)
      · show (DC.start (ix2 r z) idx 0 + (DC.window (ix2 r z) 0 : ℕ)).toNat = b.val
        rw [DC_start0, DC_window0]; omega
      · show (DC.start (ix2 r z) idx 1 + (DC.window (ix2 r z) 1 : ℕ)).toNat = 0
        rw [DC_start1, DC_window1]; omega
  · rename_i hnot
    constructor
    · intro e; cases e
    · intro e0
      refine absurd (Fin.forall_fin_two.mpr ⟨?_, ?_⟩) hnot
      · show 0 ≤ DC.start (ix2 r z) idx 0 + (DC.window (ix2 r z) 0 : ℕ) ∧ DC.start (ix2 r z) idx 0 + (DC.window (ix2 r z) 0 : ℕ) < ((64 : ℕ) : ℤ)
        rw [DC_start0, DC_window0]; omega
      · show 0 ≤ DC.start (ix2 r z) idx 1 + (DC.window (ix2 r z) 1 : ℕ) ∧ DC.start (ix2 r z) idx 1 + (DC.window (ix2 r z) 1 : ℕ) < ((1 : ℕ) : ℤ)
        rw [DC_start1, DC_window1]; omega

/-! ## The two scatter-adds at an index: a sum over the rows whose id is the segment's number -/

/-- Entry (b, h) of the scatter-add of the rows of `upd` by the ids `idx` into `x`: the entry of `x` plus column h
    of `upd` summed over the rows whose id is b. -/
theorem scatter_rows (x : S64x256.Idx → EReal) (idx : IVec S262144x1 32) (upd : S262144x256.Idx → EReal)
    (b : Fin 64) (h : Fin 256) :
    Ideal.hostScatterAdd DS x idx upd (ix2 b h)
      = x (ix2 b h) + ∑ r : Fin 262144, if (idx (ix2 r 0)).toInt = (b.val : ℤ) then upd (ix2 r h) else 0 := by
  unfold Ideal.hostScatterAdd
  rw [Finset.sum_filter, sum_idx2]
  refine congrArg (fun s => x (ix2 b h) + s) (Finset.sum_congr rfl fun r _ => ?_)
  simp only [DS_result]
  by_cases hq : (idx (ix2 r 0)).toInt = (b.val : ℤ)
  · simp only [hq, true_and, if_true]
    rw [Finset.sum_ite_eq' Finset.univ h (fun h' => upd (ix2 r h')), if_pos (Finset.mem_univ h)]
  · simp only [hq, false_and, if_false, Finset.sum_const_zero]

/-- Entry (b, 0) of the scatter-add of a column of `upd` by the ids into `x`. -/
theorem scatter_col (x : S64x1.Idx → EReal) (idx : IVec S262144x1 32) (upd : S262144x1.Idx → EReal) (b : Fin 64) :
    Ideal.hostScatterAdd DC x idx upd (ix2 b 0)
      = x (ix2 b 0) + ∑ r : Fin 262144, if (idx (ix2 r 0)).toInt = (b.val : ℤ) then upd (ix2 r 0) else 0 := by
  unfold Ideal.hostScatterAdd
  rw [Finset.sum_filter, sum_idx2]
  refine congrArg (fun s => x (ix2 b 0) + s) (Finset.sum_congr rfl fun r _ => ?_)
  simp only [DC_result]
  rw [Fin.sum_univ_one]

/-! ## The gather's dimension numbers, read at an index

The gather reads, for node i and column h, the table's row named by node i's start index — read signed and clamped into
0 … 63 — at column h: the table's axis 0 is collapsed and start-indexed, its axis 1 is the result's offset axis. -/

/-- The dimension numbers of the gather of the 64 × 256 table of means by the wrapped ids. -/
abbrev DG : GatherDims S64x256 S262144x1 S262144x256 := gather_S64x256_S262144x1_S262144x256_1_0_n_n_0_1_1256

/-- A start index read signed and clamped into the table's rows 0 … 63. -/
def clampRow (w : BitVec 32) : Fin 64 := ⟨min w.toInt.toNat 63, by omega⟩

/-- A word whose signed value is a row's number clamps to that row. -/
theorem clampRow_of (w : BitVec 32) (b : Fin 64) (hw : w.toInt = (b.val : ℤ)) : clampRow w = b := by
  have hb := b.isLt
  refine Fin.ext ?_
  show min w.toInt.toNat 63 = b.val
  omega

/-- The gather at (i, h) is the table at row `clampRow` of node i's start index, column h. -/
theorem gather_row {α : Type} (x : S64x256.Idx → α) (idx : IVec S262144x1 32) (i : Fin 262144) (h : Fin 256) :
    Host.gather DG x idx (ix2 i h) = x (ix2 (clampRow (idx (ix2 i 0))) h) := by
  unfold Host.gather
  refine congrArg x (funext (Fin.forall_fin_two.mpr ⟨Fin.ext ?_, Fin.ext ?_⟩))
  · show DG.start (ix2 i h) idx 0 + DG.batchCoord (ix2 i h) 0 + DG.offCoord (ix2 i h) 0 = min (idx (ix2 i 0)).toInt.toNat 63
    rw [GatherDims.batchCoord_eq_zero _ _ _ (show ¬(0 : Fin S64x256.rank) ∈ DG.operandBatchingDims by decide),
      GatherDims.offCoord_eq_zero _ _ _ (show ¬(0 : Fin S64x256.rank) ∈ DG.sKept by decide)]
    unfold GatherDims.start
    rw [dif_pos (show (0 : Fin S64x256.rank) ∈ DG.startIndexMap by decide)]
    show min (idx _).toInt.toNat (64 - 1) = _
    refine congrArg (fun k => min (idx k).toInt.toNat 63) (funext fun a => Fin.ext ?_)
    match a with
    | ⟨0, _⟩ => rfl
    | ⟨1, _⟩ => rfl
  · show DG.start (ix2 i h) idx 1 + DG.batchCoord (ix2 i h) 1 + DG.offCoord (ix2 i h) 1 = h.val
    rw [GatherDims.batchCoord_eq_zero _ _ _ (show ¬(1 : Fin S64x256.rank) ∈ DG.operandBatchingDims by decide)]
    unfold GatherDims.start GatherDims.offCoord
    rw [dif_neg (show ¬(1 : Fin S64x256.rank) ∈ DG.startIndexMap by decide),
      dif_pos (show (1 : Fin S64x256.rank) ∈ DG.sKept by decide)]
    show 0 + 0 + h.val = h.val
    omega

/-! ## The stages' index functions at an index built from coordinates

A product of a matrix of rows by a weight matrix reads, for entry (i, j) and contraction position k, the row entry
(i, k) and the weight entry (k, j); a bias vector laid along the rows reads, at (i, j), its entry j. -/

theorem lidx_v0 (i : Fin 262144) (j : Fin 256) (k : Fin 3) : Read.lidx_main_v0 (ix2 i j) k = ix2 i k :=
  funext fun a => Fin.ext (by match a with | ⟨0, _⟩ => rfl | ⟨1, _⟩ => rfl)
theorem ridx_v0 (i : Fin 262144) (j : Fin 256) (k : Fin 3) : Read.ridx_main_v0 (ix2 i j) k = ix2 k j :=
  funext fun a => Fin.ext (by match a with | ⟨0, _⟩ => rfl | ⟨1, _⟩ => rfl)
theorem idx_v2 (i : Fin 262144) (j : Fin 256) : Read.idx_main_v2 (ix2 i j) = ix2 (0 : Fin 1) j :=
  funext fun a => Fin.ext (by match a with | ⟨0, _⟩ => rfl | ⟨1, _⟩ => rfl)
theorem idx_v1 (z : Fin 1) (j : Fin 256) : Read.idx_main_v1 (ix2 z j) = ix1 j :=
  funext fun a => Fin.ext (by match a with | ⟨0, _⟩ => rfl)
theorem lidx_v5 (i : Fin 262144) (j : Fin 256) (k : Fin 256) : Read.lidx_main_v5 (ix2 i j) k = ix2 i k :=
  funext fun a => Fin.ext (by match a with | ⟨0, _⟩ => rfl | ⟨1, _⟩ => rfl)
theorem ridx_v5 (i : Fin 262144) (j : Fin 256) (k : Fin 256) : Read.ridx_main_v5 (ix2 i j) k = ix2 k j :=
  funext fun a => Fin.ext (by match a with | ⟨0, _⟩ => rfl | ⟨1, _⟩ => rfl)
theorem idx_v7 (i : Fin 262144) (j : Fin 256) : Read.idx_main_v7 (ix2 i j) = ix2 (0 : Fin 1) j :=
  funext fun a => Fin.ext (by match a with | ⟨0, _⟩ => rfl | ⟨1, _⟩ => rfl)
theorem idx_v6 (z : Fin 1) (j : Fin 256) : Read.idx_main_v6 (ix2 z j) = ix1 j :=
  funext fun a => Fin.ext (by match a with | ⟨0, _⟩ => rfl)
theorem lidx_v10 (i : Fin 262144) (j : Fin 256) (k : Fin 256) : Read.lidx_main_v10 (ix2 i j) k = ix2 i k :=
  funext fun a => Fin.ext (by match a with | ⟨0, _⟩ => rfl | ⟨1, _⟩ => rfl)
theorem ridx_v10 (i : Fin 262144) (j : Fin 256) (k : Fin 256) : Read.ridx_main_v10 (ix2 i j) k = ix2 k j :=
  funext fun a => Fin.ext (by match a with | ⟨0, _⟩ => rfl | ⟨1, _⟩ => rfl)
theorem idx_v12 (i : Fin 262144) (j : Fin 256) : Read.idx_main_v12 (ix2 i j) = ix2 (0 : Fin 1) j :=
  funext fun a => Fin.ext (by match a with | ⟨0, _⟩ => rfl | ⟨1, _⟩ => rfl)
theorem idx_v11 (z : Fin 1) (j : Fin 256) : Read.idx_main_v11 (ix2 z j) = ix1 j :=
  funext fun a => Fin.ext (by match a with | ⟨0, _⟩ => rfl)
theorem lidx_v14 (i : Fin 262144) (j : Fin 256) (k : Fin 3) : Read.lidx_main_v14 (ix2 i j) k = ix2 i k :=
  funext fun a => Fin.ext (by match a with | ⟨0, _⟩ => rfl | ⟨1, _⟩ => rfl)
theorem ridx_v14 (i : Fin 262144) (j : Fin 256) (k : Fin 3) : Read.ridx_main_v14 (ix2 i j) k = ix2 k j :=
  funext fun a => Fin.ext (by match a with | ⟨0, _⟩ => rfl | ⟨1, _⟩ => rfl)
theorem idx_v16 (i : Fin 262144) (j : Fin 256) : Read.idx_main_v16 (ix2 i j) = ix2 (0 : Fin 1) j :=
  funext fun a => Fin.ext (by match a with | ⟨0, _⟩ => rfl | ⟨1, _⟩ => rfl)
theorem idx_v15 (z : Fin 1) (j : Fin 256) : Read.idx_main_v15 (ix2 z j) = ix1 j :=
  funext fun a => Fin.ext (by match a with | ⟨0, _⟩ => rfl)
theorem lidx_v19 (i : Fin 262144) (j : Fin 256) (k : Fin 256) : Read.lidx_main_v19 (ix2 i j) k = ix2 i k :=
  funext fun a => Fin.ext (by match a with | ⟨0, _⟩ => rfl | ⟨1, _⟩ => rfl)
theorem ridx_v19 (i : Fin 262144) (j : Fin 256) (k : Fin 256) : Read.ridx_main_v19 (ix2 i j) k = ix2 k j :=
  funext fun a => Fin.ext (by match a with | ⟨0, _⟩ => rfl | ⟨1, _⟩ => rfl)
theorem idx_v21 (i : Fin 262144) (j : Fin 256) : Read.idx_main_v21 (ix2 i j) = ix2 (0 : Fin 1) j :=
  funext fun a => Fin.ext (by match a with | ⟨0, _⟩ => rfl | ⟨1, _⟩ => rfl)
theorem idx_v20 (z : Fin 1) (j : Fin 256) : Read.idx_main_v20 (ix2 z j) = ix1 j :=
  funext fun a => Fin.ext (by match a with | ⟨0, _⟩ => rfl)
theorem lidx_v24 (i : Fin 262144) (j : Fin 256) (k : Fin 256) : Read.lidx_main_v24 (ix2 i j) k = ix2 i k :=
  funext fun a => Fin.ext (by match a with | ⟨0, _⟩ => rfl | ⟨1, _⟩ => rfl)
theorem ridx_v24 (i : Fin 262144) (j : Fin 256) (k : Fin 256) : Read.ridx_main_v24 (ix2 i j) k = ix2 k j :=
  funext fun a => Fin.ext (by match a with | ⟨0, _⟩ => rfl | ⟨1, _⟩ => rfl)
theorem idx_v26 (i : Fin 262144) (j : Fin 256) : Read.idx_main_v26 (ix2 i j) = ix2 (0 : Fin 1) j :=
  funext fun a => Fin.ext (by match a with | ⟨0, _⟩ => rfl | ⟨1, _⟩ => rfl)
theorem idx_v25 (z : Fin 1) (j : Fin 256) : Read.idx_main_v25 (ix2 z j) = ix1 j :=
  funext fun a => Fin.ext (by match a with | ⟨0, _⟩ => rfl)

/-! ## The two three-layer networks -/

/-- The branch network's last stage at (i, j) is the specification's network on the known nodes. -/
theorem branch_eq (x0 : Spec.Mat 262144 3) (x4 : Spec.Mat 3 256) (x5 : Spec.Vc 256) (x6 : Spec.Mat 256 256) (x7 : Spec.Vc 256)
    (x8 : Spec.Mat 256 256) (x9 : Spec.Vc 256) (i : Fin 262144) (j : Fin 256) :
    Read.val_main_v13 (F := Ideal) x0 x4 x5 x6 x7 x8 x9 (ix2 i j) = Spec.mlp3 x0 x4 x5 x6 x7 x8 x9 i j := by
  simp only [Spec.mlp3, Spec.lin, Spec.relu, Read.val_main_v13_apply, Read.val_main_v10_apply, Read.val_main_v12_apply, Read.val_main_v11_apply, Read.val_main_v9_apply, Read.val_main_call1_v0_apply, Read.val_main_call1_cst_apply, Read.val_main_v8_apply, Read.val_main_v5_apply, Read.val_main_v7_apply, Read.val_main_v6_apply, Read.val_main_v4_apply, Read.val_main_call0_v0_apply, Read.val_main_call0_cst_apply, Read.val_main_v3_apply, Read.val_main_v0_apply, Read.val_main_v2_apply, Read.val_main_v1_apply,
    lidx_v10, ridx_v10, idx_v12, idx_v11, lidx_v5, ridx_v5, idx_v7, idx_v6, lidx_v0, ridx_v0, idx_v2, idx_v1,
    Ideal.addf_def, Ideal.maximumf_def, Ideal.ofBits_def, Spec.zero_f32]

/-- The trunk network's last stage at (i, j) is the specification's network on the query nodes. -/
theorem trunk_eq (x1 : Spec.Mat 262144 3) (x10 : Spec.Mat 3 256) (x11 : Spec.Vc 256) (x12 : Spec.Mat 256 256) (x13 : Spec.Vc 256)
    (x14 : Spec.Mat 256 256) (x15 : Spec.Vc 256) (i : Fin 262144) (j : Fin 256) :
    Read.val_main_v27 (F := Ideal) x1 x10 x11 x12 x13 x14 x15 (ix2 i j) = Spec.mlp3 x1 x10 x11 x12 x13 x14 x15 i j := by
  simp only [Spec.mlp3, Spec.lin, Spec.relu, Read.val_main_v27_apply, Read.val_main_v24_apply, Read.val_main_v26_apply, Read.val_main_v25_apply, Read.val_main_v23_apply, Read.val_main_call3_v0_apply, Read.val_main_call3_cst_apply, Read.val_main_v22_apply, Read.val_main_v19_apply, Read.val_main_v21_apply, Read.val_main_v20_apply, Read.val_main_v18_apply, Read.val_main_call2_v0_apply, Read.val_main_call2_cst_apply, Read.val_main_v17_apply, Read.val_main_v14_apply, Read.val_main_v16_apply, Read.val_main_v15_apply,
    lidx_v24, ridx_v24, idx_v26, idx_v25, lidx_v19, ridx_v19, idx_v21, idx_v20, lidx_v14, ridx_v14, idx_v16, idx_v15,
    Ideal.addf_def, Ideal.maximumf_def, Ideal.ofBits_def, Spec.zero_f32]

/-! ## The segment sums, counts and means -/

theorem idx_v29 (r : Fin 262144) (z : Fin 1) : Read.idx_main_v29 (ix2 r z) = ix1 r :=
  funext fun a => Fin.ext (by match a with | ⟨0, _⟩ => rfl)
theorem idx_v33 (r : Fin 262144) (z : Fin 1) : Read.idx_main_v33 (ix2 r z) = ix1 r :=
  funext fun a => Fin.ext (by match a with | ⟨0, _⟩ => rfl)
theorem idx_v44 (r : Fin 262144) (z : Fin 1) : Read.idx_main_v44 (ix2 r z) = ix1 r :=
  funext fun a => Fin.ext (by match a with | ⟨0, _⟩ => rfl)
theorem idx_v37 (b : Fin 64) (h : Fin 256) : Read.idx_main_v37 (ix2 b h) = ix2 b (0 : Fin 1) :=
  funext fun a => Fin.ext (by match a with | ⟨0, _⟩ => rfl | ⟨1, _⟩ => rfl)

/-- The scatter-add of the trunk's rows by the query ids into the zero table: entry (b, h) is column h of the trunk
    network summed over the nodes of segment b. -/
theorem segsum_eq (x1 : Spec.Mat 262144 3) (x3 : Spec.IVc 262144) (x10 : Spec.Mat 3 256) (x11 : Spec.Vc 256) (x12 : Spec.Mat 256 256) (x13 : Spec.Vc 256)
    (x14 : Spec.Mat 256 256) (x15 : Spec.Vc 256) (b : Fin 64) (h : Fin 256) :
    Read.val_main_v30 (F := Ideal) x1 x3 x10 x11 x12 x13 x14 x15 (ix2 b h)
      = Spec.segSum (Spec.mlp3 x1 x10 x11 x12 x13 x14 x15) x3 b h := by
  unfold Read.val_main_v30
  simp only [Host.scatterAdd, Ideal.hostScatterAdd_def]
  rw [scatter_rows]
  simp only [Read.val_main_v28_apply, Read.val_main_cst_apply, Read.val_main_v29_apply, idx_v29, trunk_eq, Ideal.ofBits_def,
    Spec.zero_f32, zero_add]
  unfold Spec.segSum
  rw [Finset.sum_filter]
  exact Finset.sum_congr rfl fun r _ => if_congr Iff.rfl rfl rfl

/-- The scatter-add of ones by the query ids into the zero column: entry b is the number of nodes of segment b. -/
theorem segcnt_eq (x3 : Spec.IVc 262144) (b : Fin 64) :
    Read.val_main_v34 (F := Ideal) x3 (ix2 b 0) = Spec.segCnt x3 b := by
  unfold Read.val_main_v34
  simp only [Host.scatterAdd, Ideal.hostScatterAdd_def]
  rw [scatter_col]
  simp only [Read.val_main_v32_apply, Read.val_main_cst_1_apply, Read.val_main_v33_apply, idx_v33, Read.val_main_v31_apply,
    Read.val_main_cst_0_apply, Ideal.ofBits_def, Spec.zero_f32, Spec.one_f32, zero_add]
  unfold Spec.segCnt
  rw [Finset.sum_filter]
  exact Finset.sum_congr rfl fun r _ => if_congr Iff.rfl rfl rfl

/-- The quotient stage is the trunk's table of segment means. -/
theorem mean_eq (x1 : Spec.Mat 262144 3) (x3 : Spec.IVc 262144) (x10 : Spec.Mat 3 256) (x11 : Spec.Vc 256) (x12 : Spec.Mat 256 256) (x13 : Spec.Vc 256)
    (x14 : Spec.Mat 256 256) (x15 : Spec.Vc 256) (b : Fin 64) (h : Fin 256) :
    Read.val_main_v38 (F := Ideal) x1 x3 x10 x11 x12 x13 x14 x15 (ix2 b h)
      = Spec.trunkMean x1 x3 x10 x11 x12 x13 x14 x15 b h := by
  rw [Read.val_main_v38_apply, Read.val_main_v37_apply, idx_v37, Read.val_main_v36_apply, Read.val_main_v35_apply,
    Read.val_main_cst_2_apply, segsum_eq, segcnt_eq]
  simp only [Ideal.hostDivf_def, Ideal.maximumf_def, Ideal.ofBits_def, Spec.one_f32]
  rfl

/-! ## The wrapped index, the gather, and the head -/

/-- Where node i's id is a segment's number it is not negative, so the select keeps the id itself. -/
theorem wrapped_eq (x2 : Spec.IVc 262144) (i : Fin 262144) (b : Fin 64) (hb : Spec.inSeg x2 i b) :
    Read.val_main_v44 (F := Ideal) x2 (ix2 i 0) = x2 (ix1 i) := by
  rw [Read.val_main_v44_apply, idx_v44, Read.val_main_v43_apply, Read.val_main_v40_apply, Read.val_main_v39_apply,
    Read.val_main_c_apply]
  have hbv : (x2 (ix1 i)).toInt = (b.val : ℤ) := hb
  have hz : ((0#32 : BitVec 32)).toInt = 0 := by decide
  have hs : ¬((x2 (ix1 i)).toInt < ((0#32 : BitVec 32)).toInt) := by rw [hz, hbv]; omega
  show Scalar.select (BitVec.ofBool (decide ((x2 (ix1 i)).toInt < ((0#32 : BitVec 32)).toInt))) _ _ = _
  rw [decide_eq_false hs]
  exact select_zero _ _

/-- Where every known node's id is a segment's number, the gather stage at (i, h) is the mean of the segment node i's id
    names: the clamp is the identity on 0 … 63. -/
theorem gather_eq (x1 : Spec.Mat 262144 3) (x2 x3 : Spec.IVc 262144) (x10 : Spec.Mat 3 256) (x11 : Spec.Vc 256) (x12 : Spec.Mat 256 256)
    (x13 : Spec.Vc 256) (x14 : Spec.Mat 256 256) (x15 : Spec.Vc 256) (hr : Spec.InRange x2) (i : Fin 262144) (h : Fin 256) :
    Read.val_main_v45 (F := Ideal) x1 x2 x3 x10 x11 x12 x13 x14 x15 (ix2 i h)
      = Spec.gathered (Spec.trunkMean x1 x3 x10 x11 x12 x13 x14 x15) x2 i h := by
  obtain ⟨b, hb⟩ := hr i
  unfold Read.val_main_v45
  rw [gather_row, wrapped_eq x2 i b hb, clampRow_of _ b hb, mean_eq, Spec.gathered_of_inSeg _ _ _ _ b hb]

theorem lidx_v47 (i : Fin 262144) (j : Fin 256) (k : Fin 256) : Read.lidx_main_v47 (ix2 i j) k = ix2 i k :=
  funext fun a => Fin.ext (by match a with | ⟨0, _⟩ => rfl | ⟨1, _⟩ => rfl)
theorem ridx_v47 (i : Fin 262144) (j : Fin 256) (k : Fin 256) : Read.ridx_main_v47 (ix2 i j) k = ix2 k j :=
  funext fun a => Fin.ext (by match a with | ⟨0, _⟩ => rfl | ⟨1, _⟩ => rfl)
theorem idx_v49 (i : Fin 262144) (j : Fin 256) : Read.idx_main_v49 (ix2 i j) = ix2 (0 : Fin 1) j :=
  funext fun a => Fin.ext (by match a with | ⟨0, _⟩ => rfl | ⟨1, _⟩ => rfl)
theorem idx_v48 (z : Fin 1) (j : Fin 256) : Read.idx_main_v48 (ix2 z j) = ix1 j :=
  funext fun a => Fin.ext (by match a with | ⟨0, _⟩ => rfl)
theorem lidx_v52 (i : Fin 262144) (o : Fin 3) (k : Fin 256) : Read.lidx_main_v52 (ix2 i o) k = ix2 i k :=
  funext fun a => Fin.ext (by match a with | ⟨0, _⟩ => rfl | ⟨1, _⟩ => rfl)
theorem ridx_v52 (i : Fin 262144) (o : Fin 3) (k : Fin 256) : Read.ridx_main_v52 (ix2 i o) k = ix2 k o :=
  funext fun a => Fin.ext (by match a with | ⟨0, _⟩ => rfl | ⟨1, _⟩ => rfl)
theorem idx_v54 (i : Fin 262144) (o : Fin 3) : Read.idx_main_v54 (ix2 i o) = ix2 (0 : Fin 1) o :=
  funext fun a => Fin.ext (by match a with | ⟨0, _⟩ => rfl | ⟨1, _⟩ => rfl)
theorem idx_v53 (z : Fin 1) (o : Fin 3) : Read.idx_main_v53 (ix2 z o) = ix1 o :=
  funext fun a => Fin.ext (by match a with | ⟨0, _⟩ => rfl)

/-- The reference's last stage at an index is the specification's result, when every known node's id lies in 0 … 63. -/
theorem result_eq (x0 x1 : Spec.Mat 262144 3) (x2 x3 : Spec.IVc 262144)
    (x4 : Spec.Mat 3 256) (x5 : Spec.Vc 256) (x6 : Spec.Mat 256 256) (x7 : Spec.Vc 256) (x8 : Spec.Mat 256 256) (x9 : Spec.Vc 256)
    (x10 : Spec.Mat 3 256) (x11 : Spec.Vc 256) (x12 : Spec.Mat 256 256) (x13 : Spec.Vc 256) (x14 : Spec.Mat 256 256) (x15 : Spec.Vc 256)
    (x16 : Spec.Mat 256 256) (x17 : Spec.Vc 256) (x18 : Spec.Mat 256 3) (x19 : Spec.Vc 3)
    (hr : Spec.InRange x2) (i : Fin 262144) (o : Fin 3) :
    Read.val_main_v55 (F := Ideal) x0 x1 x2 x3 x4 x5 x6 x7 x8 x9 x10 x11 x12 x13 x14 x15 x16 x17 x18 x19 (ix2 i o)
      = Spec.out x0 x1 x2 x3 x4 x5 x6 x7 x8 x9 x10 x11 x12 x13 x14 x15 x16 x17 x18 x19 i o := by
  simp only [Spec.out, Spec.outWith, Spec.lin, Spec.relu, Read.val_main_v55_apply, Read.val_main_v52_apply, Read.val_main_v54_apply, Read.val_main_v53_apply, Read.val_main_v51_apply, Read.val_main_call4_v0_apply, Read.val_main_call4_cst_apply, Read.val_main_v50_apply, Read.val_main_v47_apply, Read.val_main_v49_apply, Read.val_main_v48_apply, Read.val_main_v46_apply,
    lidx_v52, ridx_v52, idx_v54, idx_v53, lidx_v47, ridx_v47, idx_v49, idx_v48, branch_eq,
    gather_eq x1 x2 x3 x10 x11 x12 x13 x14 x15 hr,
    Ideal.addf_def, Ideal.maximumf_def, Ideal.mulf_def, Ideal.ofBits_def, Spec.zero_f32]

end Cert.ReferenceIdeal.RefValue

end
-- ==== Proof.Range.lean ====
/-
  The precondition's last conjunct read back: every known node's id, as a signed integer, is at least 0 and less
  than 64, so it is the number of one of the 64 segments.
-/
import proofs.«404486_j82265803588247_3_alg».proof.Pre_finite_inputs
import proofs.«404486_j82265803588247_3_alg».proof.Proof.Spec
import Idealize.ShloMosaic.Lib.ReduceAll
import Idealize.ShloMosaic.Lib.Affine
import Idealize.ShloMosaic.Lib.ValueIdx

noncomputable section

namespace Cert.Range

open Idealize.ShloMosaic Idealize.ShloMosaic.ValueIdx

instance : Subsingleton Cert.Pre_finite_inputs.S_.Idx := ⟨fun a b => funext fun d => d.elim0⟩

variable [Cert.Pre_finite_inputs.Facts] {F : FTy → Type} [FloatOps F]

/-- The last part of the printed predicate is all ones only if every id lies in 0 … 63. -/
theorem of_part5 (a2 : IVec Cert.Pre_finite_inputs.S262144 32) (v83 : IVec Cert.Pre_finite_inputs.S_ 1)
    (v84 : FVec F Cert.Pre_finite_inputs.S3 .f32) (cst : FVec F Cert.Pre_finite_inputs.S_ .f32)
    (h : Cert.Pre_finite_inputs.fn_part5 (F := F) a2 v83 v84 cst = fun _ => 1#1) : Spec.InRange a2 := by
  intro i
  have h0 : Cert.Pre_finite_inputs.fn_part5 (F := F) a2 v83 v84 cst ix0 = 1#1 := congrFun h ix0
  dsimp only [Cert.Pre_finite_inputs.fn_part5] at h0
  have h1 := (IntOp.andi_eq_one.mp h0).2
  have h2 := Host.reduce_andi_all _ _ _ _ _ h1 (ix1 i)
  have h3 := IntOp.andi_eq_one.mp h2
  have hge : (0#32 : BitVec 32).toInt ≤ (a2 (ix1 i)).toInt := IntOp.cmpi_sge.mp h3.1
  have hlt : (a2 (ix1 i)).toInt < (64#32 : BitVec 32).toInt := IntOp.cmpi_slt.mp h3.2
  have e0 : (0#32 : BitVec 32).toInt = 0 := by decide
  have e64 : (64#32 : BitVec 32).toInt = 64 := by decide
  rw [e0] at hge; rw [e64] at hlt
  refine ⟨⟨(a2 (ix1 i)).toInt.toNat, by omega⟩, ?_⟩
  unfold Spec.inSeg
  show (a2 (ix1 i)).toInt = (((a2 (ix1 i)).toInt.toNat : ℕ) : ℤ)
  exact (Int.toNat_of_nonneg hge).symm

/-- The whole printed predicate is all ones only if every known node's id lies in 0 … 63: its value is the last part's,
    whose other operands do not matter here. -/
theorem of_pre (a0 a1 : FVec F Cert.Pre_finite_inputs.S262144x3 .f32) (a2 a3 : IVec Cert.Pre_finite_inputs.S262144 32)
    (a4 : FVec F Cert.Pre_finite_inputs.S3x256 .f32) (a5 : FVec F Cert.Pre_finite_inputs.S256 .f32)
    (a6 : FVec F Cert.Pre_finite_inputs.S256x256 .f32) (a7 : FVec F Cert.Pre_finite_inputs.S256 .f32)
    (a8 : FVec F Cert.Pre_finite_inputs.S256x256 .f32) (a9 : FVec F Cert.Pre_finite_inputs.S256 .f32)
    (a10 : FVec F Cert.Pre_finite_inputs.S3x256 .f32) (a11 : FVec F Cert.Pre_finite_inputs.S256 .f32)
    (a12 : FVec F Cert.Pre_finite_inputs.S256x256 .f32) (a13 : FVec F Cert.Pre_finite_inputs.S256 .f32)
    (a14 : FVec F Cert.Pre_finite_inputs.S256x256 .f32) (a15 : FVec F Cert.Pre_finite_inputs.S256 .f32)
    (a16 : FVec F Cert.Pre_finite_inputs.S256x256 .f32) (a17 : FVec F Cert.Pre_finite_inputs.S256 .f32)
    (a18 : FVec F Cert.Pre_finite_inputs.S256x3 .f32) (a19 : FVec F Cert.Pre_finite_inputs.S3 .f32)
    (h : Cert.Pre_finite_inputs.fn (F := F) a0 a1 a2 a3 a4 a5 a6 a7 a8 a9 a10 a11 a12 a13 a14 a15 a16 a17 a18 a19 = fun _ => 1#1) :
    Spec.InRange a2 := by
  unfold Cert.Pre_finite_inputs.fn Cert.Pre_finite_inputs.fn_part1 Cert.Pre_finite_inputs.fn_part2
    Cert.Pre_finite_inputs.fn_part3 Cert.Pre_finite_inputs.fn_part4 at h
  exact of_part5 (F := F) _ _ _ _ h

end Cert.Range

end
-- ==== Proof.Claims.lean ====
/-
  The claims, assembled. The idealized kernel's frame and its result come from its run (`Whole`), the reference's from
  its generated run; both results are the specification's function of the arguments (the reference's where every known
  node's id is a segment's number, which the precondition says), and the arguments agree.
-/
import proofs.«404486_j82265803588247_3_alg».proof.Defs
import proofs.«404486_j82265803588247_3_alg».proof.Proof.KI.Value
import proofs.«404486_j82265803588247_3_alg».proof.Proof.Ref.Value
import proofs.«404486_j82265803588247_3_alg».proof.Proof.Range
import proofs.«404486_j82265803588247_3_alg».proof.Proof.Gen.ReferenceIdeal.Run
import proofs.«404486_j82265803588247_3_alg».proof.Proof.Gen.Pre_finite_inputs

noncomputable section

namespace Cert.Proof.Claims

open Idealize.ShloMosaic Idealize.ShloMosaic.TcCoe Idealize.SL.Sem Idealize.ShloMosaic.ValueIdx

variable [hKernelIdeal : Cert.KernelIdeal.Facts] [hReferenceIdeal : Cert.ReferenceIdeal.Facts] [hPre : Cert.Pre_finite_inputs.Facts]

theorem frame_ki : Cert.frame_KernelIdeal := fun m ρ _ => Cert.KernelIdeal.Whole.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite the idealization applied: widening after narrowing is the identity over the extended reals. -/
theorem preserves : Cert.preserves_Kernel_KernelIdeal :=
  IdealRules.truncf_extf.statement Cert.KernelIdeal.S4096x64 .f32 .bf16

/-- The precondition places every known node's id among the segments' numbers. -/
theorem inRange (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.InRange (Cert.KernelIdeal.Args.known_seg m c) :=
  Cert.Range.of_pre (F := Ideal) _ _ _ _ _ _ _ _ _ _ _ _ _ _ _ _ _ _ _ _ (hpre c)

theorem algebraic : Cert.algebraic_KernelIdeal_ReferenceIdeal := by
  intro m ρ m' ρ' hpre hagree
  refine ⟨fun c => Cert.KernelIdeal.Whole.W5 (F := Ideal) m c (Proc.devRef .tc Cert.KernelIdeal.main_v19),
    Cert.KernelIdeal.Whole.run_value (F := Ideal) m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v55_eq (F := Ideal) _ _ _ _ _ _ _ _ _ _ _ _ _ _ _ _ _ _ _ _).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
  funext j
  obtain ⟨i, o, rfl⟩ : ∃ (i : Fin 262144) (o : Fin 3), j = ix2 i o := ⟨j 0, j 1, eq_ix2 j⟩
  exact (Cert.ReferenceIdeal.RefValue.result_eq _ _ _ _ _ _ _ _ _ _ _ _ _ _ _ _ _ _ _ _ (inRange m hpre c) i o).trans
    (Cert.KernelIdeal.Value.result_eq m c i o).symm

end Cert.Proof.Claims

end
-- ==== Proof.K.TrunkData.lean ====
/-
  Region 0 (the trunk reduction) of the kernel: its proof data. Each core walks 32 row tiles; at a tile the
  body forms the trunk network's output on the tile's 4096 rows, adds its one-hot-weighted column sums into a
  64 x 256 accumulator and the one-hot's column counts into a 1 x 64 accumulator, both reset at the core's first tile
  and copied into the two output blocks at its last. What the two accumulators hold after each grid point is the
  recursion `accAt`; the invariant carries them from point to point.
-/
import proofs.«404486_j82265803588247_3_alg».proof.Proof.Gen.Kernel.Launch
import proofs.«404486_j82265803588247_3_alg».proof.Proof.Gen.Kernel.Skeleton
import proofs.«404486_j82265803588247_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Trunk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The sum accumulator after the body at point `t`, given what it held before: the old contents plus the tile's
    one-hot-weighted column sums of the trunk network's output. -/
def stepSum (c : Dev nD) (t : Fin cfg0.N) (acc : Vec F S64x256 .f32) : Vec F S64x256 .f32 :=
  k0_pay2 (k0_pay8 (iblk V c 6 t)) (iblk V c 7 t)
    (k0_pay9 (iblk V c 0 t) (iblk V c 2 t) (iblk V c 3 t) (iblk V c 4 t) (iblk V c 5 t)) (iblk V c 1 t) acc

/-- The count accumulator after the body at point `t`, given what it held before. -/
def stepCnt (c : Dev nD) (t : Fin cfg0.N) (acc : Vec F S1x64 .f32) : Vec F S1x64 .f32 :=
  k0_pay3 (iblk V c 1 t) acc

/-- What the two accumulators hold after the body at position `n`: reset to zero before the step at a core's
    first tile (the positions divisible by 32), carried from the position before otherwise. -/
def accAt (c : Dev nD) : (n : ℕ) → n < cfg0.N → Vec F S64x256 .f32 × Vec F S1x64 .f32
  | 0, hn => (stepSum V c ⟨0, hn⟩ k0_pay6, stepCnt V c ⟨0, hn⟩ k0_pay7)
  | n + 1, hn =>
    if (n + 1) % 32 = 0 then (stepSum V c ⟨n + 1, hn⟩ k0_pay6, stepCnt V c ⟨n + 1, hn⟩ k0_pay7)
    else (stepSum V c ⟨n + 1, hn⟩ (accAt c n (Nat.lt_of_succ_lt hn)).1, stepCnt V c ⟨n + 1, hn⟩ (accAt c n (Nat.lt_of_succ_lt hn)).2)

theorem accAt_reset (c : Dev nD) (t : Fin cfg0.N) (h : t.val % 32 = 0) :
    accAt V c t.val t.isLt = (stepSum V c t k0_pay6, stepCnt V c t k0_pay7) := by
  obtain ⟨n, hn⟩ := t
  cases n with
  | zero => rfl
  | succ n => exact if_pos h

theorem accAt_step (c : Dev nD) (t : Fin cfg0.N) (h : ¬t.val % 32 = 0) :
    accAt V c t.val t.isLt
      = (stepSum V c t (accAt V c (t.val - 1) (Nat.lt_of_le_of_lt (Nat.sub_le _ _) t.isLt)).1,
         stepCnt V c t (accAt V c (t.val - 1) (Nat.lt_of_le_of_lt (Nat.sub_le _ _) t.isLt)).2) := by
  obtain ⟨n, hn⟩ := t
  cases n with
  | zero => exact absurd (Nat.zero_mod _) h
  | succ n => exact if_neg h

/-- The two components at a core's first tile, -/
theorem accAt_reset_fst (c : Dev nD) (t : Fin cfg0.N) (h : t.val % 32 = 0) :
    (accAt V c t.val t.isLt).1 = stepSum V c t k0_pay6 := congrArg Prod.fst (accAt_reset V c t h)
theorem accAt_reset_snd (c : Dev nD) (t : Fin cfg0.N) (h : t.val % 32 = 0) :
    (accAt V c t.val t.isLt).2 = stepCnt V c t k0_pay7 := congrArg Prod.snd (accAt_reset V c t h)
/-- and at any other tile. -/
theorem accAt_step_fst (c : Dev nD) (t : Fin cfg0.N) (h : ¬t.val % 32 = 0) :
    (accAt V c t.val t.isLt).1 = stepSum V c t (accAt V c (t.val - 1) (Nat.lt_of_le_of_lt (Nat.sub_le _ _) t.isLt)).1 :=
  congrArg Prod.fst (accAt_step V c t h)
theorem accAt_step_snd (c : Dev nD) (t : Fin cfg0.N) (h : ¬t.val % 32 = 0) :
    (accAt V c t.val t.isLt).2 = stepCnt V c t (accAt V c (t.val - 1) (Nat.lt_of_le_of_lt (Nat.sub_le _ _) t.isLt)).2 :=
  congrArg Prod.snd (accAt_step V c t h)

/-- The two scratch operands as whole memrefs. -/
abbrev scSum : Memref sig .tc .vmem S64x256 .f32 := Memref.whole cc0_scratch0
abbrev scCnt : Memref sig .tc .vmem S1x64 .f32 := Memref.whole cc0_scratch1

/-- The core's scoped buffers this region never touches (the other region's staging buffers), each whole at some
    contents: with the two scratch buffers they make up the scoped rest the launch hands the region and takes back. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg11_0), ((c : Thread nD τ).loc cc1_stg11_0) ↦{fullShare} f)
    ∗ (∃ f : Buf (Elt F) ((c : Thread nD τ).loc cc1_stg12_0), ((c : Thread nD τ).loc cc1_stg12_0) ↦{fullShare} f)
    ∗ (∃ f : Buf (Elt F) ((c : Thread nD τ).loc cc1_stg13_0), ((c : Thread nD τ).loc cc1_stg13_0) ↦{fullShare} f)
    ∗ (∃ f : Buf (Elt F) ((c : Thread nD τ).loc cc1_stg13_1), ((c : Thread nD τ).loc cc1_stg13_1) ↦{fullShare} f))

/-- The region invariant before position `n`: before the first point the scoped rest at anything and the generator
    register; afterwards the two accumulators at what the point before left, the other scoped buffers at anything. -/
def PhiS (c : Dev nD) : (n : ℕ) → n ≤ cfg0.N → sProp 𝕄
  | 0, _ => Pipeline.ΦA spec0 c
  | n + 1, hn => iprop(iprop(owns (c : Thread nD τ) scSum fullShare ((accAt V c n hn).1)
      ∗ owns (c : Thread nD τ) scCnt fullShare ((accAt V c n hn).2) ∗ restS c) ∗ (∃ r, prngReg c r))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => k0_pay4 (accAt V c t.val t.isLt).1
    | ⟨9, _⟩ => k0_pay5 (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t = k0_pay4 (accAt V c t.val t.isLt).1 := by dsimp only [dat0]
theorem after0_9 (c : Dev nD) (t : Fin cfg0.N) : (dat0 V c).after 9 t = k0_pay5 (accAt V c t.val t.isLt).2 := by dsimp only [dat0]

/-- What the body leaves in each input window's buffer is the block it found there. -/
theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = iblk V c 4 t := by dsimp only [dat0]
theorem after0_5 (c : Dev nD) (t : Fin cfg0.N) : (dat0 V c).after 5 t = iblk V c 5 t := by dsimp only [dat0]
theorem after0_6 (c : Dev nD) (t : Fin cfg0.N) : (dat0 V c).after 6 t = iblk V c 6 t := by dsimp only [dat0]
theorem after0_7 (c : Dev nD) (t : Fin cfg0.N) : (dat0 V c).after 7 t = iblk V c 7 t := by dsimp only [dat0]

/-! ## The body on any staging memrefs, case by case -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer through the whole-shape rectangle at zero offsets reads the contents. -/
theorem readAt_whole {S : Shape} {e : EltTy} (m : Memref sig .tc .vmem S e) (h : m.IsWhole) {off : Fin S.rank → Nat}
    (hz : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero hz]

/-- A buffer stored whole reads back as the stored payload, whatever it held and whatever was stored before. -/
theorem read_store_whole {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons_self, View.mem_set_unit_zero hz inb y⟩)).trans
    (View.canon_cons_unit_zero hz inb w L)

/-- The condition of the body's first conditional (the reset), from the grid coordinates. -/
abbrev cond0_0 (i : grid0.Coords) : Prop := (Scalar.cmpi .ne (Scalar.extui (Scalar.cmpi .eq (BitVec.ofNat 32 (i 1).val) 0#32)) 0#32) = 1#1
/-- The condition of its second (the copy into the two output blocks). -/
abbrev cond0_1 (i : grid0.Coords) : Prop := k0_cond2 i = 1#1

set_option maxHeartbeats 1000000 in
/-- The body at a core's first tile (the reset taken, the flush not): the two accumulators, whatever they held, end at
    the tile's contribution added to the reset values; the inputs and the two output buffers are left as found. -/
theorem run_A (c : Dev nD) (i : grid0.Coords) (arg2 : Memref sig .tc .vmem S4096x3 .f32) (harg2 : arg2.IsWhole) (arg3 : Memref sig .tc .vmem S4096x1 .i32) (harg3 : arg3.IsWhole) (arg4 : Memref sig .tc .vmem S3x256 .f32) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x64x256 .f32) (harg10 : arg10.IsWhole) (arg11 : Memref sig .tc .vmem S1x1x64 .f32) (harg11 : arg11.IsWhole) (arg12 : Memref sig .tc .vmem S64x256 .f32) (harg12 : arg12.IsWhole) (arg13 : Memref sig .tc .vmem S1x64 .f32) (harg13 : arg13.IsWhole) (hc0 : cond0_0 i) (hc1 : ¬cond0_1 i)
    (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (xi8 : Vec F S1x64x256 .f32) (xi9 : Vec F S1x1x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare xi8 ∗ owns (c : Thread nD τ) arg11 fullShare xi9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9
            ∗ owns (c : Thread nD τ) arg12 fullShare (k0_pay2 (k0_pay8 x6) x7 (k0_pay9 x0 x2 x3 x4 x5) x1 k0_pay6)
            ∗ owns (c : Thread nD τ) arg13 fullShare (k0_pay3 x1 k0_pay7)) -∗ K ⟨⟩))
      ⊢ wp frame (wpE (defs₀ (F := F)) Variants.none c none) E (cc0__trunk_reduce_kernel i arg2 harg2 arg3 harg3 arg4 harg4 arg5 harg5 arg6 harg6 arg7 harg7 arg8 harg8 arg9 harg9 arg10 harg10 arg11 harg11 arg12 harg12 arg13 harg13) K := by
  simp only [cc0__trunk_reduce_kernel_eq_skeleton]; unfold cc0__trunk_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr
    swap; · iexact HS0
    ipureintro
    refine (read_store_whole arg12 _ hz2 inb_S64x256_S64x256_0_0 _ _).trans ?_
    sl_unfold_words
    rw [View.readCov_unit_zero arg12.view hz2 inb_S64x256_S64x256_0_0, readAt_whole arg8 harg8 hz2, readAt_whole arg9 harg9 hz1, readAt_whole arg2 harg2 hz2, readAt_whole arg4 harg4 hz2, readAt_whole arg5 harg5 hz1,
      readAt_whole arg6 harg6 hz2, readAt_whole arg7 harg7 hz1, readAt_whole arg3 harg3 hz2]
  iexists _; isplitr
  swap; · iexact HS1
  ipureintro
  refine (read_store_whole arg13 _ hz2 inb_S1x64_S1x64_0_0 _ _).trans ?_
  sl_unfold_words
  rw [View.readCov_unit_zero arg13.view hz2 inb_S1x64_S1x64_0_0, readAt_whole arg3 harg3 hz2]
set_option maxHeartbeats 1000000 in
/-- The body at a tile that is neither a core's first nor its last (neither branch taken): the two accumulators end
    at the tile's contribution added to what they held; the inputs and the two output buffers are left as found. -/
theorem run_B (c : Dev nD) (i : grid0.Coords) (arg2 : Memref sig .tc .vmem S4096x3 .f32) (harg2 : arg2.IsWhole) (arg3 : Memref sig .tc .vmem S4096x1 .i32) (harg3 : arg3.IsWhole) (arg4 : Memref sig .tc .vmem S3x256 .f32) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x64x256 .f32) (harg10 : arg10.IsWhole) (arg11 : Memref sig .tc .vmem S1x1x64 .f32) (harg11 : arg11.IsWhole) (arg12 : Memref sig .tc .vmem S64x256 .f32) (harg12 : arg12.IsWhole) (arg13 : Memref sig .tc .vmem S1x64 .f32) (harg13 : arg13.IsWhole) (hc0 : ¬cond0_0 i) (hc1 : ¬cond0_1 i)
    (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (xi8 : Vec F S1x64x256 .f32) (xi9 : Vec F S1x1x64 .f32) (s0 : Vec F S64x256 .f32) (s1 : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare xi8 ∗ owns (c : Thread nD τ) arg11 fullShare xi9
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9
            ∗ owns (c : Thread nD τ) arg12 fullShare (k0_pay2 (k0_pay8 x6) x7 (k0_pay9 x0 x2 x3 x4 x5) x1 s0)
            ∗ owns (c : Thread nD τ) arg13 fullShare (k0_pay3 x1 s1)) -∗ K ⟨⟩))
      ⊢ wp frame (wpE (defs₀ (F := F)) Variants.none c none) E (cc0__trunk_reduce_kernel i arg2 harg2 arg3 harg3 arg4 harg4 arg5 harg5 arg6 harg6 arg7 harg7 arg8 harg8 arg9 harg9 arg10 harg10 arg11 harg11 arg12 harg12 arg13 harg13) K := by
  simp only [cc0__trunk_reduce_kernel_eq_skeleton]; unfold cc0__trunk_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9; obtain rfl := harg12.eq_unread hfs0; obtain rfl := harg13.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr
    swap; · iexact HS0
    ipureintro
    refine (read_store_whole arg12 _ hz2 inb_S64x256_S64x256_0_0 _ _).trans ?_
    sl_unfold_words
    rw [readAt_whole arg8 harg8 hz2, readAt_whole arg9 harg9 hz1, readAt_whole arg2 harg2 hz2, readAt_whole arg4 harg4 hz2, readAt_whole arg5 harg5 hz1,
      readAt_whole arg6 harg6 hz2, readAt_whole arg7 harg7 hz1, readAt_whole arg3 harg3 hz2, readAt_whole arg12 harg12 hz2]
  iexists _; isplitr
  swap; · iexact HS1
  ipureintro
  refine (read_store_whole arg13 _ hz2 inb_S1x64_S1x64_0_0 _ _).trans ?_
  rw [readAt_whole arg3 harg3 hz2, readAt_whole arg13 harg13 hz2]

set_option maxHeartbeats 1000000 in
/-- The body at a core's last tile (the reset not taken, the flush taken): the two accumulators end at the tile's
    contribution added to what they held, and the two output buffers, whatever they held, at those sums reshaped. -/
theorem run_C (c : Dev nD) (i : grid0.Coords) (arg2 : Memref sig .tc .vmem S4096x3 .f32) (harg2 : arg2.IsWhole) (arg3 : Memref sig .tc .vmem S4096x1 .i32) (harg3 : arg3.IsWhole) (arg4 : Memref sig .tc .vmem S3x256 .f32) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x64x256 .f32) (harg10 : arg10.IsWhole) (arg11 : Memref sig .tc .vmem S1x1x64 .f32) (harg11 : arg11.IsWhole) (arg12 : Memref sig .tc .vmem S64x256 .f32) (harg12 : arg12.IsWhole) (arg13 : Memref sig .tc .vmem S1x64 .f32) (harg13 : arg13.IsWhole) (hc0 : ¬cond0_0 i) (hc1 : cond0_1 i)
    (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (s0 : Vec F S64x256 .f32) (s1 : Vec F S1x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (k0_pay4 (k0_pay2 (k0_pay8 x6) x7 (k0_pay9 x0 x2 x3 x4 x5) x1 s0))
            ∗ owns (c : Thread nD τ) arg11 fullShare (k0_pay5 (k0_pay3 x1 s1))
            ∗ owns (c : Thread nD τ) arg12 fullShare (k0_pay2 (k0_pay8 x6) x7 (k0_pay9 x0 x2 x3 x4 x5) x1 s0)
            ∗ owns (c : Thread nD τ) arg13 fullShare (k0_pay3 x1 s1)) -∗ K ⟨⟩))
      ⊢ wp frame (wpE (defs₀ (F := F)) Variants.none c none) E (cc0__trunk_reduce_kernel i arg2 harg2 arg3 harg3 arg4 harg4 arg5 harg5 arg6 harg6 arg7 harg7 arg8 harg8 arg9 harg9 arg10 harg10 arg11 harg11 arg12 harg12 arg13 harg13) K := by
  simp only [cc0__trunk_reduce_kernel_eq_skeleton]; unfold cc0__trunk_reduce_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg12.eq_unread hfs0; obtain rfl := harg13.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (read_store_whole arg10 _ hz3 inb_S1x64x256_S1x64x256_0_0_0 _ _).trans ?_
    sl_unfold_words
    rw [View.readCov_unit_zero arg12.view hz2 inb_S64x256_S64x256_0_0, readAt_whole arg8 harg8 hz2, readAt_whole arg9 harg9 hz1, readAt_whole arg2 harg2 hz2, readAt_whole arg4 harg4 hz2, readAt_whole arg5 harg5 hz1,
      readAt_whole arg6 harg6 hz2, readAt_whole arg7 harg7 hz1, readAt_whole arg3 harg3 hz2, readAt_whole arg12 harg12 hz2]
  isplitl [H9]
  · iexists _; isplitr
    swap; · iexact H9
    ipureintro
    refine (read_store_whole arg11 _ hz3 inb_S1x1x64_S1x1x64_0_0_0 _ _).trans ?_
    sl_unfold_words
    rw [View.readCov_unit_zero arg13.view hz2 inb_S1x64_S1x64_0_0, readAt_whole arg3 harg3 hz2, readAt_whole arg13 harg13 hz2]
  isplitl [HS0]
  · iexists _; isplitr
    swap; · iexact HS0
    ipureintro
    refine (read_store_whole arg12 _ hz2 inb_S64x256_S64x256_0_0 _ _).trans ?_
    sl_unfold_words
    rw [readAt_whole arg8 harg8 hz2, readAt_whole arg9 harg9 hz1, readAt_whole arg2 harg2 hz2, readAt_whole arg4 harg4 hz2, readAt_whole arg5 harg5 hz1,
      readAt_whole arg6 harg6 hz2, readAt_whole arg7 harg7 hz1, readAt_whole arg3 harg3 hz2, readAt_whole arg12 harg12 hz2]
  iexists _; isplitr
  swap; · iexact HS1
  ipureintro
  refine (read_store_whole arg13 _ hz2 inb_S1x64_S1x64_0_0 _ _).trans ?_
  rw [readAt_whole arg3 harg3 hz2, readAt_whole arg13 harg13 hz2]

/-! ## The conditions and the idle table over the grid -/

/-- The reset is taken at the points divisible by 32: each core's first tile. -/
theorem hcond0_0 : ∀ t : Fin cfg0.N, cond0_0 (grid0.coords t) ↔ t.val % 32 = 0 :=
  (by decide +kernel : ∀ t : Fin grid0.N, cond0_0 (grid0.coords t) ↔ t.val % 32 = 0)
/-- The copy out is taken at the points that are 31 modulo 32: each core's last tile. -/
theorem hcond0_1 : ∀ t : Fin cfg0.N, cond0_1 (grid0.coords t) ↔ t.val % 32 = 31 :=
  (by decide +kernel : ∀ t : Fin grid0.N, cond0_1 (grid0.coords t) ↔ t.val % 32 = 31)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Off a core's last tile the two output windows are idle and not written back; at it they are live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The invariant, point by point -/

/-- Each window's current staging memref at point `t`, as the pipeline passes it to the body, and its wholeness. -/
abbrev ms0_0 (t : Fin cfg0.N) : Memref sig .tc .vmem S4096x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x64 .f32 := win0_9.stage (cfg0.slots t 9)
abbrev hs0_9 (t : Fin cfg0.N) : (ms0_9 t).IsWhole := hstage0_9 ((cfg0.slots t 9).cast nbuf0_9)

/-- What the launch hands the region, with the two scratch buffers as memrefs owned at some contents. -/
theorem PhiA0_eq (c : Dev nD) :
    (Pipeline.ΦA spec0 c : sProp 𝕄)
      = iprop(iprop((∃ d, owns (c : Thread nD τ) scSum fullShare d) ∗ (∃ d, owns (c : Thread nD τ) scCnt fullShare d) ∗ restS c) ∗ (∃ r, prngReg c r)) := by
  unfold Pipeline.ΦA restS; rw [scopedRest0_eq]; simp only [scSum, scCnt, owns_whole]; try rfl

theorem PhiS_zero (c : Dev nD) (n : ℕ) (h : n ≤ cfg0.N) (hz : n = 0) : PhiS V c n h = Pipeline.ΦA spec0 c := by
  subst hz; rfl

/-- After point `n`: the two accumulators at that point's contents. -/
theorem PhiS_succ (c : Dev nD) (n : ℕ) (hn : n < cfg0.N) :
    PhiS V c (n + 1) hn = iprop(iprop(owns (c : Thread nD τ) scSum fullShare ((accAt V c n hn).1)
      ∗ owns (c : Thread nD τ) scCnt fullShare ((accAt V c n hn).2) ∗ restS c) ∗ (∃ r, prngReg c r)) := rfl

/-- Before a point that is not the first: the two accumulators at what the point before left. -/
theorem PhiS_pos (c : Dev nD) (n : ℕ) (h : n ≤ cfg0.N) (hz : n ≠ 0) :
    PhiS V c n h = iprop(iprop(owns (c : Thread nD τ) scSum fullShare ((accAt V c (n - 1) (by omega)).1)
      ∗ owns (c : Thread nD τ) scCnt fullShare ((accAt V c (n - 1) (by omega)).2) ∗ restS c) ∗ (∃ r, prngReg c r)) := by
  cases n with
  | zero => exact absurd rfl hz
  | succ n => rfl

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-! ## What the body finds and leaves, window by window -/

/-- Each input's current staging buffer holds its block at every point, fetched there or not: unfetched, the block
    index has not moved since the fetch, and the body left the block in place. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq0]; try rfl) t d).trans
    (by unfold Dat.fetched Dat.blockOf iblk; rw [A_eq0]; try rfl)
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A_eq0]; try rfl) t d).trans
    (by unfold Dat.fetched Dat.blockOf iblk; rw [A_eq0]; try rfl)
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A_eq0]; try rfl) t d).trans
    (by unfold Dat.fetched Dat.blockOf iblk; rw [A_eq0]; try rfl)
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A_eq0]; try rfl) t d).trans
    (by unfold Dat.fetched Dat.blockOf iblk; rw [A_eq0]; try rfl)
theorem before0_4 (c : Dev nD) (t : Fin cfg0.N) (d) : (dat0 V c).before 4 t d = iblk V c 4 t :=
  ((dat0 V c).before_in_eq_fetched 4 rfl (fun _ => rfl) (fun _ _ _ => rfl) (fun t => by rw [after0_4]; unfold Dat.blockOf iblk; rw [A_eq0]; try rfl) t d).trans
    (by unfold Dat.fetched Dat.blockOf iblk; rw [A_eq0]; try rfl)
theorem before0_5 (c : Dev nD) (t : Fin cfg0.N) (d) : (dat0 V c).before 5 t d = iblk V c 5 t :=
  ((dat0 V c).before_in_eq_fetched 5 rfl (fun _ => rfl) (fun _ _ _ => rfl) (fun t => by rw [after0_5]; unfold Dat.blockOf iblk; rw [A_eq0]; try rfl) t d).trans
    (by unfold Dat.fetched Dat.blockOf iblk; rw [A_eq0]; try rfl)
theorem before0_6 (c : Dev nD) (t : Fin cfg0.N) (d) : (dat0 V c).before 6 t d = iblk V c 6 t :=
  ((dat0 V c).before_in_eq_fetched 6 rfl (fun _ => rfl) (fun _ _ _ => rfl) (fun t => by rw [after0_6]; unfold Dat.blockOf iblk; rw [A_eq0]; try rfl) t d).trans
    (by unfold Dat.fetched Dat.blockOf iblk; rw [A_eq0]; try rfl)
theorem before0_7 (c : Dev nD) (t : Fin cfg0.N) (d) : (dat0 V c).before 7 t d = iblk V c 7 t :=
  ((dat0 V c).before_in_eq_fetched 7 rfl (fun _ => rfl) (fun _ _ _ => rfl) (fun t => by rw [after0_7]; unfold Dat.blockOf iblk; rw [A_eq0]; try rfl) t d).trans
    (by unfold Dat.fetched Dat.blockOf iblk; rw [A_eq0]; try rfl)

/-- The body leaves each input's buffer at its block; -/
theorem leaves0_0 (c : Dev nD) (t : Fin cfg0.N) : (dat0 V c).leavesExact 0 t = owns (c : Thread nD τ) (ms0_0 t) fullShare (iblk V c 0 t) := by
  unfold Dat.leavesExact; rw [liveAt0_0 t, after0_0]
theorem leaves0_1 (c : Dev nD) (t : Fin cfg0.N) : (dat0 V c).leavesExact 1 t = owns (c : Thread nD τ) (ms0_1 t) fullShare (iblk V c 1 t) := by
  unfold Dat.leavesExact; rw [liveAt0_1 t, after0_1]
theorem leaves0_2 (c : Dev nD) (t : Fin cfg0.N) : (dat0 V c).leavesExact 2 t = owns (c : Thread nD τ) (ms0_2 t) fullShare (iblk V c 2 t) := by
  unfold Dat.leavesExact; rw [liveAt0_2 t, after0_2]
theorem leaves0_3 (c : Dev nD) (t : Fin cfg0.N) : (dat0 V c).leavesExact 3 t = owns (c : Thread nD τ) (ms0_3 t) fullShare (iblk V c 3 t) := by
  unfold Dat.leavesExact; rw [liveAt0_3 t, after0_3]
theorem leaves0_4 (c : Dev nD) (t : Fin cfg0.N) : (dat0 V c).leavesExact 4 t = owns (c : Thread nD τ) (ms0_4 t) fullShare (iblk V c 4 t) := by
  unfold Dat.leavesExact; rw [liveAt0_4 t, after0_4]
theorem leaves0_5 (c : Dev nD) (t : Fin cfg0.N) : (dat0 V c).leavesExact 5 t = owns (c : Thread nD τ) (ms0_5 t) fullShare (iblk V c 5 t) := by
  unfold Dat.leavesExact; rw [liveAt0_5 t, after0_5]
theorem leaves0_6 (c : Dev nD) (t : Fin cfg0.N) : (dat0 V c).leavesExact 6 t = owns (c : Thread nD τ) (ms0_6 t) fullShare (iblk V c 6 t) := by
  unfold Dat.leavesExact; rw [liveAt0_6 t, after0_6]
theorem leaves0_7 (c : Dev nD) (t : Fin cfg0.N) : (dat0 V c).leavesExact 7 t = owns (c : Thread nD τ) (ms0_7 t) fullShare (iblk V c 7 t) := by
  unfold Dat.leavesExact; rw [liveAt0_7 t, after0_7]
/-- off a core's last tile each output's buffer as found, at it the accumulators reshaped. -/
theorem leaves0_8_idle (c : Dev nD) (t : Fin cfg0.N) (h : ¬cond0_1 (grid0.coords t)) :
    (dat0 V c).leavesExact 8 t = iprop(∃ d, owns (c : Thread nD τ) (ms0_8 t) fullShare ((dat0 V c).before 8 t d)) :=
  Dat.leavesExact_idle (dat0 V c) 8 t (idleAt0_8 t h) (noFlush0_8 t h)
theorem leaves0_9_idle (c : Dev nD) (t : Fin cfg0.N) (h : ¬cond0_1 (grid0.coords t)) :
    (dat0 V c).leavesExact 9 t = iprop(∃ d, owns (c : Thread nD τ) (ms0_9 t) fullShare ((dat0 V c).before 9 t d)) :=
  Dat.leavesExact_idle (dat0 V c) 9 t (idleAt0_9 t h) (noFlush0_9 t h)
theorem leaves0_8_live (c : Dev nD) (t : Fin cfg0.N) (h : cond0_1 (grid0.coords t)) :
    (dat0 V c).leavesExact 8 t = owns (c : Thread nD τ) (ms0_8 t) fullShare (k0_pay4 (accAt V c t.val t.isLt).1) := by
  unfold Dat.leavesExact; rw [liveAt0_8 t h, after0_8]
theorem leaves0_9_live (c : Dev nD) (t : Fin cfg0.N) (h : cond0_1 (grid0.coords t)) :
    (dat0 V c).leavesExact 9 t = owns (c : Thread nD τ) (ms0_9 t) fullShare (k0_pay5 (accAt V c t.val t.isLt).2) := by
  unfold Dat.leavesExact; rw [liveAt0_9 t h, after0_9]

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
/-- The body at any point. The inputs' buffers hold their blocks; the closed forms say which of the three cases the
    point is in; the invariant hands the body the two accumulators (at anything at the first point, at what the point
    before left afterwards) and takes them back at this point's contents by the recursion's two equations; the other
    scoped buffers and the generator register pass through; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0 V, before0_1 V, before0_2 V, before0_3 V, before0_4 V, before0_5 V, before0_6 V, before0_7 V]
  rewrite [show (dat0 V c).owesAt () t.succ = (dat0 V c).owesAt () t.castSucc from rfl]
  rewrite [show (dat0 V c).Φ t.succ = PhiS V c (t.val + 1) t.isLt from rfl, PhiS_succ]
  rewrite [leaves0_0, leaves0_1, leaves0_2, leaves0_3, leaves0_4, leaves0_5, leaves0_6, leaves0_7]
  have hN : t.val < 64 := lt_of_lt_of_eq t.isLt (show cfg0.N = 64 from N_0)
  by_cases h0 : t.val % 32 = 0
  · have hc0 : cond0_0 (grid0.coords t) := (hcond0_0 t).mpr h0
    have hc1 : ¬cond0_1 (grid0.coords t) := fun h => by have := (hcond0_1 t).mp h; omega
    rewrite [leaves0_8_idle V c t hc1, leaves0_9_idle V c t hc1, accAt_reset_fst V c t h0, accAt_reset_snd V c t h0]
    unfold stepSum stepCnt
    by_cases hz : t.val = 0
    · rewrite [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scSum (Memref.isWhole_whole _) scCnt (Memref.isWhole_whole _) hc0 hc1
        (iblk V c 0 t) (iblk V c 1 t) (iblk V c 2 t) (iblk V c 3 t) (iblk V c 4 t) (iblk V c 5 t) (iblk V c 6 t) (iblk V c 7 t) ((dat0 V c).before 8 t d8) ((dat0 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rewrite [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scSum (Memref.isWhole_whole _) scCnt (Memref.isWhole_whole _) hc0 hc1
        (iblk V c 0 t) (iblk V c 1 t) (iblk V c 2 t) (iblk V c 3 t) (iblk V c 4 t) (iblk V c 5 t) (iblk V c 6 t) (iblk V c 7 t) ((dat0 V c).before 8 t d8) ((dat0 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      iintro ⟨H0, H1, H2, H3, H4, H5, H6, H7, H8, H9, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun h => h0 (by omega)
    have hc0 : ¬cond0_0 (grid0.coords t) := fun h => h0 ((hcond0_0 t).mp h)
    rewrite [PhiS_castSucc V c t, PhiS_pos V c _ _ hz, accAt_step_fst V c t h0, accAt_step_snd V c t h0]
    unfold stepSum stepCnt
    by_cases h1 : t.val % 32 = 31
    · have hc1 : cond0_1 (grid0.coords t) := (hcond0_1 t).mpr h1
      rewrite [leaves0_8_live V c t hc1, leaves0_9_live V c t hc1, accAt_step_fst V c t h0, accAt_step_snd V c t h0]
      unfold stepSum stepCnt
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scSum (Memref.isWhole_whole _) scCnt (Memref.isWhole_whole _) hc0 hc1
        (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)).1 (accAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬cond0_1 (grid0.coords t) := fun h => h1 ((hcond0_1 t).mp h)
      rewrite [leaves0_8_idle V c t hc1, leaves0_9_idle V c t hc1]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scSum (Memref.isWhole_whole _) scCnt (Memref.isWhole_whole _) hc0 hc1
        (iblk V c 0 t) (iblk V c 1 t) (iblk V c 2 t) (iblk V c 3 t) (iblk V c 4 t) (iblk V c 5 t) (iblk V c 6 t) (iblk V c 7 t) ((dat0 V c).before 8 t d8) ((dat0 V c).before 9 t d9)
        (accAt V c (t.val - 1) (Nat.lt_of_le_of_lt (Nat.sub_le _ _) t.isLt)).1 (accAt V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The body obligation of region 0 at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulators' named contents
    are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- After the last point the invariant gives the class invariant back. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Trunk

end
-- ==== Proof.K.BranchData.lean ====
/-
  Region 1 (the branch network and the output head) of the kernel at the word level: its proof data. At each of the 64 row
  tiles the body forms the branch network's output on the tile's 4096 rows, multiplies it by the rows of the segment
  means its one-hot selects, applies the two-layer head and stores the transposed 3 x 4096 result block whole. Nothing is
  carried between points.
-/
import proofs.«404486_j82265803588247_3_alg».proof.Proof.Gen.Kernel.Launch
import proofs.«404486_j82265803588247_3_alg».proof.Proof.Gen.Kernel.Skeleton
import proofs.«404486_j82265803588247_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Branch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result block the body stores at point `t`. -/
def outBlk (c : Dev nD) (t : Fin cfg1.N) : Vec F S3x4096 .f32 :=
  k1_pay1 (k1_pay2 (iblk V c 0 t) (iblk V c 2 t) (iblk V c 3 t) (iblk V c 4 t) (iblk V c 5 t) (iblk V c 6 t) (iblk V c 7 t))
    (iblk V c 1 t) (iblk V c 8 t) (iblk V c 9 t) (iblk V c 10 t) (iblk V c 11 t) (iblk V c 12 t)

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outBlk V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_13 (c : Dev nD) (t : Fin cfg1.N) : (dat1 V c).after 13 t = outBlk V c t := by dsimp only [dat1]

/-! ## The input windows' buffers at a point -/

/-- What the body leaves in an input window's buffer is the block it found there. -/
theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = iblk V c 3 t := by dsimp only [dat1]
theorem after1_4 (c : Dev nD) (t : Fin cfg1.N) : (dat1 V c).after 4 t = iblk V c 4 t := by dsimp only [dat1]
theorem after1_5 (c : Dev nD) (t : Fin cfg1.N) : (dat1 V c).after 5 t = iblk V c 5 t := by dsimp only [dat1]
theorem after1_6 (c : Dev nD) (t : Fin cfg1.N) : (dat1 V c).after 6 t = iblk V c 6 t := by dsimp only [dat1]
theorem after1_7 (c : Dev nD) (t : Fin cfg1.N) : (dat1 V c).after 7 t = iblk V c 7 t := by dsimp only [dat1]
theorem after1_8 (c : Dev nD) (t : Fin cfg1.N) : (dat1 V c).after 8 t = iblk V c 8 t := by dsimp only [dat1]
theorem after1_9 (c : Dev nD) (t : Fin cfg1.N) : (dat1 V c).after 9 t = iblk V c 9 t := by dsimp only [dat1]
theorem after1_10 (c : Dev nD) (t : Fin cfg1.N) : (dat1 V c).after 10 t = iblk V c 10 t := by dsimp only [dat1]
theorem after1_11 (c : Dev nD) (t : Fin cfg1.N) : (dat1 V c).after 11 t = iblk V c 11 t := by dsimp only [dat1]
theorem after1_12 (c : Dev nD) (t : Fin cfg1.N) : (dat1 V c).after 12 t = iblk V c 12 t := by dsimp only [dat1]

/-- Each input's current staging buffer holds its block at every point, fetched there or not: where the window is
    not fetched its block index has not moved, so the block of the point before is this point's. -/
theorem before1_0 (c : Dev nD) (t : Fin cfg1.N) (d) : (dat1 V c).before 0 t d = iblk V c 0 t :=
  ((dat1 V c).before_in_eq_fetched 0 rfl (fun _ => rfl) (fun _ _ _ => rfl)
    (fun t => by rw [after1_0]; unfold Dat.blockOf iblk; rw [A_eq1]; try rfl) t d).trans
    (by unfold Dat.fetched Dat.blockOf iblk; rw [A_eq1]; try rfl)
theorem before1_1 (c : Dev nD) (t : Fin cfg1.N) (d) : (dat1 V c).before 1 t d = iblk V c 1 t :=
  ((dat1 V c).before_in_eq_fetched 1 rfl (fun _ => rfl) (fun _ _ _ => rfl)
    (fun t => by rw [after1_1]; unfold Dat.blockOf iblk; rw [A_eq1]; try rfl) t d).trans
    (by unfold Dat.fetched Dat.blockOf iblk; rw [A_eq1]; try rfl)
theorem before1_2 (c : Dev nD) (t : Fin cfg1.N) (d) : (dat1 V c).before 2 t d = iblk V c 2 t :=
  ((dat1 V c).before_in_eq_fetched 2 rfl (fun _ => rfl) (fun _ _ _ => rfl)
    (fun t => by rw [after1_2]; unfold Dat.blockOf iblk; rw [A_eq1]; try rfl) t d).trans
    (by unfold Dat.fetched Dat.blockOf iblk; rw [A_eq1]; try rfl)
theorem before1_3 (c : Dev nD) (t : Fin cfg1.N) (d) : (dat1 V c).before 3 t d = iblk V c 3 t :=
  ((dat1 V c).before_in_eq_fetched 3 rfl (fun _ => rfl) (fun _ _ _ => rfl)
    (fun t => by rw [after1_3]; unfold Dat.blockOf iblk; rw [A_eq1]; try rfl) t d).trans
    (by unfold Dat.fetched Dat.blockOf iblk; rw [A_eq1]; try rfl)
theorem before1_4 (c : Dev nD) (t : Fin cfg1.N) (d) : (dat1 V c).before 4 t d = iblk V c 4 t :=
  ((dat1 V c).before_in_eq_fetched 4 rfl (fun _ => rfl) (fun _ _ _ => rfl)
    (fun t => by rw [after1_4]; unfold Dat.blockOf iblk; rw [A_eq1]; try rfl) t d).trans
    (by unfold Dat.fetched Dat.blockOf iblk; rw [A_eq1]; try rfl)
theorem before1_5 (c : Dev nD) (t : Fin cfg1.N) (d) : (dat1 V c).before 5 t d = iblk V c 5 t :=
  ((dat1 V c).before_in_eq_fetched 5 rfl (fun _ => rfl) (fun _ _ _ => rfl)
    (fun t => by rw [after1_5]; unfold Dat.blockOf iblk; rw [A_eq1]; try rfl) t d).trans
    (by unfold Dat.fetched Dat.blockOf iblk; rw [A_eq1]; try rfl)
theorem before1_6 (c : Dev nD) (t : Fin cfg1.N) (d) : (dat1 V c).before 6 t d = iblk V c 6 t :=
  ((dat1 V c).before_in_eq_fetched 6 rfl (fun _ => rfl) (fun _ _ _ => rfl)
    (fun t => by rw [after1_6]; unfold Dat.blockOf iblk; rw [A_eq1]; try rfl) t d).trans
    (by unfold Dat.fetched Dat.blockOf iblk; rw [A_eq1]; try rfl)
theorem before1_7 (c : Dev nD) (t : Fin cfg1.N) (d) : (dat1 V c).before 7 t d = iblk V c 7 t :=
  ((dat1 V c).before_in_eq_fetched 7 rfl (fun _ => rfl) (fun _ _ _ => rfl)
    (fun t => by rw [after1_7]; unfold Dat.blockOf iblk; rw [A_eq1]; try rfl) t d).trans
    (by unfold Dat.fetched Dat.blockOf iblk; rw [A_eq1]; try rfl)
theorem before1_8 (c : Dev nD) (t : Fin cfg1.N) (d) : (dat1 V c).before 8 t d = iblk V c 8 t :=
  ((dat1 V c).before_in_eq_fetched 8 rfl (fun _ => rfl) (fun _ _ _ => rfl)
    (fun t => by rw [after1_8]; unfold Dat.blockOf iblk; rw [A_eq1]; try rfl) t d).trans
    (by unfold Dat.fetched Dat.blockOf iblk; rw [A_eq1]; try rfl)
theorem before1_9 (c : Dev nD) (t : Fin cfg1.N) (d) : (dat1 V c).before 9 t d = iblk V c 9 t :=
  ((dat1 V c).before_in_eq_fetched 9 rfl (fun _ => rfl) (fun _ _ _ => rfl)
    (fun t => by rw [after1_9]; unfold Dat.blockOf iblk; rw [A_eq1]; try rfl) t d).trans
    (by unfold Dat.fetched Dat.blockOf iblk; rw [A_eq1]; try rfl)
theorem before1_10 (c : Dev nD) (t : Fin cfg1.N) (d) : (dat1 V c).before 10 t d = iblk V c 10 t :=
  ((dat1 V c).before_in_eq_fetched 10 rfl (fun _ => rfl) (fun _ _ _ => rfl)
    (fun t => by rw [after1_10]; unfold Dat.blockOf iblk; rw [A_eq1]; try rfl) t d).trans
    (by unfold Dat.fetched Dat.blockOf iblk; rw [A_eq1]; try rfl)
theorem before1_11 (c : Dev nD) (t : Fin cfg1.N) (d) : (dat1 V c).before 11 t d = iblk V c 11 t :=
  ((dat1 V c).before_in_eq_fetched 11 rfl (fun _ => rfl) (fun _ _ _ => rfl)
    (fun t => by rw [after1_11]; unfold Dat.blockOf iblk; rw [A_eq1]; try rfl) t d).trans
    (by unfold Dat.fetched Dat.blockOf iblk; rw [A_eq1]; try rfl)
theorem before1_12 (c : Dev nD) (t : Fin cfg1.N) (d) : (dat1 V c).before 12 t d = iblk V c 12 t :=
  ((dat1 V c).before_in_eq_fetched 12 rfl (fun _ => rfl) (fun _ _ _ => rfl)
    (fun t => by rw [after1_12]; unfold Dat.blockOf iblk; rw [A_eq1]; try rfl) t d).trans
    (by unfold Dat.fetched Dat.blockOf iblk; rw [A_eq1]; try rfl)

/-! ## The body's run -/

/-- The zero offsets of a whole-buffer rectangle, however they are spelt. -/
theorem zero2 : (![0, 0] : Fin 2 → Nat) = fun _ => 0 := funext fun a => by fin_cases a <;> rfl
theorem zero1 : (![0] : Fin 1 → Nat) = fun _ => 0 := funext fun a => by fin_cases a; rfl

/-- The stored block as a function of the thirteen input blocks. -/
def outOf (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (x8 : Vec F S64x256 .bf16) (x9 : Vec F S256x256 .bf16) (x10 : Vec F S256 .f32) (x11 : Vec F S256x3 .bf16) (x12 : Vec F S3x1 .f32) : Vec F S3x4096 .f32 :=
  k1_pay1 (k1_pay2 x0 x2 x3 x4 x5 x6 x7) x1 x8 x9 x10 x11 x12

/-- The body's one store is through the whole-buffer rectangle of the output's staging buffer, so it covers it. -/
theorem cover_out (p : Vec F S3x4096 .f32) (y : S3x4096.Idx) :
    ∃ pc ∈ ([⟨Rect.unit (s := S3x4096) ![0, 0] S3x4096.size inb_S3x4096_S3x4096_0_0, p⟩] : List (View.Piece (Elt F) S3x4096 .f32)), y ∈ pc.1.set :=
  ⟨_, List.mem_singleton_self _, View.mem_set_unit_zero (S := S3x4096) zero2 inb_S3x4096_S3x4096_0_0 y⟩

set_option maxHeartbeats 4000000 in
/-- The kernel body on whole staging memrefs, the inputs' at read contents `xW` and the output's at anything, runs to
    the continuation holding the inputs' as they were and the output's at `outOf` of the inputs'. -/
theorem sound_kernel1 (c : Dev nD) (E : Set ℕ) (i : grid1.Coords) (arg1 : Memref sig .tc .vmem S4096x3 .f32) (harg1 : arg1.IsWhole) (arg2 : Memref sig .tc .vmem S4096x1 .i32) (harg2 : arg2.IsWhole) (arg3 : Memref sig .tc .vmem S3x256 .f32) (harg3 : arg3.IsWhole) (arg4 : Memref sig .tc .vmem S256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S64x256 .bf16) (harg9 : arg9.IsWhole) (arg10 : Memref sig .tc .vmem S256x256 .bf16) (harg10 : arg10.IsWhole) (arg11 : Memref sig .tc .vmem S256 .f32) (harg11 : arg11.IsWhole) (arg12 : Memref sig .tc .vmem S256x3 .bf16) (harg12 : arg12.IsWhole) (arg13 : Memref sig .tc .vmem S3x1 .f32) (harg13 : arg13.IsWhole) (arg14 : Memref sig .tc .vmem S3x4096 .f32) (harg14 : arg14.IsWhole)
    (x0 : Vec F S4096x3 .f32) (x1 : Vec F S4096x1 .i32) (x2 : Vec F S3x256 .f32) (x3 : Vec F S256 .f32) (x4 : Vec F S256x256 .bf16) (x5 : Vec F S256 .f32) (x6 : Vec F S256x256 .bf16) (x7 : Vec F S256 .f32) (x8 : Vec F S64x256 .bf16) (x9 : Vec F S256x256 .bf16) (x10 : Vec F S256 .f32) (x11 : Vec F S256x3 .bf16) (x12 : Vec F S3x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outOf x0 x1 x2 x3 x4 x5 x6 x7 x8 x9 x10 x11 x12)) -∗ K ⟨⟩))
      ⊢ wp frame (wpE (defs₀ (F := F)) Variants.none c none) E (cc1__branch_output_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__branch_output_kernel_eq_skeleton]; unfold cc1__branch_output_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  unfold outOf
  rw [View.read_writes_eq_canon _ _ _ (cover_out _), View.canon_unit_zero zero2]
  simp only [View.readAt_eq_ld,
    View.ld_unit_zero (S := S4096x3) zero2,
    View.ld_unit_zero (S := S4096x1) zero2,
    View.ld_unit_zero (S := S3x256) zero2,
    View.ld_unit_zero (S := S256) zero1,
    View.ld_unit_zero (S := S256x256) zero2,
    View.ld_unit_zero (S := S64x256) zero2,
    View.ld_unit_zero (S := S256x3) zero2,
    View.ld_unit_zero (S := S3x1) zero2]

/-- The stored block at point `t` is `outOf` of the thirteen input blocks there. -/
theorem outBlk_eq (c : Dev nD) (t : Fin cfg1.N) : outBlk V c t = outOf (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := rfl

/-! ## The body obligation, at a generic point -/

/-- What the body is called with at point `t`: the invariant, the core's debt and the fourteen current staging
    buffers, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the thirteen inputs' buffers hold their blocks, so the run applies; the invariant and the
    core's debt are the same before and after and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, outBlk_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation of region 1 at every point. -/
theorem body_obligation1 (c : Dev nD) : BodyObligation (dat1 (F := F) V c) (defs₀ (F := F)) Variants.none () Set.univ := fun t => by
  rw [bigSep_W1, bigSep_W1]
  exact sound_body1 V c t

end Cert.Kernel.Branch

end
-- ==== Proof.K.Whole.lean ====
/-
  The kernel's @main from the launch to the return: a host stretch (reshapes and format changes), region 0,
  a host stretch (the two cores' partial sums added, the counts clamped below by one, the quotient), region 1, and a
  last transposition. `W0 … W5` are the unscoped buffers' contents between the items; `run_all` says every weakly fair
  execution ends with every unscoped buffer at `W5`, from which the frame (no item writes an argument) and the
  result's value are read.
-/
import proofs.«404486_j82265803588247_3_alg».proof.Proof.K.TrunkData
import proofs.«404486_j82265803588247_3_alg».proof.Proof.K.BranchData
import proofs.«404486_j82265803588247_3_alg».proof.Proof.Gen.Kernel.Regions
import Idealize.ShloMosaic.Lib.Pipeline.Frame
import Idealize.ShloMosaic.Lib.Pipeline.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (Trunk.dat0 (V1 m) c).arrAt w cfg0.N
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (Branch.dat1 (V3 m) c).arrAt w cfg1.N
abbrev V4 : (c : Dev nD) → (b : Ref sig .tc) → Buf (Elt F) ((c : Thread nD τ).loc b) := fun c b => W4 m c b
/-- After the last host stretch: the contents at the return. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (Trunk.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Branch.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- At region 0's exit each of its arrays holds what the pipeline leaves, and every other buffer what it held at
    entry. -/
theorem hF0 (c : Dev nD) (w : Fin cfg0.W) : (Trunk.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at region 1's exit. -/
theorem hF1 (c : Dev nD) (w : Fin cfg1.W) : (Branch.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Trunk.dat0 (V1 m) c
  | ⟨1, _⟩ => fun c => Branch.dat1 (V3 m) c
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the contents at the return, the
    generator register at some state. -/
abbrev Tₙ (c : Dev nD) : sProp 𝕄 := iprop(StableHlo.held (c : Thread nD τ) (Pipeline.ucRefs τ sig) (W5 m c) ∗ ∃ r, prngReg c r)

/-- After the last host stretch the thread state is the last one beside the core owing nothing. -/
theorem last_link (c : Dev nD) :
    iprop(StableHlo.held (c : Thread nD τ) (Pipeline.ucRefs τ sig) (W5 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh] <;> iassumption
  iexact HO

/-! ## The regions as segments -/

-- a library lemma stated over the pinned configuration meets the printed one only when unification may unfold plain
-- definitions in a metavariable's type
set_option backward.isDefEq.respectTransparency.types false in
/-- REGION 0 over the thread state: entered from every unscoped buffer at `W1`, left at `W2`. Its arrays are split
    out of the unscoped buffers and put back at the exit contents; the generator register and the scoped rest enter the
    carried invariant as the class's (`Trunk.hin0`) and come back out of it after the last point (`Trunk.hout0`);
    nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Trunk.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (Trunk.A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (Trunk.hin0 (V1 m) c)
    unfold Pipeline.ΦA
    iintro ⟨Hp, -, Hr⟩
    isplitl [Hr]; · iexact Hr
    iexact Hp
  hout c := by
    rw [Pipeline.ownSems0_none]
    refine (Trunk.hout0 (V1 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration meets the printed one only when unification may unfold plain
-- definitions in a metavariable's type
set_option backward.isDefEq.respectTransparency.types false in
/-- REGION 1 over the thread state: entered from every unscoped buffer at `W3`, left at `W4`; its invariant is the
    class's at every point. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Branch.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (Branch.A_eq1 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev items : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the items. -/
theorem main_run (c : Dev nD) : main (F := F) c = Pipeline.Seg.run (items m) := (main_chain c).trans (by chain_rfl)

set_option backward.isDefEq.respectTransparency.types false in
/-- THE RUN: every weakly fair execution of @main from memory `m` with zero counters terminates, faulting nowhere, and
    every final memory holds every unscoped buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ Variants.none L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- An unscoped TensorCore reference is among those `run_all` speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A window of region 0 whose array is neither of its two result arrays is an input window. -/
theorem in_of_not_out0 : ∀ w : Fin cfg0.W, Pipeline.arrRef spec0 w ∉ ([main_v9_0, main_v9_1] : List (Ref sig .tc)) → (cfg0.win w).isOut = false := by
  decide
/-- A window of region 1 whose array is not its result array is an input window. -/
theorem in_of_not_out1 : ∀ w : Fin cfg1.W, Pipeline.arrRef spec1 w ∉ ([main_v18] : List (Ref sig .tc)) → (cfg1.win w).isOut = false := by
  decide

/-- Region 0 leaves every buffer but its two result arrays as it found it: an input window's array is folded to
    itself, and a buffer that is no window's array bypasses the region. -/
theorem W2_keep (c : Dev nD) (b : Ref sig .tc) (hr0 : b ∉ ([main_v9_0, main_v9_1] : List (Ref sig .tc))) :
    W2 m c (Proc.devRef .tc b) = W1 m c (Proc.devRef .tc b) := by
  by_cases h : ∃ w, Pipeline.arrRef spec0 w = b
  · obtain ⟨w, rfl⟩ := h
    exact (W2_arr m c w).trans (((Trunk.dat0 (V1 m) c).arrAt_in w (in_of_not_out0 w hr0) _).trans (Trunk.A_eq0 (V1 m) c w))
  · exact W2_of_ne m c b fun w e => h ⟨w, e⟩
/-- Region 1 leaves every buffer but its result array as it found it. -/
theorem W4_keep (c : Dev nD) (b : Ref sig .tc) (hr1 : b ∉ ([main_v18] : List (Ref sig .tc))) :
    W4 m c (Proc.devRef .tc b) = W3 m c (Proc.devRef .tc b) := by
  by_cases h : ∃ w, Pipeline.arrRef spec1 w = b
  · obtain ⟨w, rfl⟩ := h
    exact (W4_arr m c w).trans (((Branch.dat1 (V3 m) c).arrAt_in w (in_of_not_out1 w hr1) _).trans (Branch.A_eq1 (V3 m) c w))
  · exact W4_of_ne m c b fun w e => h ⟨w, e⟩

/-- No item of @main writes an argument: at the return it holds what it was launched with. -/
theorem W5_arg (c : Dev nD) (b : Ref sig .tc) (h0 : b ∉ hostOps0_W) (hr0 : b ∉ ([main_v9_0, main_v9_1] : List (Ref sig .tc)))
    (h1 : b ∉ hostOps1_W) (hr1 : b ∉ ([main_v18] : List (Ref sig .tc))) (h2 : b ∉ hostOps2_W) :
    W5 m c (Proc.devRef .tc b) = m ((c : Thread nD τ).loc b) :=
  calc W5 m c (Proc.devRef .tc b)
    _ = W4 m c (Proc.devRef .tc b) := StableHlo.after_of_writes_sub hostOps2 _ hostOps2_writes h2
    _ = W3 m c (Proc.devRef .tc b) := W4_keep m c b hr1
    _ = W2 m c (Proc.devRef .tc b) := StableHlo.after_of_writes_sub hostOps1 _ hostOps1_writes h1
    _ = W1 m c (Proc.devRef .tc b) := W2_keep m c b hr0
    _ = W0 m c (Proc.devRef .tc b) := StableHlo.after_of_writes_sub hostOps0 _ hostOps0_writes h0
    _ = m ((c : Thread nD τ).loc b) := rfl

/-- THE FRAME of the kernel, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  exact (θ_run defs _ _).mono (fun r h c =>
    ⟨(h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide)),
     (h c _ (mem_uc main_arg5 (by decide))).trans (W5_arg m c main_arg5 (by decide) (by decide) (by decide) (by decide) (by decide)),
     (h c _ (mem_uc main_arg6 (by decide))).trans (W5_arg m c main_arg6 (by decide) (by decide) (by decide) (by decide) (by decide)),
     (h c _ (mem_uc main_arg7 (by decide))).trans (W5_arg m c main_arg7 (by decide) (by decide) (by decide) (by decide) (by decide)),
     (h c _ (mem_uc main_arg8 (by decide))).trans (W5_arg m c main_arg8 (by decide) (by decide) (by decide) (by decide) (by decide)),
     (h c _ (mem_uc main_arg9 (by decide))).trans (W5_arg m c main_arg9 (by decide) (by decide) (by decide) (by decide) (by decide)),
     (h c _ (mem_uc main_arg10 (by decide))).trans (W5_arg m c main_arg10 (by decide) (by decide) (by decide) (by decide) (by decide)),
     (h c _ (mem_uc main_arg11 (by decide))).trans (W5_arg m c main_arg11 (by decide) (by decide) (by decide) (by decide) (by decide)),
     (h c _ (mem_uc main_arg12 (by decide))).trans (W5_arg m c main_arg12 (by decide) (by decide) (by decide) (by decide) (by decide)),
     (h c _ (mem_uc main_arg13 (by decide))).trans (W5_arg m c main_arg13 (by decide) (by decide) (by decide) (by decide) (by decide)),
     (h c _ (mem_uc main_arg14 (by decide))).trans (W5_arg m c main_arg14 (by decide) (by decide) (by decide) (by decide) (by decide)),
     (h c _ (mem_uc main_arg15 (by decide))).trans (W5_arg m c main_arg15 (by decide) (by decide) (by decide) (by decide) (by decide)),
     (h c _ (mem_uc main_arg16 (by decide))).trans (W5_arg m c main_arg16 (by decide) (by decide) (by decide) (by decide) (by decide)),
     (h c _ (mem_uc main_arg17 (by decide))).trans (W5_arg m c main_arg17 (by decide) (by decide) (by decide) (by decide) (by decide)),
     (h c _ (mem_uc main_arg18 (by decide))).trans (W5_arg m c main_arg18 (by decide) (by decide) (by decide) (by decide) (by decide)),
     (h c _ (mem_uc main_arg19 (by decide))).trans (W5_arg m c main_arg19 (by decide) (by decide) (by decide) (by decide) (by decide))⟩) (run_all m ρ)

/-- THE RUN read at the result and the arguments. -/
theorem run_value : θ_run defs (onTc (τ := τ) (main (F := F))) ⟨m, fun _ => 0, ρ⟩ (fun r => ∀ c : Dev nD,
      r.2.mem ((c.tc : Thread nD τ).loc main_v19) = W5 m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  exact (θ_run defs _ _).mono (fun r h c =>
    ⟨h c _ (mem_uc main_v19 (by decide)),
     (h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide)),
     (h c _ (mem_uc main_arg5 (by decide))).trans (W5_arg m c main_arg5 (by decide) (by decide) (by decide) (by decide) (by decide)),
     (h c _ (mem_uc main_arg6 (by decide))).trans (W5_arg m c main_arg6 (by decide) (by decide) (by decide) (by decide) (by decide)),
     (h c _ (mem_uc main_arg7 (by decide))).trans (W5_arg m c main_arg7 (by decide) (by decide) (by decide) (by decide) (by decide)),
     (h c _ (mem_uc main_arg8 (by decide))).trans (W5_arg m c main_arg8 (by decide) (by decide) (by decide) (by decide) (by decide)),
     (h c _ (mem_uc main_arg9 (by decide))).trans (W5_arg m c main_arg9 (by decide) (by decide) (by decide) (by decide) (by decide)),
     (h c _ (mem_uc main_arg10 (by decide))).trans (W5_arg m c main_arg10 (by decide) (by decide) (by decide) (by decide) (by decide)),
     (h c _ (mem_uc main_arg11 (by decide))).trans (W5_arg m c main_arg11 (by decide) (by decide) (by decide) (by decide) (by decide)),
     (h c _ (mem_uc main_arg12 (by decide))).trans (W5_arg m c main_arg12 (by decide) (by decide) (by decide) (by decide) (by decide)),
     (h c _ (mem_uc main_arg13 (by decide))).trans (W5_arg m c main_arg13 (by decide) (by decide) (by decide) (by decide) (by decide)),
     (h c _ (mem_uc main_arg14 (by decide))).trans (W5_arg m c main_arg14 (by decide) (by decide) (by decide) (by decide) (by decide)),
     (h c _ (mem_uc main_arg15 (by decide))).trans (W5_arg m c main_arg15 (by decide) (by decide) (by decide) (by decide) (by decide)),
     (h c _ (mem_uc main_arg16 (by decide))).trans (W5_arg m c main_arg16 (by decide) (by decide) (by decide) (by decide) (by decide)),
     (h c _ (mem_uc main_arg17 (by decide))).trans (W5_arg m c main_arg17 (by decide) (by decide) (by decide) (by decide) (by decide)),
     (h c _ (mem_uc main_arg18 (by decide))).trans (W5_arg m c main_arg18 (by decide) (by decide) (by decide) (by decide) (by decide)),
     (h c _ (mem_uc main_arg19 (by decide))).trans (W5_arg m c main_arg19 (by decide) (by decide) (by decide) (by decide) (by decide))⟩) (run_all m ρ)

end Cert.Kernel.Whole

end
-- ==== Proof.lean ====
/-
  The proof of `Cert.Claim`. Both programs compute, at each known node, a two-layer head of the node's branch
  vector times the mean trunk vector of the segment the node's id names; the kernel gets the segment sums and counts
  from one-hot products accumulated tile by tile on two cores, and the selected mean from another one-hot product, where
  the reference scatters and gathers. Over the extended reals these are the same sums. The frames of the two kernel
  programs come from their runs region by region; the reference's from its run.
-/
import proofs.«404486_j82265803588247_3_alg».proof.Defs
import proofs.«404486_j82265803588247_3_alg».proof.Proof.Claims
import proofs.«404486_j82265803588247_3_alg».proof.Proof.K.Whole
import proofs.«404486_j82265803588247_3_alg».proof.Proof.Gen.Kernel
import proofs.«404486_j82265803588247_3_alg».proof.Proof.Gen.KernelIdeal
import proofs.«404486_j82265803588247_3_alg».proof.Proof.Gen.ReferenceIdeal
import proofs.«404486_j82265803588247_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Whole.frame (F := Bits) m ρ,
    Claims.frame_ki, Claims.frame_ri, Claims.preserves, Claims.algebraic⟩

end Cert.Proof

end
